-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S160000x2 : Shape := ⟨2, ![160000, 2]⟩
abbrev S4x2x256x128 : Shape := ⟨4, ![4, 2, 256, 128]⟩
abbrev S4x2x128x128 : Shape := ⟨4, ![4, 2, 128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x2x256x128 : S_.BroadcastsInDim S4x2x256x128 (![] : Fin 0 → Fin S4x2x256x128.rank)
  reducesTo_S4x2x256x128_S_d0_1_2_3 : S4x2x256x128.ReducesTo [0, 1, 2, 3] S_
  bcast_S_S4x2x128x128 : S_.BroadcastsInDim S4x2x128x128 (![] : Fin 0 → Fin S4x2x128x128.rank)
  reducesTo_S4x2x128x128_S_d0_1_2_3 : S4x2x128x128.ReducesTo [0, 1, 2, 3] S_

variable [Facts]

def fn {F : FTy → Type} [FloatOps F] (main_arg0 : FVec F S50000x128 .f32) (main_arg1 : IVec S160000x2 32) (main_arg2 : IVec S160000x2 32) (main_arg3 : IVec S160000x2 32) (main_arg4 : IVec S160000x2 32) (main_arg5 : FVec F S4x2x256x128 .f32) (main_arg6 : FVec F S4x2x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x2x256x128 .f32 := Host.absf main_arg5
  let main_cst_0 : FVec F S_ .f32 := constant S_ .f32 0x7F800000#32
  let main_v5 : FVec F S4x2x256x128 .f32 := broadcastInDim S4x2x256x128 ![] bcast_S_S4x2x256x128 main_cst_0
  let main_v6 : IVec S4x2x256x128 1 := cmpf .olt main_v4 main_v5
  let main_c_1 : IVec S_ 1 := constantI S_ 1 1#1
  let main_v7 : IVec S_ 1 := (fun x v => Host.reduce IntOp.andi x v reducesTo_S4x2x256x128_S_d0_1_2_3 h_S_) main_v6 main_c_1
  let main_v8 : IVec S_ 1 := andi main_v3 main_v7
  let main_v9 : FVec F S4x2x128x128 .f32 := Host.absf main_arg6
  let main_cst_2 : FVec F S_ .f32 := constant S_ .f32 0x7F800000#32
  let main_v10 : FVec F S4x2x128x128 .f32 := broadcastInDim S4x2x128x128 ![] bcast_S_S4x2x128x128 main_cst_2
  let main_v11 : IVec S4x2x128x128 1 := cmpf .olt main_v9 main_v10
  let main_c_3 : IVec S_ 1 := constantI S_ 1 1#1
  let main_v12 : IVec S_ 1 := (fun x v => Host.reduce IntOp.andi x v reducesTo_S4x2x128x128_S_d0_1_2_3 h_S_) main_v11 main_c_3
  let main_v13 : IVec S_ 1 := andi main_v8 main_v12
  main_v13
-- ==== Kernel.lean ====
abbrev S50000x128 : Shape := ⟨2, ![50000, 128]⟩
abbrev S160000x2 : Shape := ⟨2, ![160000, 2]⟩
abbrev S4x2x256x128 : Shape := ⟨4, ![4, 2, 256, 128]⟩
abbrev S4x2x128x128 : Shape := ⟨4, ![4, 2, 128, 128]⟩
abbrev S160000x1 : Shape := ⟨2, ![160000, 1]⟩
abbrev S160000 : Shape := ⟨1, ![160000]⟩
abbrev S_ : Shape := ⟨0, ![]⟩
abbrev S160000x128 : Shape := ⟨2, ![160000, 128]⟩
abbrev S160000x256 : Shape := ⟨2, ![160000, 256]⟩
abbrev S1x160000x256 : Shape := ⟨3, ![1, 160000, 256]⟩
abbrev S4x160000x256 : Shape := ⟨3, ![4, 160000, 256]⟩
abbrev S4x1x256x128 : Shape := ⟨4, ![4, 1, 256, 128]⟩
abbrev S4x256x128 : Shape := ⟨3, ![4, 256, 128]⟩
abbrev S4x256x256 : Shape := ⟨3, ![4, 256, 256]⟩
abbrev S4x1x128x128 : Shape := ⟨4, ![4, 1, 128, 128]⟩
abbrev S4x128x128 : Shape := ⟨3, ![4, 128, 128]⟩
abbrev S4x128x256 : Shape := ⟨3, ![4, 128, 256]⟩
abbrev S1x4000x256 : Shape := ⟨3, ![1, 4000, 256]⟩
abbrev S1x256x256 : Shape := ⟨3, ![1, 256, 256]⟩
abbrev S4000x256 : Shape := ⟨2, ![4000, 256]⟩
abbrev S256x256 : Shape := ⟨2, ![256, 256]⟩
abbrev S4x160000x128 : Shape := ⟨3, ![4, 160000, 128]⟩
abbrev S1x160000 : Shape := ⟨2, ![1, 160000]⟩
abbrev S4x160000 : Shape := ⟨2, ![4, 160000]⟩
abbrev S640000x128 : Shape := ⟨2, ![640000, 128]⟩
abbrev S1280000x128 : Shape := ⟨2, ![1280000, 128]⟩
abbrev S640000 : Shape := ⟨1, ![640000]⟩
abbrev S1280000 : Shape := ⟨1, ![1280000]⟩
abbrev S1280000x1 : Shape := ⟨2, ![1280000, 1]⟩

abbrev nBuf : Space → Nat
  | .hbm => 168
  | .vmem => 8
  | .smem => 0
  | _ => 0

abbrev hbmTy0_0 (i : Nat) : BufTy := match i % 128 with
  | 0 => ⟨S50000x128, .f32⟩
  | 1 => ⟨S160000x2, .i32⟩
  | 2 => ⟨S160000x2, .i32⟩
  | 3 => ⟨S160000x2, .i32⟩
  | 4 => ⟨S160000x2, .i32⟩
  | 5 => ⟨S4x2x256x128, .f32⟩
  | 6 => ⟨S4x2x128x128, .f32⟩
  | 7 => ⟨S160000x1, .i32⟩
  | 8 => ⟨S160000, .i32⟩
  | 9 => ⟨S_, .i32⟩
  | 10 => ⟨S160000, .i32⟩
  | 11 => ⟨S160000, .i1⟩
  | 12 => ⟨S_, .i32⟩
  | 13 => ⟨S160000, .i32⟩
  | 14 => ⟨S160000, .i32⟩
  | 15 => ⟨S160000, .i32⟩
  | 16 => ⟨S160000x1, .i32⟩
  | 17 => ⟨S160000x128, .f32⟩
  | 18 => ⟨S160000x1, .i32⟩
  | 19 => ⟨S160000, .i32⟩
  | 20 => ⟨S_, .i32⟩
  | 21 => ⟨S160000, .i32⟩
  | 22 => ⟨S160000, .i1⟩
  | 23 => ⟨S_, .i32⟩
  | 24 => ⟨S160000, .i32⟩
  | 25 => ⟨S160000, .i32⟩
  | 26 => ⟨S160000, .i32⟩
  | 27 => ⟨S160000x1, .i32⟩
  | 28 => ⟨S160000x128, .f32⟩
  | 29 => ⟨S160000x256, .f32⟩
  | 30 => ⟨S160000x256, .bf16⟩
  | 31 => ⟨S160000x1, .i32⟩
  | 32 => ⟨S160000, .i32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000x128, .f32⟩
  | 42 => ⟨S160000x1, .i32⟩
  | 43 => ⟨S160000, .i32⟩
  | 44 => ⟨S_, .i32⟩
  | 45 => ⟨S160000, .i32⟩
  | 46 => ⟨S160000, .i1⟩
  | 47 => ⟨S_, .i32⟩
  | 48 => ⟨S160000, .i32⟩
  | 49 => ⟨S160000, .i32⟩
  | 50 => ⟨S160000, .i32⟩
  | 51 => ⟨S160000x1, .i32⟩
  | 52 => ⟨S160000x128, .f32⟩
  | 53 => ⟨S160000x256, .f32⟩
  | 54 => ⟨S160000x256, .bf16⟩
  | 55 => ⟨S160000x1, .i32⟩
  | 56 => ⟨S160000, .i32⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000x128, .f32⟩
  | 66 => ⟨S160000x1, .i32⟩
  | 67 => ⟨S160000, .i32⟩
  | 68 => ⟨S_, .i32⟩
  | 69 => ⟨S160000, .i32⟩
  | 70 => ⟨S160000, .i1⟩
  | 71 => ⟨S_, .i32⟩
  | 72 => ⟨S160000, .i32⟩
  | 73 => ⟨S160000, .i32⟩
  | 74 => ⟨S160000, .i32⟩
  | 75 => ⟨S160000x1, .i32⟩
  | 76 => ⟨S160000x128, .f32⟩
  | 77 => ⟨S160000x256, .f32⟩
  | 78 => ⟨S160000x256, .bf16⟩
  | 79 => ⟨S160000x1, .i32⟩
  | 80 => ⟨S160000, .i32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x128, .f32⟩
  | 90 => ⟨S160000x1, .i32⟩
  | 91 => ⟨S160000, .i32⟩
  | 92 => ⟨S_, .i32⟩
  | 93 => ⟨S160000, .i32⟩
  | 94 => ⟨S160000, .i1⟩
  | 95 => ⟨S_, .i32⟩
  | 96 => ⟨S160000, .i32⟩
  | 97 => ⟨S160000, .i32⟩
  | 98 => ⟨S160000, .i32⟩
  | 99 => ⟨S160000x1, .i32⟩
  | 100 => ⟨S160000x128, .f32⟩
  | 101 => ⟨S160000x256, .f32⟩
  | 102 => ⟨S160000x256, .bf16⟩
  | 103 => ⟨S1x160000x256, .bf16⟩
  | 104 => ⟨S1x160000x256, .bf16⟩
  | 105 => ⟨S1x160000x256, .bf16⟩
  | 106 => ⟨S1x160000x256, .bf16⟩
  | 107 => ⟨S4x160000x256, .bf16⟩
  | 108 => ⟨S4x1x256x128, .f32⟩
  | 109 => ⟨S4x256x128, .f32⟩
  | 110 => ⟨S4x1x256x128, .f32⟩
  | 111 => ⟨S4x256x128, .f32⟩
  | 112 => ⟨S4x256x256, .f32⟩
  | 113 => ⟨S4x256x256, .bf16⟩
  | 114 => ⟨S4x1x128x128, .f32⟩
  | 115 => ⟨S4x128x128, .f32⟩
  | 116 => ⟨S_, .f32⟩
  | 117 => ⟨S4x128x128, .f32⟩
  | 118 => ⟨S4x1x128x128, .f32⟩
  | 119 => ⟨S4x128x128, .f32⟩
  | 120 => ⟨S4x128x256, .f32⟩
  | 121 => ⟨S4x1x128x128, .f32⟩
  | 122 => ⟨S4x128x128, .f32⟩
  | 123 => ⟨S4x128x256, .f32⟩
  | 124 => ⟨S4x256x256, .f32⟩
  | 125 => ⟨S4x256x256, .bf16⟩
  | 126 => ⟨S4x160000x256, .f32⟩
  | 127 => ⟨S4x160000x128, .f32⟩
  | _ => ⟨S50000x128, .f32⟩

abbrev hbmTy0_1 (i : Nat) : BufTy := match i % 128 with
  | 0 => ⟨S4x160000x128, .f32⟩
  | 1 => ⟨S160000x1, .i32⟩
  | 2 => ⟨S160000, .i32⟩
  | 3 => ⟨S160000x1, .i32⟩
  | 4 => ⟨S160000, .i32⟩
  | 5 => ⟨S160000x1, .i32⟩
  | 6 => ⟨S160000, .i32⟩
  | 7 => ⟨S160000x1, .i32⟩
  | 8 => ⟨S160000, .i32⟩
  | 9 => ⟨S1x160000, .i32⟩
  | 10 => ⟨S1x160000, .i32⟩
  | 11 => ⟨S1x160000, .i32⟩
  | 12 => ⟨S1x160000, .i32⟩
  | 13 => ⟨S4x160000, .i32⟩
  | 14 => ⟨S160000x1, .i32⟩
  | 15 => ⟨S160000, .i32⟩
  | 16 => ⟨S160000x1, .i32⟩
  | 17 => ⟨S160000, .i32⟩
  | 18 => ⟨S160000x1, .i32⟩
  | 19 => ⟨S160000, .i32⟩
  | 20 => ⟨S160000x1, .i32⟩
  | 21 => ⟨S160000, .i32⟩
  | 22 => ⟨S1x160000, .i32⟩
  | 23 => ⟨S1x160000, .i32⟩
  | 24 => ⟨S1x160000, .i32⟩
  | 25 => ⟨S1x160000, .i32⟩
  | 26 => ⟨S4x160000, .i32⟩
  | 27 => ⟨S640000x128, .f32⟩
  | 28 => ⟨S640000x128, .f32⟩
  | 29 => ⟨S1280000x128, .f32⟩
  | 30 => ⟨S640000, .i32⟩
  | 31 => ⟨S640000, .i32⟩
  | 32 => ⟨S1280000, .i32⟩
  | 33 => ⟨S_, .f32⟩
  | 34 => ⟨S50000x128, .f32⟩
  | 35 => ⟨S1280000x1, .i32⟩
  | 36 => ⟨S50000x128, .f32⟩
  | 37 => ⟨S_, .f32⟩
  | 38 => ⟨S50000x128, .f32⟩
  | 39 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1x4000x256, .bf16⟩
  | .local _ .vmem, ⟨1, _⟩ => ⟨S1x4000x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x4000x256, .f32⟩
  | .local _ .vmem, ⟨7, _⟩ => ⟨S1x4000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_13 : Ref sig .tc := ⟨.hbm, 92, rfl⟩
abbrev main_v71 : Ref sig .tc := ⟨.hbm, 93, rfl⟩
abbrev main_v72 : Ref sig .tc := ⟨.hbm, 94, rfl⟩
abbrev main_c_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_15 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_call0_cst : Ref sig .tc := ⟨.hbm, 165, rfl⟩
abbrev main_call0_v0 : Ref sig .tc := ⟨.hbm, 166, rfl⟩
abbrev main_v140 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 40], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S160000x2_S160000x1_0_0 : S160000x2.Slices ![0, 0] S160000x1
  shapeCasts_S160000x1_S160000 : S160000x1.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  slices_S160000x2_S160000x1_0_1 : S160000x2.Slices ![0, 1] S160000x1
  concatenates_S160000x128_S160000x128_S160000x256_d1 : Shape.Concatenates [S160000x128, S160000x128] S160000x256 1
  bitsLt_bf16_f32 : FTy.bits .bf16 < FTy.bits .f32
  bcast_S160000x256_S1x160000x256_1_2 : S160000x256.BroadcastsInDim S1x160000x256 (![1, 2] : Fin 2 → Fin S1x160000x256.rank)
  concatenates_S1x160000x256_S1x160000x256_S1x160000x256_S1x160000x256_S4x160000x256_d0 : Shape.Concatenates [S1x160000x256, S1x160000x256, S1x160000x256, S1x160000x256] S4x160000x256 0
  slices_S4x2x256x128_S4x1x256x128_0_0_0_0 : S4x2x256x128.Slices ![0, 0, 0, 0] S4x1x256x128
  shapeCasts_S4x1x256x128_S4x256x128 : S4x1x256x128.ShapeCasts S4x256x128
  slices_S4x2x256x128_S4x1x256x128_0_1_0_0 : S4x2x256x128.Slices ![0, 1, 0, 0] S4x1x256x128
  concatenates_S4x256x128_S4x256x128_S4x256x256_d2 : Shape.Concatenates [S4x256x128, S4x256x128] S4x256x256 2
  slices_S4x2x128x128_S4x1x128x128_0_0_0_0 : S4x2x128x128.Slices ![0, 0, 0, 0] S4x1x128x128
  shapeCasts_S4x1x128x128_S4x128x128 : S4x1x128x128.ShapeCasts S4x128x128
  bcast_S_S4x128x128 : S_.BroadcastsInDim S4x128x128 (![] : Fin 0 → Fin S4x128x128.rank)
  concatenates_S4x128x128_S4x128x128_S4x128x256_d2 : Shape.Concatenates [S4x128x128, S4x128x128] S4x128x256 2
  slices_S4x2x128x128_S4x1x128x128_0_1_0_0 : S4x2x128x128.Slices ![0, 1, 0, 0] S4x1x128x128
  concatenates_S4x128x256_S4x128x256_S4x256x256_d1 : Shape.Concatenates [S4x128x256, S4x128x256] S4x256x256 1
  inb_S1x4000x256_S1x4000x256_0_0_0 : ∀ a, (![0, 0, 0] : Fin 3 → Nat) a + S1x4000x256.size a ≤ S1x4000x256.size a
  h_S1x4000x256 : 0 < S1x4000x256.numel
  shapeCasts_S1x4000x256_S4000x256 : S1x4000x256.ShapeCasts S4000x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S4000x256_S1x4000x256 : S4000x256.ShapeCasts S1x4000x256
  slices_S4x160000x256_S4x160000x128_0_0_0 : S4x160000x256.Slices ![0, 0, 0] S4x160000x128
  slices_S4x160000x256_S4x160000x128_0_0_128 : S4x160000x256.Slices ![0, 0, 128] S4x160000x128
  bcast_S160000_S1x160000_1 : S160000.BroadcastsInDim S1x160000 (![1] : Fin 1 → Fin S1x160000.rank)
  concatenates_S1x160000_S1x160000_S1x160000_S1x160000_S4x160000_d0 : Shape.Concatenates [S1x160000, S1x160000, S1x160000, S1x160000] S4x160000 0
  shapeCasts_S4x160000x128_S640000x128 : S4x160000x128.ShapeCasts S640000x128
  concatenates_S640000x128_S640000x128_S1280000x128_d0 : Shape.Concatenates [S640000x128, S640000x128] S1280000x128 0
  shapeCasts_S4x160000_S640000 : S4x160000.ShapeCasts S640000
  concatenates_S640000_S640000_S1280000_d0 : Shape.Concatenates [S640000, S640000] S1280000 0
  bcast_S_S50000x128 : S_.BroadcastsInDim S50000x128 (![] : Fin 0 → Fin S50000x128.rank)
  bcast_S1280000_S1280000x1_0 : S1280000.BroadcastsInDim S1280000x1 (![0] : Fin 1 → Fin S1280000x1.rank)
  gather_S50000x128_S160000x1_S160000x128_1_0_n_n_0_1_1128_wf : GatherDims.WF S50000x128 S160000x1 S160000x128 [1] [0] [] [0] [] 1 ![1, 128]
  dot_S4000x256_S256x256_S4000x256_1_0_0_1_n_n_wf : DotDims.WF S4000x256 S256x256 S4000x256 [1] [0] [0] [1] [] []
  scatter_S50000x128_S1280000x1_S1280000x128_1_0_0_1_wf : ScatterDims.WF S50000x128 S1280000x1 S1280000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4000x256.size a ≤ S4x160000x256.size a
  hwx0_0 : ∀ i : grid0.Coords, EltTy.bits .bf16 = 32 ∨ (Rect.block (s := S4x160000x256) S1x4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S4x256x256.size a
  hwx0_1 : ∀ i : grid0.Coords, EltTy.bits .bf16 = 32 ∨ (Rect.block (s := S4x256x256) S1x256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S4x256x256.size a
  hwx0_2 : ∀ i : grid0.Coords, EltTy.bits .bf16 = 32 ∨ (Rect.block (s := S4x256x256) S1x256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4000x256.size a ≤ S4x160000x256.size a
  hwx0_3 : ∀ i : grid0.Coords, EltTy.bits .f32 = 32 ∨ (Rect.block (s := S4x160000x256) S1x4000x256.size (cc0_transform_3 i) (hinb0_3 i)).WholeWords (EltTy.packing .f32)

variable [Facts₀]

def gather_S50000x128_S160000x1_S160000x128_1_0_n_n_0_1_1128 : GatherDims S50000x128 S160000x1 S160000x128 where
  offsetDims := [1]
  collapsedSliceDims := [0]
  operandBatchingDims := []
  startIndicesBatchingDims := []
  startIndexMap := [0]
  indexVectorDim := 1
  sliceSizes := ![1, 128]
  wf := gather_S50000x128_S160000x1_S160000x128_1_0_n_n_0_1_1128_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S50000x128_S1280000x1_S1280000x128_1_0_0_1 : ScatterDims S50000x128 S1280000x1 S1280000x128 where
  updateWindowDims := [1]
  insertedWindowDims := [0]
  scatterDimsToOperandDims := [0]
  indexVectorDim := 1
  wf := scatter_S50000x128_S1280000x1_S1280000x128_1_0_0_1_wf

abbrev win0_0 : Pipeline.Window sig grid0 :=
  Pipeline.Window.ofSpec (Memref.whole main_v84) S1x4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v90) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v101) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v102) S1x4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S160000x2 : Shape := ⟨2, ![160000, 2]⟩
abbrev S4x2x256x128 : Shape := ⟨4, ![4, 2, 256, 128]⟩
abbrev S4x2x128x128 : Shape := ⟨4, ![4, 2, 128, 128]⟩
abbrev S160000x1 : Shape := ⟨2, ![160000, 1]⟩
abbrev S160000 : Shape := ⟨1, ![160000]⟩
abbrev S_ : Shape := ⟨0, ![]⟩
abbrev S160000x128 : Shape := ⟨2, ![160000, 128]⟩
abbrev S160000x256 : Shape := ⟨2, ![160000, 256]⟩
abbrev S1x1x256x128 : Shape := ⟨4, ![1, 1, 256, 128]⟩
abbrev S256x128 : Shape := ⟨2, ![256, 128]⟩
abbrev S1x1x128x128 : Shape := ⟨4, ![1, 1, 128, 128]⟩
abbrev S128x128 : Shape := ⟨2, ![128, 128]⟩
abbrev S1280000x128 : Shape := ⟨2, ![1280000, 128]⟩
abbrev S1280000 : Shape := ⟨1, ![1280000]⟩
abbrev S1280000x1 : Shape := ⟨2, ![1280000, 1]⟩

abbrev nBuf : Space → Nat
  | .hbm => 196
  | .vmem => 0
  | .smem => 0
  | _ => 0

abbrev hbmTy0_0 (i : Nat) : BufTy := match i % 128 with
  | 0 => ⟨S50000x128, .f32⟩
  | 1 => ⟨S160000x2, .i32⟩
  | 2 => ⟨S160000x2, .i32⟩
  | 3 => ⟨S160000x2, .i32⟩
  | 4 => ⟨S160000x2, .i32⟩
  | 5 => ⟨S4x2x256x128, .f32⟩
  | 6 => ⟨S4x2x128x128, .f32⟩
  | 7 => ⟨S160000x1, .i32⟩
  | 8 => ⟨S160000, .i32⟩
  | 9 => ⟨S_, .i32⟩
  | 10 => ⟨S160000, .i32⟩
  | 11 => ⟨S160000, .i1⟩
  | 12 => ⟨S_, .i32⟩
  | 13 => ⟨S160000, .i32⟩
  | 14 => ⟨S160000, .i32⟩
  | 15 => ⟨S160000, .i32⟩
  | 16 => ⟨S160000x1, .i32⟩
  | 17 => ⟨S160000x128, .f32⟩
  | 18 => ⟨S160000x1, .i32⟩
  | 19 => ⟨S160000, .i32⟩
  | 20 => ⟨S_, .i32⟩
  | 21 => ⟨S160000, .i32⟩
  | 22 => ⟨S160000, .i1⟩
  | 23 => ⟨S_, .i32⟩
  | 24 => ⟨S160000, .i32⟩
  | 25 => ⟨S160000, .i32⟩
  | 26 => ⟨S160000, .i32⟩
  | 27 => ⟨S160000x1, .i32⟩
  | 28 => ⟨S160000x128, .f32⟩
  | 29 => ⟨S160000x256, .f32⟩
  | 30 => ⟨S1x1x256x128, .f32⟩
  | 31 => ⟨S256x128, .f32⟩
  | 32 => ⟨S160000x128, .f32⟩
  | 33 => ⟨S_, .f32⟩
  | 34 => ⟨S160000x128, .f32⟩
  | 35 => ⟨S160000x128, .f32⟩
  | 36 => ⟨S1x1x128x128, .f32⟩
  | 37 => ⟨S128x128, .f32⟩
  | 38 => ⟨S160000x128, .f32⟩
  | 39 => ⟨S160000x1, .i32⟩
  | 40 => ⟨S160000, .i32⟩
  | 41 => ⟨S1x1x256x128, .f32⟩
  | 42 => ⟨S256x128, .f32⟩
  | 43 => ⟨S160000x128, .f32⟩
  | 44 => ⟨S_, .f32⟩
  | 45 => ⟨S160000x128, .f32⟩
  | 46 => ⟨S160000x128, .f32⟩
  | 47 => ⟨S1x1x128x128, .f32⟩
  | 48 => ⟨S128x128, .f32⟩
  | 49 => ⟨S160000x128, .f32⟩
  | 50 => ⟨S160000x1, .i32⟩
  | 51 => ⟨S160000, .i32⟩
  | 52 => ⟨S160000x1, .i32⟩
  | 53 => ⟨S160000, .i32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x128, .f32⟩
  | 63 => ⟨S160000x1, .i32⟩
  | 64 => ⟨S160000, .i32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x128, .f32⟩
  | 74 => ⟨S160000x256, .f32⟩
  | 75 => ⟨S1x1x256x128, .f32⟩
  | 76 => ⟨S256x128, .f32⟩
  | 77 => ⟨S160000x128, .f32⟩
  | 78 => ⟨S_, .f32⟩
  | 79 => ⟨S160000x128, .f32⟩
  | 80 => ⟨S160000x128, .f32⟩
  | 81 => ⟨S1x1x128x128, .f32⟩
  | 82 => ⟨S128x128, .f32⟩
  | 83 => ⟨S160000x128, .f32⟩
  | 84 => ⟨S160000x1, .i32⟩
  | 85 => ⟨S160000, .i32⟩
  | 86 => ⟨S1x1x256x128, .f32⟩
  | 87 => ⟨S256x128, .f32⟩
  | 88 => ⟨S160000x128, .f32⟩
  | 89 => ⟨S_, .f32⟩
  | 90 => ⟨S160000x128, .f32⟩
  | 91 => ⟨S160000x128, .f32⟩
  | 92 => ⟨S1x1x128x128, .f32⟩
  | 93 => ⟨S128x128, .f32⟩
  | 94 => ⟨S160000x128, .f32⟩
  | 95 => ⟨S160000x1, .i32⟩
  | 96 => ⟨S160000, .i32⟩
  | 97 => ⟨S160000x1, .i32⟩
  | 98 => ⟨S160000, .i32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S160000x128, .f32⟩
  | 108 => ⟨S160000x1, .i32⟩
  | 109 => ⟨S160000, .i32⟩
  | 110 => ⟨S_, .i32⟩
  | 111 => ⟨S160000, .i32⟩
  | 112 => ⟨S160000, .i1⟩
  | 113 => ⟨S_, .i32⟩
  | 114 => ⟨S160000, .i32⟩
  | 115 => ⟨S160000, .i32⟩
  | 116 => ⟨S160000, .i32⟩
  | 117 => ⟨S160000x1, .i32⟩
  | 118 => ⟨S160000x128, .f32⟩
  | 119 => ⟨S160000x256, .f32⟩
  | 120 => ⟨S1x1x256x128, .f32⟩
  | 121 => ⟨S256x128, .f32⟩
  | 122 => ⟨S160000x128, .f32⟩
  | 123 => ⟨S_, .f32⟩
  | 124 => ⟨S160000x128, .f32⟩
  | 125 => ⟨S160000x128, .f32⟩
  | 126 => ⟨S1x1x128x128, .f32⟩
  | 127 => ⟨S128x128, .f32⟩
  | _ => ⟨S50000x128, .f32⟩

abbrev hbmTy0_1 (i : Nat) : BufTy := match i % 128 with
  | 0 => ⟨S160000x128, .f32⟩
  | 1 => ⟨S160000x1, .i32⟩
  | 2 => ⟨S160000, .i32⟩
  | 3 => ⟨S1x1x256x128, .f32⟩
  | 4 => ⟨S256x128, .f32⟩
  | 5 => ⟨S160000x128, .f32⟩
  | 6 => ⟨S_, .f32⟩
  | 7 => ⟨S160000x128, .f32⟩
  | 8 => ⟨S160000x128, .f32⟩
  | 9 => ⟨S1x1x128x128, .f32⟩
  | 10 => ⟨S128x128, .f32⟩
  | 11 => ⟨S160000x128, .f32⟩
  | 12 => ⟨S160000x1, .i32⟩
  | 13 => ⟨S160000, .i32⟩
  | 14 => ⟨S160000x1, .i32⟩
  | 15 => ⟨S160000, .i32⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x128, .f32⟩
  | 25 => ⟨S160000x1, .i32⟩
  | 26 => ⟨S160000, .i32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S160000x128, .f32⟩
  | 36 => ⟨S160000x256, .f32⟩
  | 37 => ⟨S1x1x256x128, .f32⟩
  | 38 => ⟨S256x128, .f32⟩
  | 39 => ⟨S160000x128, .f32⟩
  | 40 => ⟨S_, .f32⟩
  | 41 => ⟨S160000x128, .f32⟩
  | 42 => ⟨S160000x128, .f32⟩
  | 43 => ⟨S1x1x128x128, .f32⟩
  | 44 => ⟨S128x128, .f32⟩
  | 45 => ⟨S160000x128, .f32⟩
  | 46 => ⟨S160000x1, .i32⟩
  | 47 => ⟨S160000, .i32⟩
  | 48 => ⟨S1x1x256x128, .f32⟩
  | 49 => ⟨S256x128, .f32⟩
  | 50 => ⟨S160000x128, .f32⟩
  | 51 => ⟨S_, .f32⟩
  | 52 => ⟨S160000x128, .f32⟩
  | 53 => ⟨S160000x128, .f32⟩
  | 54 => ⟨S1x1x128x128, .f32⟩
  | 55 => ⟨S128x128, .f32⟩
  | 56 => ⟨S160000x128, .f32⟩
  | 57 => ⟨S160000x1, .i32⟩
  | 58 => ⟨S160000, .i32⟩
  | 59 => ⟨S1280000x128, .f32⟩
  | 60 => ⟨S1280000, .i32⟩
  | 61 => ⟨S_, .f32⟩
  | 62 => ⟨S50000x128, .f32⟩
  | 63 => ⟨S1280000x1, .i32⟩
  | 64 => ⟨S50000x128, .f32⟩
  | 65 => ⟨S_, .f32⟩
  | 66 => ⟨S50000x128, .f32⟩
  | 67 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call1_cst : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_3 : Ref sig .tc := ⟨.hbm, 54, rfl⟩
abbrev main_v39 : Ref sig .tc := ⟨.hbm, 55, rfl⟩
abbrev main_v40 : Ref sig .tc := ⟨.hbm, 56, rfl⟩
abbrev main_c_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_5 : Ref sig .tc := ⟨.hbm, 65, rfl⟩
abbrev main_v48 : Ref sig .tc := ⟨.hbm, 66, rfl⟩
abbrev main_v49 : Ref sig .tc := ⟨.hbm, 67, rfl⟩
abbrev main_c_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call2_cst : Ref sig .tc := ⟨.hbm, 78, rfl⟩
abbrev main_call2_v0 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_call3_cst : Ref sig .tc := ⟨.hbm, 89, rfl⟩
abbrev main_call3_v0 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_7 : Ref sig .tc := ⟨.hbm, 99, rfl⟩
abbrev main_v76 : Ref sig .tc := ⟨.hbm, 100, rfl⟩
abbrev main_v77 : Ref sig .tc := ⟨.hbm, 101, rfl⟩
abbrev main_c_8 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_9 : Ref sig .tc := ⟨.hbm, 110, rfl⟩
abbrev main_v85 : Ref sig .tc := ⟨.hbm, 111, rfl⟩
abbrev main_v86 : Ref sig .tc := ⟨.hbm, 112, rfl⟩
abbrev main_c_10 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_call4_cst : Ref sig .tc := ⟨.hbm, 123, rfl⟩
abbrev main_call4_v0 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_call5_cst : Ref sig .tc := ⟨.hbm, 134, rfl⟩
abbrev main_call5_v0 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_c_11 : Ref sig .tc := ⟨.hbm, 144, rfl⟩
abbrev main_v113 : Ref sig .tc := ⟨.hbm, 145, rfl⟩
abbrev main_v114 : Ref sig .tc := ⟨.hbm, 146, rfl⟩
abbrev main_c_12 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_c_13 : Ref sig .tc := ⟨.hbm, 155, rfl⟩
abbrev main_v122 : Ref sig .tc := ⟨.hbm, 156, rfl⟩
abbrev main_v123 : Ref sig .tc := ⟨.hbm, 157, rfl⟩
abbrev main_c_14 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_call6_cst : Ref sig .tc := ⟨.hbm, 168, rfl⟩
abbrev main_call6_v0 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_call7_cst : Ref sig .tc := ⟨.hbm, 179, rfl⟩
abbrev main_call7_v0 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_call8_cst : Ref sig .tc := ⟨.hbm, 193, rfl⟩
abbrev main_call8_v0 : Ref sig .tc := ⟨.hbm, 194, rfl⟩
abbrev main_v153 : Ref sig .tc := ⟨.hbm, 195, rfl⟩

abbrev nD : Nat := 1
abbrev τ : Topo := Topo.v7x

variable {F : FTy → Type} [FloatOps F]

class Facts₀ : Prop where
  slices_S160000x2_S160000x1_0_0 : S160000x2.Slices ![0, 0] S160000x1
  shapeCasts_S160000x1_S160000 : S160000x1.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  slices_S160000x2_S160000x1_0_1 : S160000x2.Slices ![0, 1] S160000x1
  concatenates_S160000x128_S160000x128_S160000x256_d1 : Shape.Concatenates [S160000x128, S160000x128] S160000x256 1
  slices_S4x2x256x128_S1x1x256x128_0_0_0_0 : S4x2x256x128.Slices ![0, 0, 0, 0] S1x1x256x128
  shapeCasts_S1x1x256x128_S256x128 : S1x1x256x128.ShapeCasts S256x128
  bcast_S_S160000x128 : S_.BroadcastsInDim S160000x128 (![] : Fin 0 → Fin S160000x128.rank)
  slices_S4x2x128x128_S1x1x128x128_0_0_0_0 : S4x2x128x128.Slices ![0, 0, 0, 0] S1x1x128x128
  shapeCasts_S1x1x128x128_S128x128 : S1x1x128x128.ShapeCasts S128x128
  slices_S4x2x256x128_S1x1x256x128_0_1_0_0 : S4x2x256x128.Slices ![0, 1, 0, 0] S1x1x256x128
  slices_S4x2x128x128_S1x1x128x128_0_1_0_0 : S4x2x128x128.Slices ![0, 1, 0, 0] S1x1x128x128
  slices_S4x2x256x128_S1x1x256x128_1_0_0_0 : S4x2x256x128.Slices ![1, 0, 0, 0] S1x1x256x128
  slices_S4x2x128x128_S1x1x128x128_1_0_0_0 : S4x2x128x128.Slices ![1, 0, 0, 0] S1x1x128x128
  slices_S4x2x256x128_S1x1x256x128_1_1_0_0 : S4x2x256x128.Slices ![1, 1, 0, 0] S1x1x256x128
  slices_S4x2x128x128_S1x1x128x128_1_1_0_0 : S4x2x128x128.Slices ![1, 1, 0, 0] S1x1x128x128
  slices_S4x2x256x128_S1x1x256x128_2_0_0_0 : S4x2x256x128.Slices ![2, 0, 0, 0] S1x1x256x128
  slices_S4x2x128x128_S1x1x128x128_2_0_0_0 : S4x2x128x128.Slices ![2, 0, 0, 0] S1x1x128x128
  slices_S4x2x256x128_S1x1x256x128_2_1_0_0 : S4x2x256x128.Slices ![2, 1, 0, 0] S1x1x256x128
  slices_S4x2x128x128_S1x1x128x128_2_1_0_0 : S4x2x128x128.Slices ![2, 1, 0, 0] S1x1x128x128
  slices_S4x2x256x128_S1x1x256x128_3_0_0_0 : S4x2x256x128.Slices ![3, 0, 0, 0] S1x1x256x128
  slices_S4x2x128x128_S1x1x128x128_3_0_0_0 : S4x2x128x128.Slices ![3, 0, 0, 0] S1x1x128x128
  slices_S4x2x256x128_S1x1x256x128_3_1_0_0 : S4x2x256x128.Slices ![3, 1, 0, 0] S1x1x256x128
  slices_S4x2x128x128_S1x1x128x128_3_1_0_0 : S4x2x128x128.Slices ![3, 1, 0, 0] S1x1x128x128
  concatenates_S160000x128_S160000x128_S160000x128_S160000x128_S160000x128_S160000x128_S160000x128_S160000x128_S1280000x128_d0 : Shape.Concatenates [S160000x128, S160000x128, S160000x128, S160000x128, S160000x128, S160000x128, S160000x128, S160000x128] S1280000x128 0
  concatenates_S160000_S160000_S160000_S160000_S160000_S160000_S160000_S160000_S1280000_d0 : Shape.Concatenates [S160000, S160000, S160000, S160000, S160000, S160000, S160000, S160000] S1280000 0
  bcast_S_S50000x128 : S_.BroadcastsInDim S50000x128 (![] : Fin 0 → Fin S50000x128.rank)
  bcast_S1280000_S1280000x1_0 : S1280000.BroadcastsInDim S1280000x1 (![0] : Fin 1 → Fin S1280000x1.rank)
  gather_S50000x128_S160000x1_S160000x128_1_0_n_n_0_1_1128_wf : GatherDims.WF S50000x128 S160000x1 S160000x128 [1] [0] [] [0] [] 1 ![1, 128]
  dot_S160000x256_S256x128_S160000x128_1_0_0_1_n_n_wf : DotDims.WF S160000x256 S256x128 S160000x128 [1] [0] [0] [1] [] []
  dot_S160000x128_S128x128_S160000x128_1_0_0_1_n_n_wf : DotDims.WF S160000x128 S128x128 S160000x128 [1] [0] [0] [1] [] []
  scatter_S50000x128_S1280000x1_S1280000x128_1_0_0_1_wf : ScatterDims.WF S50000x128 S1280000x1 S1280000x128 [1] [0] [0] 1

variable [Facts₀]

def gather_S50000x128_S160000x1_S160000x128_1_0_n_n_0_1_1128 : GatherDims S50000x128 S160000x1 S160000x128 where
  offsetDims := [1]
  collapsedSliceDims := [0]
  operandBatchingDims := []
  startIndicesBatchingDims := []
  startIndexMap := [0]
  indexVectorDim := 1
  sliceSizes := ![1, 128]
  wf := gather_S50000x128_S160000x1_S160000x128_1_0_n_n_0_1_1128_wf
def dot_S160000x256_S256x128_S160000x128_1_0_0_1_n_n : DotDims S160000x256 S256x128 S160000x128 where
  lhsContracting := [1]
  rhsContracting := [0]
  lhsNonContracting := [0]
  rhsNonContracting := [1]
  lhsBatch := []
  rhsBatch := []
  wf := dot_S160000x256_S256x128_S160000x128_1_0_0_1_n_n_wf
def dot_S160000x128_S128x128_S160000x128_1_0_0_1_n_n : DotDims S160000x128 S128x128 S160000x128 where
  lhsContracting := [1]
  rhsContracting := [0]
  lhsNonContracting := [0]
  rhsNonContracting := [1]
  lhsBatch := []
  rhsBatch := []
  wf := dot_S160000x128_S128x128_S160000x128_1_0_0_1_n_n_wf
def scatter_S50000x128_S1280000x1_S1280000x128_1_0_0_1 : ScatterDims S50000x128 S1280000x1 S1280000x128 where
  updateWindowDims := [1]
  insertedWindowDims := [0]
  scatterDimsToOperandDims := [0]
  indexVectorDim := 1
  wf := scatter_S50000x128_S1280000x1_S1280000x128_1_0_0_1_wf

class Facts : Prop extends Facts₀ where

variable [Facts]
-- ==== Proof.KBase.lean ====
/-
  The kernel program as printed around its one region: what every buffer holds when the region is entered.
-/
import proofs.«431189_j85143431676502_1_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Core `c`'s buffer contents when the region is entered: the launch memory after the host operations that precede it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.FrameKernel.lean ====
/-
  The frame of the kernel program as printed: it runs to the end, faults nowhere, and leaves its seven argument
  arrays as launched.

  @main is 119 host operations (gathers of endpoint rows, concatenations, the two weight re-layouts), one
  pipelined region over a 4 × 40 grid, then 41 host operations (slices, the scatter-add, the final clamp at zero).
  The region's body is one control case: it loads its three input blocks whole, multiplies, clamps, multiplies
  again and stores the 4000 × 256 output block whole. So at every grid point each input's staging buffer holds
  its block of the array as the region found it, and the output's buffer ends at the body's value of those three
  blocks. The host operations write only their own result buffers, none of which is an argument or one of the
  region's four arrays.
-/
import proofs.«431189_j85143431676502_1_alg».proof.Proof.KBase
import proofs.«431189_j85143431676502_1_alg».proof.Proof.Gen.Kernel.Skeleton
import proofs.«431189_j85143431676502_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the host operations before the region, the region, and the host operations after it: run from the launch
    memory it reduces to the region entered at `V` and continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The operations after the region touch the region's arrays and the buffers that bypass it only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

set_option maxHeartbeats 4000000 in
/-- No operation of the first stretch after the region writes one of the region's four arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- Nor does the final clamp. -/
theorem hostOps1_1_keeps : (hostOps1_1 : List (HloOp τ sig (Elt F))).Forall fun op =>
    ∀ w, Proc.devRef .tc (Pipeline.arrRef spec0 w) ∉ op.writes := by
  simp only [hostOps1_1, StableHlo.TRef.nullary, StableHlo.TRef.unary, StableHlo.TRef.binary, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- So the region's arrays survive the tail. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · exact (List.forall_iff_forall_mem.mp hostOps1_keeps) op hop
  · exact (List.forall_iff_forall_mem.mp hostOps1_1_keeps) op hop

set_option maxHeartbeats 4000000 in
/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 4000000 in
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, so the block left by the point before is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved, so the block left by the point before is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved, so the block left by the point before is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline library's frame post read at
    the seven argument arrays is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's accesses -/

abbrev r0_0 : Rect S1x4000x256 := Rect.unit (s := S1x4000x256) ![0, 0, 0] S1x4000x256.size inb_S1x4000x256_S1x4000x256_0_0_0
abbrev r0_1 : Rect S1x256x256 := Rect.unit (s := S1x256x256) ![0, 0, 0] S1x256x256.size inb_S1x256x256_S1x256x256_0_0_0

/-! ## What the body leaves in the output window's buffer -/

/-- The output's staging buffer after the body, from the three input blocks: its one whole-block store. -/
def out0_3 (x0 : Vec F S1x4000x256 .bf16) (x1 : Vec F S1x256x256 .bf16) (x2 : Vec F S1x256x256 .bf16) : Vec F S1x4000x256 .f32 :=
  View.canon [⟨r0_0, k0_pay1 (View.ld x0 r0_0) (View.ld x1 r0_1) (View.ld x2 r0_1)⟩]

/-- The one store is of the whole block, so it covers the buffer. -/
theorem cover0_3 (p0 : Vec F S1x4000x256 .f32) (y : S1x4000x256.Idx) :
    ∃ pc ∈ ([⟨r0_0, p0⟩] : List (View.Piece (Elt F) S1x4000x256 .f32)), y ∈ pc.1.set :=
  View.cover_of_tiled [⟨r0_0, p0⟩] S1x4000x256.size (by rfl) y

/-! ## The body's triple -/

set_option maxHeartbeats 4000000 in
/-- The body on whole staging memrefs — the inputs' at contents `x0 x1 x2`, the output's at anything — runs to the
    continuation holding the inputs' as they were and the output's at `out0_3` of them. -/
theorem sound_kernel (c : Dev nD) (E : Set ℕ) (i : grid0.Coords) (arg2 : Memref sig .tc .vmem S1x4000x256 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x4000x256 .f32) (harg5 : arg5.IsWhole)
    (x0 : Vec F S1x4000x256 .bf16) (x1 : Vec F S1x256x256 .bf16) (x2 : Vec F S1x256x256 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__mlp_kernel i arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the one pipeline on core `c`: the arrays as the region finds them; after the body at point `t`
    each input's buffer at its block and the output's at `out0_3` of the three input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    of the region's arrays at what the pipeline library computes from the proof data and every other unscoped buffer as
    the operations after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame of the program at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KBaseIdeal.lean ====
/-
  The idealized kernel program around its one region: what every buffer holds when the region is entered.
-/
import proofs.«431189_j85143431676502_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Core `c`'s buffer contents when the region is entered: the launch memory after the host operations that precede it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.FrameKernelIdeal.lean ====
/-
  The frame of the idealized kernel program: it runs to the end, faults nowhere, and leaves its seven argument
  arrays as launched.

  @main is 119 host operations (gathers of endpoint rows, concatenations, the two weight re-layouts), one
  pipelined region over a 4 × 40 grid, then 41 host operations (slices, the scatter-add, the final clamp at zero).
  The region's body is one control case: it loads its three input blocks whole, multiplies, clamps, multiplies
  again and stores the 4000 × 256 output block whole. So at every grid point each input's staging buffer holds
  its block of the array as the region found it, and the output's buffer ends at the body's value of those three
  blocks. The host operations write only their own result buffers, none of which is an argument or one of the
  region's four arrays.
-/
import proofs.«431189_j85143431676502_1_alg».proof.Proof.KBaseIdeal
import proofs.«431189_j85143431676502_1_alg».proof.Proof.Gen.KernelIdeal.Skeleton
import proofs.«431189_j85143431676502_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the host operations before the region, the region, and the host operations after it: run from the launch
    memory it reduces to the region entered at `V` and continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The operations after the region touch the region's arrays and the buffers that bypass it only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

set_option maxHeartbeats 4000000 in
/-- No operation of the first stretch after the region writes one of the region's four arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- Nor does the final clamp. -/
theorem hostOps1_1_keeps : (hostOps1_1 : List (HloOp τ sig (Elt F))).Forall fun op =>
    ∀ w, Proc.devRef .tc (Pipeline.arrRef spec0 w) ∉ op.writes := by
  simp only [hostOps1_1, StableHlo.TRef.nullary, StableHlo.TRef.unary, StableHlo.TRef.binary, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
/-- So the region's arrays survive the tail. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · exact (List.forall_iff_forall_mem.mp hostOps1_keeps) op hop
  · exact (List.forall_iff_forall_mem.mp hostOps1_1_keeps) op hop

set_option maxHeartbeats 4000000 in
/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 4000000 in
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 4000000 in
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 4000000 in
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, StableHlo.TRef.nullary, StableHlo.TRef.unary, StableHlo.TRef.binary, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, so the block left by the point before is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched its block index has not moved, so the block left by the point before is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched its block index has not moved, so the block left by the point before is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline library's frame post read at
    the seven argument arrays is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c))⟩) h

/-! ## The body's accesses -/

abbrev r0_0 : Rect S1x4000x256 := Rect.unit (s := S1x4000x256) ![0, 0, 0] S1x4000x256.size inb_S1x4000x256_S1x4000x256_0_0_0
abbrev r0_1 : Rect S1x256x256 := Rect.unit (s := S1x256x256) ![0, 0, 0] S1x256x256.size inb_S1x256x256_S1x256x256_0_0_0

/-! ## What the body leaves in the output window's buffer -/

/-- The output's staging buffer after the body, from the three input blocks: its one whole-block store. -/
def out0_3 (x0 : Vec F S1x4000x256 .bf16) (x1 : Vec F S1x256x256 .bf16) (x2 : Vec F S1x256x256 .bf16) : Vec F S1x4000x256 .f32 :=
  View.canon [⟨r0_0, k0_pay1 (View.ld x0 r0_0) (View.ld x1 r0_1) (View.ld x2 r0_1)⟩]

/-- The one store is of the whole block, so it covers the buffer. -/
theorem cover0_3 (p0 : Vec F S1x4000x256 .f32) (y : S1x4000x256.Idx) :
    ∃ pc ∈ ([⟨r0_0, p0⟩] : List (View.Piece (Elt F) S1x4000x256 .f32)), y ∈ pc.1.set :=
  View.cover_of_tiled [⟨r0_0, p0⟩] S1x4000x256.size (by rfl) y

/-! ## The body's triple -/

set_option maxHeartbeats 4000000 in
/-- The body on whole staging memrefs — the inputs' at contents `x0 x1 x2`, the output's at anything — runs to the
    continuation holding the inputs' as they were and the output's at `out0_3` of them. -/
theorem sound_kernel (c : Dev nD) (E : Set ℕ) (i : grid0.Coords) (arg2 : Memref sig .tc .vmem S1x4000x256 .bf16) (harg2 : arg2.IsWhole) (arg3 : Memref sig .tc .vmem S1x256x256 .bf16) (harg3 : arg3.IsWhole) (arg4 : Memref sig .tc .vmem S1x256x256 .bf16) (harg4 : arg4.IsWhole) (arg5 : Memref sig .tc .vmem S1x4000x256 .f32) (harg5 : arg5.IsWhole)
    (x0 : Vec F S1x4000x256 .bf16) (x1 : Vec F S1x256x256 .bf16) (x2 : Vec F S1x256x256 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__mlp_kernel i arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the one pipeline on core `c`: the arrays as the region finds them; after the body at point `t`
    each input's buffer at its block and the output's at `out0_3` of the three input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    of the region's arrays at what the pipeline library computes from the proof data and every other unscoped buffer as
    the operations after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame of the program at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.Spec.lean ====
/-
  The mathematics both programs compute, stated once over plain finite index types.

  A graph has 50000 nodes with 128 features each and four edge types of 160000 edges. For edge type `l`, edge `e`
  and endpoint `ep` the MESSAGE is a two-layer perceptron without biases applied to the 256 concatenated
  features of the edge's two endpoint nodes: `∑ k, max (∑ d, raw e d · w1 d k) 0 · w2 k j`. Every message is added
  into the row of the node its endpoint names, and the result is clamped below at zero.

  The two programs lay the 1280000 messages out in different row orders: one puts endpoint first
  (`ep · 640000 + l · 160000 + e`), the other edge type first (`(2 l + ep) · 160000 + e`).
-/
import Idealize.ShloMosaic.PureOps.Ideal
import Idealize.ShloMosaic.Lib.ValueIdx

noncomputable section

namespace Cert.Gnn

open Idealize.ShloMosaic Idealize.ShloMosaic.ValueIdx
open scoped BigOperators

/-- One endpoint's message for edge `e`, feature `j`: hidden unit `k` is the positive part of the inner product of the
    edge's 256 gathered features with column `k` of the first layer; the message is the hidden vector times the second layer. -/
def msg (raw : Fin 160000 → Fin 256 → EReal) (w1 : Fin 256 → Fin 128 → EReal) (w2 : Fin 128 → Fin 128 → EReal)
    (e : Fin 160000) (j : Fin 128) : EReal :=
  ∑ k : Fin 128, max (∑ d : Fin 256, raw e d * w1 d k) 0 * w2 k j

/-- The message table's row for (edge type, endpoint, edge) when the endpoint is the slowest coordinate. -/
def rowK (l : Fin 4) (ep : Fin 2) (e : Fin 160000) : Fin 1280000 :=
  ⟨ep.val * 640000 + l.val * 160000 + e.val, by omega⟩

/-- The message table's row for (edge type, endpoint, edge) when the edge type is the slowest coordinate. -/
def rowR (l : Fin 4) (ep : Fin 2) (e : Fin 160000) : Fin 1280000 :=
  ⟨(2 * l.val + ep.val) * 160000 + e.val, by omega⟩

/-- Column `ep · 128 + j` of a 256-wide axis: endpoint `ep`'s half, feature `j`. -/
def col2 (ep : Fin 2) (j : Fin 128) : Fin 256 := ⟨ep.val * 128 + j.val, by omega⟩

end Cert.Gnn

end
-- ==== Proof.KHostIdeal.lean ====
/-
  The host side of the idealized kernel program, read at an index.

  Before the region: the three arrays the region reads are, index by index, the gathered endpoint features of each
  edge type stacked on a leading axis (entry (l, e, d) is edge type l's gathered row e at feature d), the two first
  layers side by side (entry (l, d, ep · 128 + k) is W1 at (l, ep, d, k)), and the two second layers on the diagonal
  of a 256 × 256 matrix per edge type (entry (l, ep' · 128 + k, ep · 128 + j) is W2 at (l, ep, k, j) when ep' = ep and
  zero otherwise). A change of float format is the identity on the extended reals.

  After the region: the region's output (l, e, ep · 128 + j) is cut into its two 128-column halves, each half's
  (l, e) pairs flattened to rows, the endpoint-0 rows placed above the endpoint-1 rows; the scatter indices are laid
  out the same way from the adjacency lists' two columns; the messages are scatter-added into a zero array and the
  result clamped below at zero.
-/
import proofs.«431189_j85143431676502_1_alg».proof.Proof.KBaseIdeal
import proofs.«431189_j85143431676502_1_alg».proof.Proof.Spec
import Idealize.ShloMosaic.Lib.Pipeline.Value
import Idealize.ShloMosaic.Lib.Pipeline.FrameSuffix
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-! ## The gathered endpoint features of one edge type -/

/-- The node index column `ep` of an adjacency list names, as the gather reads it: a negative index counts from the end. -/
def nodeIdx0 (adj : IVec S160000x2 32) : IVec S160000x1 32 :=
  let a : IVec S160000 32 := shapeCast S160000 (extractStridedSlice S160000x1 ![0, 0] adj slices_S160000x2_S160000x1_0_0) shapeCasts_S160000x1_S160000
  broadcastInDim S160000x1 ![0] bcast_S160000_S160000x1_0
    (select (cmpi .slt a (broadcastInDim S160000 ![] bcast_S_S160000 (constantI S_ 32 0#32)))
      (addi a (broadcastInDim S160000 ![] bcast_S_S160000 (constantI S_ 32 50000#32))) a)
def nodeIdx1 (adj : IVec S160000x2 32) : IVec S160000x1 32 :=
  let a : IVec S160000 32 := shapeCast S160000 (extractStridedSlice S160000x1 ![0, 1] adj slices_S160000x2_S160000x1_0_1) shapeCasts_S160000x1_S160000
  broadcastInDim S160000x1 ![0] bcast_S160000_S160000x1_0
    (select (cmpi .slt a (broadcastInDim S160000 ![] bcast_S_S160000 (constantI S_ 32 0#32)))
      (addi a (broadcastInDim S160000 ![] bcast_S_S160000 (constantI S_ 32 50000#32))) a)

/-- Edge `e`'s 256 gathered features: the source node's 128 then the destination node's 128. -/
def rawOf (x : FVec F S50000x128 .f32) (adj : IVec S160000x2 32) : FVec F S160000x256 .f32 :=
  concatenate S160000x256 1
    [⟨S160000x128, Host.gather gather_S50000x128_S160000x1_S160000x128_1_0_n_n_0_1_1128 x (nodeIdx0 adj)⟩,
     ⟨S160000x128, Host.gather gather_S50000x128_S160000x1_S160000x128_1_0_n_n_0_1_1128 x (nodeIdx1 adj)⟩]
    concatenates_S160000x128_S160000x128_S160000x256_d1

variable (m : (ℓ : Loc nD τ sig) → Buf (Elt Ideal) ℓ)

/-- The four adjacency lists by edge type. -/
def adjOf (c : Dev nD) (l : Fin 4) : IVec S160000x2 32 :=
  match l with
  | ⟨0, _⟩ => m ((c : Thread nD τ).loc main_arg1)
  | ⟨1, _⟩ => m ((c : Thread nD τ).loc main_arg2)
  | ⟨2, _⟩ => m ((c : Thread nD τ).loc main_arg3)
  | ⟨3, _⟩ => m ((c : Thread nD τ).loc main_arg4)

/-- A two-piece concatenation depends only on its pieces. -/
private theorem concat2_congr {α : Type} {t s₁ s₂ : Shape} {a : Fin t.rank} {x x' : s₁.Idx → α} {y y' : s₂.Idx → α}
    (h : Shape.Concatenates ([(⟨s₁, x⟩ : (s : Shape) × (s.Idx → α)), ⟨s₂, y⟩].map (·.1)) t a) (ex : x = x') (ey : y = y') :
    concatenate t a [⟨s₁, x⟩, ⟨s₂, y⟩] h = concatenate t a [⟨s₁, x'⟩, ⟨s₂, y'⟩] h := by
  subst ex ey; rfl

/-- A four-piece concatenation depends only on its pieces. -/
private theorem concat4_congr {α : Type} {t s₀ s₁ s₂ s₃ : Shape} {a : Fin t.rank}
    {x x' : s₀.Idx → α} {y y' : s₁.Idx → α} {z z' : s₂.Idx → α} {w w' : s₃.Idx → α}
    (h : Shape.Concatenates ([(⟨s₀, x⟩ : (s : Shape) × (s.Idx → α)), ⟨s₁, y⟩, ⟨s₂, z⟩, ⟨s₃, w⟩].map (·.1)) t a)
    (ex : x = x') (ey : y = y') (ez : z = z') (ew : w = w') :
    concatenate t a [⟨s₀, x⟩, ⟨s₁, y⟩, ⟨s₂, z⟩, ⟨s₃, w⟩] h = concatenate t a [⟨s₀, x'⟩, ⟨s₁, y'⟩, ⟨s₂, z'⟩, ⟨s₃, w'⟩] h := by
  subst ex ey ez ew; rfl

/-- Four one-row pieces stacked on a new leading axis: row `l` of the stack is piece `l`. -/
private theorem stack4_at3 {α : Type} {a b : Nat} (x0 x1 x2 x3 : (⟨3, ![1, a, b]⟩ : Shape).Idx → α)
    (h : Shape.Concatenates ([(⟨(⟨3, ![1, a, b]⟩ : Shape), x0⟩ : (s : Shape) × (s.Idx → α)), ⟨(⟨3, ![1, a, b]⟩ : Shape), x1⟩, ⟨(⟨3, ![1, a, b]⟩ : Shape), x2⟩, ⟨(⟨3, ![1, a, b]⟩ : Shape), x3⟩].map (·.1)) (⟨3, ![4, a, b]⟩ : Shape) (0 : Fin 3))
    (l : Fin 4) (e : Fin a) (d : Fin b) :
    concatenate (⟨3, ![4, a, b]⟩ : Shape) (0 : Fin 3) [⟨(⟨3, ![1, a, b]⟩ : Shape), x0⟩, ⟨(⟨3, ![1, a, b]⟩ : Shape), x1⟩, ⟨(⟨3, ![1, a, b]⟩ : Shape), x2⟩, ⟨(⟨3, ![1, a, b]⟩ : Shape), x3⟩] h (ix3 l e d)
      = (match l with | ⟨0, _⟩ => x0 | ⟨1, _⟩ => x1 | ⟨2, _⟩ => x2 | ⟨3, _⟩ => x3) (ix3 (0 : Fin 1) e d) := by
  match l with
  | ⟨0, _⟩ =>
    exact concatenate_apply_piece (t := (⟨3, ![4, a, b]⟩ : Shape)) (0 : Fin 3) _ h _ 0 (by show (0 : Nat) < 4; omega) (⟨3, ![1, a, b]⟩ : Shape) x0 rfl rfl 0 rfl (ix3 (0 : Fin 1) e d)
      (fun c hc => by
        match c with
        | ⟨0, _⟩ => exact absurd rfl hc
        | ⟨1, _⟩ => rfl
        | ⟨2, _⟩ => rfl)
      rfl
  | ⟨1, _⟩ =>
    exact concatenate_apply_piece (t := (⟨3, ![4, a, b]⟩ : Shape)) (0 : Fin 3) _ h _ 1 (by show (1 : Nat) < 4; omega) (⟨3, ![1, a, b]⟩ : Shape) x1 rfl rfl 1 rfl (ix3 (0 : Fin 1) e d)
      (fun c hc => by
        match c with
        | ⟨0, _⟩ => exact absurd rfl hc
        | ⟨1, _⟩ => rfl
        | ⟨2, _⟩ => rfl)
      rfl
  | ⟨2, _⟩ =>
    exact concatenate_apply_piece (t := (⟨3, ![4, a, b]⟩ : Shape)) (0 : Fin 3) _ h _ 2 (by show (2 : Nat) < 4; omega) (⟨3, ![1, a, b]⟩ : Shape) x2 rfl rfl 2 rfl (ix3 (0 : Fin 1) e d)
      (fun c hc => by
        match c with
        | ⟨0, _⟩ => exact absurd rfl hc
        | ⟨1, _⟩ => rfl
        | ⟨2, _⟩ => rfl)
      rfl
  | ⟨3, _⟩ =>
    exact concatenate_apply_piece (t := (⟨3, ![4, a, b]⟩ : Shape)) (0 : Fin 3) _ h _ 3 (by show (3 : Nat) < 4; omega) (⟨3, ![1, a, b]⟩ : Shape) x3 rfl rfl 3 rfl (ix3 (0 : Fin 1) e d)
      (fun c hc => by
        match c with
        | ⟨0, _⟩ => exact absurd rfl hc
        | ⟨1, _⟩ => rfl
        | ⟨2, _⟩ => rfl)
      rfl

/-- A gathered-features array given a leading unit axis, after the change of float format: entry (0, e, d) is the array's entry (e, d). -/
private theorem raw_piece_at (r : FVec Ideal S160000x256 .f32) (e : Fin 160000) (d : Fin 256) :
    broadcastInDim S1x160000x256 ![1, 2] bcast_S160000x256_S1x160000x256_1_2 (truncf (F := Ideal) .bf16 r bitsLt_bf16_f32) (ix3 (0 : Fin 1) e d)
      = r (ix2 e d) := by
  refine (broadcastInDim_apply _ _ _ _ (ix2 e d) (fun a => ?_)).trans ?_
  · match a with
    | ⟨0, _⟩ => exact (if_neg (by show ¬ (160000 : Nat) = 1; omega)).symm
    | ⟨1, _⟩ => exact (if_neg (by show ¬ (256 : Nat) = 1; omega)).symm
  rfl

set_option maxHeartbeats 4000000 in
/-- The gathered-features array as the host operations compose it: the four edge types' gathered endpoint features, each
    given a leading unit axis, stacked on that axis. -/
private theorem V_v84_eq (c : Dev nD) :
    (V m c main_v84 : S4x160000x256.Idx → EReal)
      = concatenate S4x160000x256 0
          [⟨S1x160000x256, broadcastInDim S1x160000x256 ![1, 2] bcast_S160000x256_S1x160000x256_1_2 (truncf (F := Ideal) .bf16 (rawOf (F := Ideal) (m ((c : Thread nD τ).loc main_arg0)) (m ((c : Thread nD τ).loc main_arg1))) bitsLt_bf16_f32)⟩,
           ⟨S1x160000x256, broadcastInDim S1x160000x256 ![1, 2] bcast_S160000x256_S1x160000x256_1_2 (truncf (F := Ideal) .bf16 (rawOf (F := Ideal) (m ((c : Thread nD τ).loc main_arg0)) (m ((c : Thread nD τ).loc main_arg2))) bitsLt_bf16_f32)⟩,
           ⟨S1x160000x256, broadcastInDim S1x160000x256 ![1, 2] bcast_S160000x256_S1x160000x256_1_2 (truncf (F := Ideal) .bf16 (rawOf (F := Ideal) (m ((c : Thread nD τ).loc main_arg0)) (m ((c : Thread nD τ).loc main_arg3))) bitsLt_bf16_f32)⟩,
           ⟨S1x160000x256, broadcastInDim S1x160000x256 ![1, 2] bcast_S160000x256_S1x160000x256_1_2 (truncf (F := Ideal) .bf16 (rawOf (F := Ideal) (m ((c : Thread nD τ).loc main_arg0)) (m ((c : Thread nD τ).loc main_arg4))) bitsLt_bf16_f32)⟩]
          concatenates_S1x160000x256_S1x160000x256_S1x160000x256_S1x160000x256_S4x160000x256_d0 := by
  show StableHlo.after hostOps0 (fun b => m (c, b)) (Proc.devRef .tc main_v84) = _
  after_results_simp
  dsimp only [Matrix.cons_val]
  refine concat4_congr _ ?_ ?_ ?_ ?_
  all_goals
    after_results_simp
    refine congrArg (fun X : FVec Ideal S160000x256 .f32 => broadcastInDim S1x160000x256 ![1, 2] bcast_S160000x256_S1x160000x256_1_2 (truncf (F := Ideal) .bf16 X bitsLt_bf16_f32)) (concat2_congr _ ?_ ?_)
    · after_results_simp; rfl
    · after_results_simp; rfl

set_option maxHeartbeats 4000000 in
/-- The first layers' array as the host operations compose it from the argument: the two layers of each edge type side by side. -/
private theorem V_v90_eq (c : Dev nD) :
    (V m c main_v90 : S4x256x256.Idx → EReal)
      = truncf (F := Ideal) .bf16 (concatenate S4x256x256 2
          [⟨S4x256x128, shapeCast S4x256x128 (extractStridedSlice S4x1x256x128 ![0, 0, 0, 0] (m ((c : Thread nD τ).loc main_arg5)) slices_S4x2x256x128_S4x1x256x128_0_0_0_0) shapeCasts_S4x1x256x128_S4x256x128⟩,
           ⟨S4x256x128, shapeCast S4x256x128 (extractStridedSlice S4x1x256x128 ![0, 1, 0, 0] (m ((c : Thread nD τ).loc main_arg5)) slices_S4x2x256x128_S4x1x256x128_0_1_0_0) shapeCasts_S4x1x256x128_S4x256x128⟩]
          concatenates_S4x256x128_S4x256x128_S4x256x256_d2) bitsLt_bf16_f32 := by
  show StableHlo.after hostOps0 (fun b => m (c, b)) (Proc.devRef .tc main_v90) = _
  after_results_simp
  refine congrArg (fun X => truncf (F := Ideal) .bf16 X bitsLt_bf16_f32) (concat2_congr _ ?_ ?_)
  · after_results_simp; rfl
  · after_results_simp; rfl

set_option maxHeartbeats 4000000 in
/-- The second layers' array as the host operations compose it from the argument: per edge type a 256 × 256 matrix with the
    two layers on the diagonal blocks and zeros off them. -/
private theorem V_v101_eq (c : Dev nD) :
    (V m c main_v101 : S4x256x256.Idx → EReal)
      = truncf (F := Ideal) .bf16 (concatenate S4x256x256 1
          [⟨S4x128x256, concatenate S4x128x256 2
              [⟨S4x128x128, shapeCast S4x128x128 (extractStridedSlice S4x1x128x128 ![0, 0, 0, 0] (m ((c : Thread nD τ).loc main_arg6)) slices_S4x2x128x128_S4x1x128x128_0_0_0_0) shapeCasts_S4x1x128x128_S4x128x128⟩,
               ⟨S4x128x128, broadcastInDim S4x128x128 ![] bcast_S_S4x128x128 (constant (F := Ideal) S_ .f32 0x00000000#32)⟩]
              concatenates_S4x128x128_S4x128x128_S4x128x256_d2⟩,
           ⟨S4x128x256, concatenate S4x128x256 2
              [⟨S4x128x128, broadcastInDim S4x128x128 ![] bcast_S_S4x128x128 (constant (F := Ideal) S_ .f32 0x00000000#32)⟩,
               ⟨S4x128x128, shapeCast S4x128x128 (extractStridedSlice S4x1x128x128 ![0, 1, 0, 0] (m ((c : Thread nD τ).loc main_arg6)) slices_S4x2x128x128_S4x1x128x128_0_1_0_0) shapeCasts_S4x1x128x128_S4x128x128⟩]
              concatenates_S4x128x128_S4x128x128_S4x128x256_d2⟩]
          concatenates_S4x128x256_S4x128x256_S4x256x256_d1) bitsLt_bf16_f32 := by
  show StableHlo.after hostOps0 (fun b => m (c, b)) (Proc.devRef .tc main_v101) = _
  after_results_simp
  refine congrArg (fun X => truncf (F := Ideal) .bf16 X bitsLt_bf16_f32) (concat2_congr _ ?_ ?_)
  · after_results_simp
    refine concat2_congr _ ?_ ?_
    · after_results_simp; rfl
    · after_results_simp
  · after_results_simp
    refine concat2_congr _ ?_ ?_
    · after_results_simp
    · after_results_simp; rfl

/-! ## The region's three input arrays, at an index -/

theorem V_raw_at (c : Dev nD) (l : Fin 4) (e : Fin 160000) (d : Fin 256) :
    (V m c main_v84 : S4x160000x256.Idx → EReal) (ix3 l e d)
      = (rawOf (F := Ideal) (m ((c : Thread nD τ).loc main_arg0)) (adjOf m c l) : S160000x256.Idx → EReal) (ix2 e d) := by
  refine (congrFun (V_v84_eq m c) _).trans ?_
  refine (stack4_at3 _ _ _ _ _ l e d).trans ?_
  match l with
  | ⟨0, _⟩ => exact raw_piece_at (rawOf (F := Ideal) (m ((c : Thread nD τ).loc main_arg0)) (m ((c : Thread nD τ).loc main_arg1))) e d
  | ⟨1, _⟩ => exact raw_piece_at (rawOf (F := Ideal) (m ((c : Thread nD τ).loc main_arg0)) (m ((c : Thread nD τ).loc main_arg2))) e d
  | ⟨2, _⟩ => exact raw_piece_at (rawOf (F := Ideal) (m ((c : Thread nD τ).loc main_arg0)) (m ((c : Thread nD τ).loc main_arg3))) e d
  | ⟨3, _⟩ => exact raw_piece_at (rawOf (F := Ideal) (m ((c : Thread nD τ).loc main_arg0)) (m ((c : Thread nD τ).loc main_arg4))) e d

theorem V_w1_at (c : Dev nD) (l : Fin 4) (d : Fin 256) (ep : Fin 2) (k : Fin 128) :
    (V m c main_v90 : S4x256x256.Idx → EReal) (ix3 l d (Gnn.col2 ep k))
      = (m ((c : Thread nD τ).loc main_arg5) : S4x2x256x128.Idx → EReal) (ix4 l ep d k) := by
  refine (congrFun (V_v90_eq m c) _).trans ?_
  refine (truncf_apply (φ := .f32) (ψ := .bf16) _ bitsLt_bf16_f32 _).trans ?_
  match ep with
  | ⟨0, _⟩ =>
    refine (concatenate_pair_apply_left (t := S4x256x256) (s₁ := S4x256x128) (s₂ := S4x256x128) (2 : Fin 3) _ _ _ _ rfl (ix3 l d k) (fun b => ?_)).trans ?_
    · match b with
      | ⟨0, _⟩ => rfl
      | ⟨1, _⟩ => rfl
      | ⟨2, _⟩ => show k.val = 0 * 128 + k.val; omega
    refine (shapeCast_apply _ _ _ (ix4 l (0 : Fin 1) d k) ?_).trans ?_
    · rw [Shape.rowMajor_val_four, Shape.rowMajor_val_three]
      show ((l.val * 1 + 0) * 256 + d.val) * 128 + k.val = (l.val * 256 + d.val) * 128 + k.val
      omega
    exact slice4_axis1_apply 0 _ _ l (0 : Fin 1) d k (0 : Fin 2) rfl
  | ⟨1, _⟩ =>
    refine (concatenate_pair_apply_right (t := S4x256x256) (s₁ := S4x256x128) (s₂ := S4x256x128) (2 : Fin 3) _ _ _ _ rfl rfl (ix3 l d k) (fun b hb => ?_) ?_).trans ?_
    · match b with
      | ⟨0, _⟩ => rfl
      | ⟨1, _⟩ => rfl
      | ⟨2, _⟩ => exact absurd rfl hb
    · show k.val + 128 = 1 * 128 + k.val; omega
    refine (shapeCast_apply _ _ _ (ix4 l (0 : Fin 1) d k) ?_).trans ?_
    · rw [Shape.rowMajor_val_four, Shape.rowMajor_val_three]
      show ((l.val * 1 + 0) * 256 + d.val) * 128 + k.val = (l.val * 256 + d.val) * 128 + k.val
      omega
    exact slice4_axis1_apply 1 _ _ l (0 : Fin 1) d k (1 : Fin 2) rfl

theorem V_w2_at (c : Dev nD) (l : Fin 4) (ep' ep : Fin 2) (k j : Fin 128) :
    (V m c main_v101 : S4x256x256.Idx → EReal) (ix3 l (Gnn.col2 ep' k) (Gnn.col2 ep j))
      = if ep' = ep then (m ((c : Thread nD τ).loc main_arg6) : S4x2x128x128.Idx → EReal) (ix4 l ep k j) else (0 : EReal) := by
  refine (congrFun (V_v101_eq m c) _).trans ?_
  refine (truncf_apply (φ := .f32) (ψ := .bf16) _ bitsLt_bf16_f32 _).trans ?_
  match ep', ep with
  | ⟨0, h'⟩, ⟨0, h⟩ =>
    refine (concatenate_pair_apply_left (t := S4x256x256) (s₁ := S4x128x256) (s₂ := S4x128x256) (1 : Fin 3) _ _ _ _ rfl (ix3 l k (Gnn.col2 ⟨0, h⟩ j)) (fun b => ?_)).trans ?_
    · match b with
      | ⟨0, _⟩ => rfl
      | ⟨1, _⟩ => show k.val = 0 * 128 + k.val; omega
      | ⟨2, _⟩ => rfl
    refine (concatenate_pair_apply_left (t := S4x128x256) (s₁ := S4x128x128) (s₂ := S4x128x128) (2 : Fin 3) _ _ _ _ rfl (ix3 l k j) (fun b => ?_)).trans ?_
    · match b with
      | ⟨0, _⟩ => rfl
      | ⟨1, _⟩ => rfl
      | ⟨2, _⟩ => show j.val = 0 * 128 + j.val; omega
    refine (shapeCast_apply _ _ _ (ix4 l (0 : Fin 1) k j) ?_).trans ?_
    · rw [Shape.rowMajor_val_four, Shape.rowMajor_val_three]
      show ((l.val * 1 + 0) * 128 + k.val) * 128 + j.val = (l.val * 128 + k.val) * 128 + j.val
      omega
    refine (slice4_axis1_apply 0 _ _ l (0 : Fin 1) k j (0 : Fin 2) rfl).trans ?_
    exact (if_pos rfl).symm
  | ⟨0, h'⟩, ⟨1, h⟩ =>
    refine (concatenate_pair_apply_left (t := S4x256x256) (s₁ := S4x128x256) (s₂ := S4x128x256) (1 : Fin 3) _ _ _ _ rfl (ix3 l k (Gnn.col2 ⟨1, h⟩ j)) (fun b => ?_)).trans ?_
    · match b with
      | ⟨0, _⟩ => rfl
      | ⟨1, _⟩ => show k.val = 0 * 128 + k.val; omega
      | ⟨2, _⟩ => rfl
    refine (concatenate_pair_apply_right (t := S4x128x256) (s₁ := S4x128x128) (s₂ := S4x128x128) (2 : Fin 3) _ _ _ _ rfl rfl (ix3 l k j) (fun b hb => ?_) ?_).trans ?_
    · match b with
      | ⟨0, _⟩ => rfl
      | ⟨1, _⟩ => rfl
      | ⟨2, _⟩ => exact absurd rfl hb
    · show j.val + 128 = 1 * 128 + j.val; omega
    refine Eq.trans ?_ (if_neg (Fin.ne_of_val_ne (by show (0 : Nat) ≠ 1; omega))).symm
    exact Ideal.ofBits_zero_f32
  | ⟨1, h'⟩, ⟨0, h⟩ =>
    refine (concatenate_pair_apply_right (t := S4x256x256) (s₁ := S4x128x256) (s₂ := S4x128x256) (1 : Fin 3) _ _ _ _ rfl rfl (ix3 l k (Gnn.col2 ⟨0, h⟩ j)) (fun b hb => ?_) ?_).trans ?_
    · match b with
      | ⟨0, _⟩ => rfl
      | ⟨1, _⟩ => exact absurd rfl hb
      | ⟨2, _⟩ => rfl
    · show k.val + 128 = 1 * 128 + k.val; omega
    refine (concatenate_pair_apply_left (t := S4x128x256) (s₁ := S4x128x128) (s₂ := S4x128x128) (2 : Fin 3) _ _ _ _ rfl (ix3 l k j) (fun b => ?_)).trans ?_
    · match b with
      | ⟨0, _⟩ => rfl
      | ⟨1, _⟩ => rfl
      | ⟨2, _⟩ => show j.val = 0 * 128 + j.val; omega
    refine Eq.trans ?_ (if_neg (Fin.ne_of_val_ne (by show (1 : Nat) ≠ 0; omega))).symm
    exact Ideal.ofBits_zero_f32
  | ⟨1, h'⟩, ⟨1, h⟩ =>
    refine (concatenate_pair_apply_right (t := S4x256x256) (s₁ := S4x128x256) (s₂ := S4x128x256) (1 : Fin 3) _ _ _ _ rfl rfl (ix3 l k (Gnn.col2 ⟨1, h⟩ j)) (fun b hb => ?_) ?_).trans ?_
    · match b with
      | ⟨0, _⟩ => rfl
      | ⟨1, _⟩ => exact absurd rfl hb
      | ⟨2, _⟩ => rfl
    · show k.val + 128 = 1 * 128 + k.val; omega
    refine (concatenate_pair_apply_right (t := S4x128x256) (s₁ := S4x128x128) (s₂ := S4x128x128) (2 : Fin 3) _ _ _ _ rfl rfl (ix3 l k j) (fun b hb => ?_) ?_).trans ?_
    · match b with
      | ⟨0, _⟩ => rfl
      | ⟨1, _⟩ => rfl
      | ⟨2, _⟩ => exact absurd rfl hb
    · show j.val + 128 = 1 * 128 + j.val; omega
    refine (shapeCast_apply _ _ _ (ix4 l (0 : Fin 1) k j) ?_).trans ?_
    · rw [Shape.rowMajor_val_four, Shape.rowMajor_val_three]
      show ((l.val * 1 + 0) * 128 + k.val) * 128 + j.val = (l.val * 128 + k.val) * 128 + j.val
      omega
    refine (slice4_axis1_apply 1 _ _ l (0 : Fin 1) k j (1 : Fin 2) rfl).trans ?_
    exact (if_pos rfl).symm

/-! ## The operations after the region -/

/-- The scatter indices: row `ep · 640000 + l · 160000 + e` holds column `ep` of edge type `l`'s list at edge `e`. -/
def idxOf (adjs : Fin 4 → IVec S160000x2 32) : IVec S1280000x1 32 :=
  let col (ep : Fin 2) (l : Fin 4) : IVec S1x160000 32 :=
    broadcastInDim S1x160000 ![1] bcast_S160000_S1x160000_1
      (match ep with
        | ⟨0, _⟩ => shapeCast S160000 (extractStridedSlice S160000x1 ![0, 0] (adjs l) slices_S160000x2_S160000x1_0_0) shapeCasts_S160000x1_S160000
        | ⟨1, _⟩ => shapeCast S160000 (extractStridedSlice S160000x1 ![0, 1] (adjs l) slices_S160000x2_S160000x1_0_1) shapeCasts_S160000x1_S160000)
  let stack (ep : Fin 2) : IVec S640000 32 :=
    shapeCast S640000 (concatenate S4x160000 0 [⟨S1x160000, col ep 0⟩, ⟨S1x160000, col ep 1⟩, ⟨S1x160000, col ep 2⟩, ⟨S1x160000, col ep 3⟩]
      concatenates_S1x160000_S1x160000_S1x160000_S1x160000_S4x160000_d0) shapeCasts_S4x160000_S640000
  broadcastInDim S1280000x1 ![0] bcast_S1280000_S1280000x1_0
    (concatenate S1280000 0 [⟨S640000, stack 0⟩, ⟨S640000, stack 1⟩] concatenates_S640000_S640000_S1280000_d0)

/-- The message table: row `ep · 640000 + l · 160000 + e` holds columns `ep · 128 …` of the region's output at (l, e). -/
def updOf (out : FVec F S4x160000x256 .f32) : FVec F S1280000x128 .f32 :=
  concatenate S1280000x128 0
    [⟨S640000x128, shapeCast S640000x128 (extractStridedSlice S4x160000x128 ![0, 0, 0] out slices_S4x160000x256_S4x160000x128_0_0_0) shapeCasts_S4x160000x128_S640000x128⟩,
     ⟨S640000x128, shapeCast S640000x128 (extractStridedSlice S4x160000x128 ![0, 0, 128] out slices_S4x160000x256_S4x160000x128_0_0_128) shapeCasts_S4x160000x128_S640000x128⟩]
    concatenates_S640000x128_S640000x128_S1280000x128_d0

/-- What the program returns, from the region's output array and the adjacency lists. -/
def tailOf (out : FVec F S4x160000x256 .f32) (adjs : Fin 4 → IVec S160000x2 32) : FVec F S50000x128 .f32 :=
  maximumf
    (Host.scatterAdd scatter_S50000x128_S1280000x1_S1280000x128_1_0_0_1
      (broadcastInDim S50000x128 ![] bcast_S_S50000x128 (constant S_ .f32 0x00000000#32)) (idxOf adjs) (updOf out))
    (broadcastInDim S50000x128 ![] bcast_S_S50000x128 (constant S_ .f32 0x00000000#32))

/-- Four one-row pieces stacked on a new leading axis: row `l` of the stack is piece `l`. -/
private theorem stack4_at {α : Type} {n : Nat} (x0 x1 x2 x3 : (⟨2, ![1, n]⟩ : Shape).Idx → α)
    (h : Shape.Concatenates ([(⟨(⟨2, ![1, n]⟩ : Shape), x0⟩ : (s : Shape) × (s.Idx → α)), ⟨(⟨2, ![1, n]⟩ : Shape), x1⟩, ⟨(⟨2, ![1, n]⟩ : Shape), x2⟩, ⟨(⟨2, ![1, n]⟩ : Shape), x3⟩].map (·.1)) (⟨2, ![4, n]⟩ : Shape) (0 : Fin 2))
    (l : Fin 4) (e : Fin n) :
    concatenate (⟨2, ![4, n]⟩ : Shape) (0 : Fin 2) [⟨(⟨2, ![1, n]⟩ : Shape), x0⟩, ⟨(⟨2, ![1, n]⟩ : Shape), x1⟩, ⟨(⟨2, ![1, n]⟩ : Shape), x2⟩, ⟨(⟨2, ![1, n]⟩ : Shape), x3⟩] h (ix2 l e)
      = (match l with | ⟨0, _⟩ => x0 | ⟨1, _⟩ => x1 | ⟨2, _⟩ => x2 | ⟨3, _⟩ => x3) (ix2 (0 : Fin 1) e) := by
  match l with
  | ⟨0, _⟩ =>
    exact concatenate_apply_piece (t := (⟨2, ![4, n]⟩ : Shape)) (0 : Fin 2) _ h _ 0 (by show (0 : Nat) < 4; omega) (⟨2, ![1, n]⟩ : Shape) x0 rfl rfl 0 rfl (ix2 (0 : Fin 1) e)
      (fun c hc => by
        match c with
        | ⟨0, _⟩ => exact absurd rfl hc
        | ⟨1, _⟩ => rfl)
      rfl
  | ⟨1, _⟩ =>
    exact concatenate_apply_piece (t := (⟨2, ![4, n]⟩ : Shape)) (0 : Fin 2) _ h _ 1 (by show (1 : Nat) < 4; omega) (⟨2, ![1, n]⟩ : Shape) x1 rfl rfl 1 rfl (ix2 (0 : Fin 1) e)
      (fun c hc => by
        match c with
        | ⟨0, _⟩ => exact absurd rfl hc
        | ⟨1, _⟩ => rfl)
      rfl
  | ⟨2, _⟩ =>
    exact concatenate_apply_piece (t := (⟨2, ![4, n]⟩ : Shape)) (0 : Fin 2) _ h _ 2 (by show (2 : Nat) < 4; omega) (⟨2, ![1, n]⟩ : Shape) x2 rfl rfl 2 rfl (ix2 (0 : Fin 1) e)
      (fun c hc => by
        match c with
        | ⟨0, _⟩ => exact absurd rfl hc
        | ⟨1, _⟩ => rfl)
      rfl
  | ⟨3, _⟩ =>
    exact concatenate_apply_piece (t := (⟨2, ![4, n]⟩ : Shape)) (0 : Fin 2) _ h _ 3 (by show (3 : Nat) < 4; omega) (⟨2, ![1, n]⟩ : Shape) x3 rfl rfl 3 rfl (ix2 (0 : Fin 1) e)
      (fun c hc => by
        match c with
        | ⟨0, _⟩ => exact absurd rfl hc
        | ⟨1, _⟩ => rfl)
      rfl

/-- Column 0 of an adjacency list laid out as one row: entry (0, e) of the row is the list's entry (e, 0). -/
private theorem col0_at (adj : IVec S160000x2 32) (e : Fin 160000) :
    broadcastInDim S1x160000 ![1] bcast_S160000_S1x160000_1
        (shapeCast S160000 (extractStridedSlice S160000x1 ![0, 0] adj slices_S160000x2_S160000x1_0_0) shapeCasts_S160000x1_S160000)
        (ix2 (0 : Fin 1) e)
      = adj (ix2 e (0 : Fin 2)) := by
  refine (broadcastInDim_apply _ _ _ _ (ix1 e) (fun a => ?_)).trans ?_
  · match a with
    | ⟨0, _⟩ => exact (if_neg (by show ¬ (160000 : Nat) = 1; omega)).symm
  refine (shapeCast_apply _ _ _ (ix2 e (0 : Fin 1)) ?_).trans ?_
  · rw [Shape.rowMajor_val_two, Shape.rowMajor_val_one]; show e.val * 1 + 0 = e.val; omega
  exact slice2_axis1_apply 0 adj _ e (0 : Fin 1) (0 : Fin 2) rfl

/-- Column 1 of an adjacency list laid out as one row: entry (0, e) of the row is the list's entry (e, 1). -/
private theorem col1_at (adj : IVec S160000x2 32) (e : Fin 160000) :
    broadcastInDim S1x160000 ![1] bcast_S160000_S1x160000_1
        (shapeCast S160000 (extractStridedSlice S160000x1 ![0, 1] adj slices_S160000x2_S160000x1_0_1) shapeCasts_S160000x1_S160000)
        (ix2 (0 : Fin 1) e)
      = adj (ix2 e (1 : Fin 2)) := by
  refine (broadcastInDim_apply _ _ _ _ (ix1 e) (fun a => ?_)).trans ?_
  · match a with
    | ⟨0, _⟩ => exact (if_neg (by show ¬ (160000 : Nat) = 1; omega)).symm
  refine (shapeCast_apply _ _ _ (ix2 e (0 : Fin 1)) ?_).trans ?_
  · rw [Shape.rowMajor_val_two, Shape.rowMajor_val_one]; show e.val * 1 + 0 = e.val; omega
  exact slice2_axis1_apply 1 adj _ e (0 : Fin 1) (1 : Fin 2) rfl

/-- The inlined clamp's typed references carry each value along an equation of buffer types that holds by
    computation: the carried value is the value. -/
private theorem relu_casts (a : FVec Ideal S50000x128 .f32) :
    ((StableHlo.TRef.of main_v140 : StableHlo.TRef sig ⟨S50000x128, .f32⟩).toBuf (Val := Elt Ideal)
        (maximumf (F := Ideal) (s := S50000x128) (φ := .f32)
          ((StableHlo.TRef.of main_v139 : StableHlo.TRef sig ⟨S50000x128, .f32⟩).ofBuf (Val := Elt Ideal) a)
          ((StableHlo.TRef.of main_call0_v0 : StableHlo.TRef sig ⟨S50000x128, .f32⟩).ofBuf (Val := Elt Ideal)
            ((StableHlo.TRef.of main_call0_v0 : StableHlo.TRef sig ⟨S50000x128, .f32⟩).toBuf (Val := Elt Ideal)
              (broadcastInDim S50000x128 ![] bcast_S_S50000x128
                ((StableHlo.TRef.of main_call0_cst : StableHlo.TRef sig ⟨S_, .f32⟩).ofBuf (Val := Elt Ideal)
                  ((StableHlo.TRef.of main_call0_cst : StableHlo.TRef sig ⟨S_, .f32⟩).toBuf (Val := Elt Ideal)
                    (constant (F := Ideal) S_ .f32 0x00000000#32))))))) : S50000x128.Idx → EReal)
      = maximumf (F := Ideal) a (broadcastInDim S50000x128 ![] bcast_S_S50000x128 (constant (F := Ideal) S_ .f32 0x00000000#32)) :=
  rfl

set_option maxHeartbeats 16000000 in
/-- The result buffer after the operations that follow the region, for ANY proof data of the region whose arrays are the
    region-entry contents: the tail's function of the output array the region leaves and of the adjacency arguments. -/
theorem tail_eq (dats : (p : Fin 1) → (c : Dev nD) → Dat τ (Elt Ideal) Unit ℕ (UR sig nD τ) ℕ (cfgs p) c) (c : Dev nD) :
    (Pipeline.afterTail₀ cfgs dats 0 (V0 m) [hostOps1, hostOps1_1] c main_v140 : S50000x128.Idx → EReal)
      = tailOf (F := Ideal) ((dats 0 c).arrAt 3 cfg0.N) (adjOf m c) := by
  unfold Pipeline.afterTail₀
  have hout : Pipeline.withArrays spec0 c (V0 m c) (fun w => (dats 0 c).arrAt w cfg0.N) (Proc.devRef .tc main_v102) = (dats 0 c).arrAt 3 cfg0.N :=
    Pipeline.withArrays_arr spec0 launch0.win.arr_inj c _ _ 3
  have h1 : Pipeline.withArrays spec0 c (V0 m c) (fun w => (dats 0 c).arrAt w cfg0.N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays spec0 c (V0 m c) (fun w => (dats 0 c).arrAt w cfg0.N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays spec0 c (V0 m c) (fun w => (dats 0 c).arrAt w cfg0.N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays spec0 c (V0 m c) (fun w => (dats 0 c).arrAt w cfg0.N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  show StableHlo.after (List.flatten [hostOps1, hostOps1_1]) (Pipeline.withArrays spec0 c (V0 m c) (fun w => (dats 0 c).arrAt w cfg0.N)) (Proc.devRef .tc main_v140) = _
  generalize (dats 0 c).arrAt 3 cfg0.N = out at hout ⊢
  generalize Pipeline.withArrays spec0 c (V0 m c) (fun w => (dats 0 c).arrAt w cfg0.N) = W at hout h1 h2 h3 h4 ⊢
  simp only [hostOps1, hostOps1_1, StableHlo.TRef.nullary, StableHlo.TRef.unary, StableHlo.TRef.binary, List.flatten_cons, List.flatten_nil, List.append_nil, List.cons_append, List.nil_append]
  after_results
  dsimp only [Matrix.cons_val]
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)
    | (rw [StableHlo.nary_result_ne]; rotate_left; decide))
  rw [hout, h1, h2, h3, h4]
  refine (relu_casts _).trans ?_
  rfl

theorem idxOf_at (adjs : Fin 4 → IVec S160000x2 32) (l : Fin 4) (ep : Fin 2) (e : Fin 160000) :
    idxOf adjs (ix2 (Gnn.rowK l ep e) (0 : Fin 1)) = adjs l (ix2 e ep) := by
  have hrow : l.val * 160000 + e.val < 640000 := by omega
  unfold idxOf
  dsimp only
  refine (broadcastInDim_apply _ _ _ _ (ix1 (Gnn.rowK l ep e)) (fun a => ?_)).trans ?_
  · match a with
    | ⟨0, _⟩ => exact (if_neg (by show ¬ (1280000 : Nat) = 1; omega)).symm
  match ep with
  | ⟨0, _⟩ =>
    refine (concatenate_pair_apply_left (t := S1280000) (s₁ := S640000) (s₂ := S640000) (0 : Fin 1) _ _ _ _ rfl
      (ix1 (⟨l.val * 160000 + e.val, hrow⟩ : Fin 640000)) (fun b => ?_)).trans ?_
    · match b with
      | ⟨0, _⟩ => show l.val * 160000 + e.val = 0 * 640000 + l.val * 160000 + e.val; omega
    refine (shapeCast_apply _ _ _ (ix2 l e) ?_).trans ?_
    · rw [Shape.rowMajor_val_two, Shape.rowMajor_val_one]; rfl
    refine (stack4_at _ _ _ _ _ l e).trans ?_
    clear hrow
    match l with
    | ⟨0, _⟩ => exact col0_at _ e
    | ⟨1, _⟩ => exact col0_at _ e
    | ⟨2, _⟩ => exact col0_at _ e
    | ⟨3, _⟩ => exact col0_at _ e
  | ⟨1, _⟩ =>
    refine (concatenate_pair_apply_right (t := S1280000) (s₁ := S640000) (s₂ := S640000) (0 : Fin 1) _ _ _ _ rfl rfl
      (ix1 (⟨l.val * 160000 + e.val, hrow⟩ : Fin 640000)) (fun b hb => ?_) ?_).trans ?_
    · match b with
      | ⟨0, _⟩ => exact absurd rfl hb
    · show l.val * 160000 + e.val + 640000 = 1 * 640000 + l.val * 160000 + e.val; omega
    refine (shapeCast_apply _ _ _ (ix2 l e) ?_).trans ?_
    · rw [Shape.rowMajor_val_two, Shape.rowMajor_val_one]; rfl
    refine (stack4_at _ _ _ _ _ l e).trans ?_
    clear hrow
    match l with
    | ⟨0, _⟩ => exact col1_at _ e
    | ⟨1, _⟩ => exact col1_at _ e
    | ⟨2, _⟩ => exact col1_at _ e
    | ⟨3, _⟩ => exact col1_at _ e

theorem updOf_at (out : FVec Ideal S4x160000x256 .f32) (l : Fin 4) (ep : Fin 2) (e : Fin 160000) (j : Fin 128) :
    (updOf (F := Ideal) out : S1280000x128.Idx → EReal) (ix2 (Gnn.rowK l ep e) j)
      = (out : S4x160000x256.Idx → EReal) (ix3 l e (Gnn.col2 ep j)) := by
  have hrow : l.val * 160000 + e.val < 640000 := by omega
  match ep with
  | ⟨0, _⟩ =>
    unfold updOf
    refine (concatenate_pair_apply_left (t := S1280000x128) (s₁ := S640000x128) (s₂ := S640000x128) (0 : Fin 2) _ _ _ _ rfl (ix2 (⟨l.val * 160000 + e.val, hrow⟩ : Fin 640000) j) (fun b => ?_)).trans ?_
    · match b with
      | ⟨0, _⟩ => show l.val * 160000 + e.val = 0 * 640000 + l.val * 160000 + e.val; omega
      | ⟨1, _⟩ => rfl
    refine (shapeCast_apply _ _ _ (ix3 l e j) ?_).trans ?_
    · rw [Shape.rowMajor_val_three, Shape.rowMajor_val_two]; rfl
    exact extractStridedSlice_apply _ _ _ _ _ (fun a => by
      match a with
      | ⟨0, _⟩ => exact (Nat.zero_add _).symm
      | ⟨1, _⟩ => exact (Nat.zero_add _).symm
      | ⟨2, _⟩ => show 0 * 128 + j.val = 0 + j.val; omega)
  | ⟨1, _⟩ =>
    unfold updOf
    refine (concatenate_pair_apply_right (t := S1280000x128) (s₁ := S640000x128) (s₂ := S640000x128) (0 : Fin 2) _ _ _ _ rfl rfl (ix2 (⟨l.val * 160000 + e.val, hrow⟩ : Fin 640000) j) (fun b hb => ?_) ?_).trans ?_
    · match b with
      | ⟨0, _⟩ => exact absurd rfl hb
      | ⟨1, _⟩ => rfl
    · show l.val * 160000 + e.val + 640000 = 1 * 640000 + l.val * 160000 + e.val; omega
    refine (shapeCast_apply _ _ _ (ix3 l e j) ?_).trans ?_
    · rw [Shape.rowMajor_val_three, Shape.rowMajor_val_two]; rfl
    exact extractStridedSlice_apply _ _ _ _ _ (fun a => by
      match a with
      | ⟨0, _⟩ => exact (Nat.zero_add _).symm
      | ⟨1, _⟩ => exact (Nat.zero_add _).symm
      | ⟨2, _⟩ => show 1 * 128 + j.val = 128 + j.val; omega)

end Cert.KernelIdeal.Hand

end
-- ==== Proof.KValueIdeal.lean ====
/-
  The idealized kernel program's run with its result named: every weakly fair execution ends with the result buffer at
  the clamp of the scatter-add of the region's output rows (the function `tailOf` of the array the region leaves and of
  the four adjacency lists) and with the seven arguments as launched.
-/
import proofs.«431189_j85143431676502_1_alg».proof.Proof.FrameKernelIdeal
import proofs.«431189_j85143431676502_1_alg».proof.Proof.KHostIdeal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The frame run read at the result buffer (written by the last operation after the region) and at the arguments. -/
theorem value_run :
    θ_run defs (onTc (τ := τ) (main (F := Ideal))) ⟨m, fun _ => 0, ρ⟩ (fun r => ∀ c : Dev nD,
      r.2.mem ((c.tc : Thread nD τ).loc main_v140) = tailOf (F := Ideal) ((dats m 0 c).arrAt 3 cfg0.N) (adjOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v140 (Pipeline.mem_restRefs_of main_v140 (by decide) (by decide))).trans (tail_eq m (dats m) c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.KernelIdeal.Hand

end
-- ==== Proof.RefRunHand.lean ====
/-
  The reference program's run, read back in nine stretches.

  @main is 189 host operations in a straight line. For each of the four edge types: read the node rows at both
  endpoints of every edge (a negative node index counts from the end of the table), lay the two rows side by side, run
  the two endpoints' perceptrons over them (first layer, clamp at zero, second layer), and keep the two endpoint columns of
  the edge list. Then lay the eight message tables and the eight endpoint columns end to end, scatter-add every message row
  onto zeros at the node its column names, and clamp at zero.

  The operations are listed in nine runs, two per edge type and the close. What a run leaves in each buffer a later run
  reads is stated over ANY contents before it, so each such statement is about at most 23 operations; a buffer a run does
  not write keeps its contents. Chaining these, last run first, gives the result buffer as one term of the seven arguments,
  and the arguments unchanged. A concatenation of equal pieces is equal: that is what lets the chain pass through the
  programs' concatenations.
-/
import proofs.«431189_j85143431676502_1_alg».proof.Proof.Gen.ReferenceIdeal
import Idealize.ShloMosaic.Lib.StableHlo.Run

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

/-! ## The values the operations compute, named once -/

/-- One endpoint's node index for every edge: a column of the edge list as a vector. -/
def endpointCol (E : (⟨S160000x2, .i32⟩ : BufTy).Contents (Elt F)) (off : Fin 2 → Nat) (h : S160000x2.Slices off S160000x1) :
    (⟨S160000, .i32⟩ : BufTy).Contents (Elt F) :=
  shapeCast _ (extractStridedSlice S160000x1 off E h) shapeCasts_S160000x1_S160000

/-- The rows of the node table that a vector of node indices names, a negative index counting from the end of the
    table (`i + 50000` when `i < 0`). -/
def endpointRows (X : (⟨S50000x128, .f32⟩ : BufTy).Contents (Elt F)) (I : (⟨S160000, .i32⟩ : BufTy).Contents (Elt F)) :
    (⟨S160000x128, .f32⟩ : BufTy).Contents (Elt F) :=
  Host.gather gather_S50000x128_S160000x1_S160000x128_1_0_n_n_0_1_1128 X
    (broadcastInDim S160000x1 ![0] bcast_S160000_S160000x1_0
      (select (cmpi .slt I (broadcastInDim S160000 ![] bcast_S_S160000 (constantI S_ 32 0#32)))
        (addi I (broadcastInDim S160000 ![] bcast_S_S160000 (constantI S_ 32 50000#32))) I))

/-- One endpoint's messages: the 256 features of every edge times the first layer cut out of its table at `o1`, clamped
    below at zero, times the second layer cut out of its table at `o2`. -/
def edgeMlp (R : (⟨S160000x256, .f32⟩ : BufTy).Contents (Elt F))
    (P1 : (⟨S4x2x256x128, .f32⟩ : BufTy).Contents (Elt F)) (o1 : Fin 4 → Nat) (h1 : S4x2x256x128.Slices o1 S1x1x256x128)
    (P2 : (⟨S4x2x128x128, .f32⟩ : BufTy).Contents (Elt F)) (o2 : Fin 4 → Nat) (h2 : S4x2x128x128.Slices o2 S1x1x128x128) :
    (⟨S160000x128, .f32⟩ : BufTy).Contents (Elt F) :=
  Host.dotGeneral dot_S160000x128_S128x128_S160000x128_1_0_0_1_n_n none
    (maximumf (Host.dotGeneral dot_S160000x256_S256x128_S160000x128_1_0_0_1_n_n none R
        (shapeCast _ (extractStridedSlice S1x1x256x128 o1 P1 h1) shapeCasts_S1x1x256x128_S256x128))
      (broadcastInDim S160000x128 ![] bcast_S_S160000x128 (constant S_ .f32 0x00000000#32)))
    (shapeCast _ (extractStridedSlice S1x1x128x128 o2 P2 h2) shapeCasts_S1x1x128x128_S128x128)

/-- The contents after two runs of operations, one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Two pieces laid side by side: equal pieces give equal wholes. -/
theorem concatenate_congr₂ {α : Type} {t : Shape} {a : Fin t.rank} {s₀ s₁ : Shape} {x₀ y₀ : s₀.Idx → α} {x₁ y₁ : s₁.Idx → α}
    (h : Shape.Concatenates [s₀, s₁] t a) (e₀ : x₀ = y₀) (e₁ : x₁ = y₁) :
    concatenate t a [⟨s₀, x₀⟩, ⟨s₁, x₁⟩] h = concatenate t a [⟨s₀, y₀⟩, ⟨s₁, y₁⟩] h := by
  subst e₀ e₁; rfl

/-- Eight pieces laid end to end: equal pieces give equal wholes. -/
theorem concatenate_congr₈ {α : Type} {t : Shape} {a : Fin t.rank} {s₀ s₁ s₂ s₃ s₄ s₅ s₆ s₇ : Shape}
    {x₀ y₀ : s₀.Idx → α} {x₁ y₁ : s₁.Idx → α} {x₂ y₂ : s₂.Idx → α} {x₃ y₃ : s₃.Idx → α}
    {x₄ y₄ : s₄.Idx → α} {x₅ y₅ : s₅.Idx → α} {x₆ y₆ : s₆.Idx → α} {x₇ y₇ : s₇.Idx → α}
    (h : Shape.Concatenates [s₀, s₁, s₂, s₃, s₄, s₅, s₆, s₇] t a)
    (e₀ : x₀ = y₀) (e₁ : x₁ = y₁) (e₂ : x₂ = y₂) (e₃ : x₃ = y₃) (e₄ : x₄ = y₄) (e₅ : x₅ = y₅) (e₆ : x₆ = y₆) (e₇ : x₇ = y₇) :
    concatenate t a [⟨s₀, x₀⟩, ⟨s₁, x₁⟩, ⟨s₂, x₂⟩, ⟨s₃, x₃⟩, ⟨s₄, x₄⟩, ⟨s₅, x₅⟩, ⟨s₆, x₆⟩, ⟨s₇, x₇⟩] h
      = concatenate t a [⟨s₀, y₀⟩, ⟨s₁, y₁⟩, ⟨s₂, y₂⟩, ⟨s₃, y₃⟩, ⟨s₄, y₄⟩, ⟨s₅, y₅⟩, ⟨s₆, y₆⟩, ⟨s₇, y₇⟩] h := by
  subst e₀ e₁ e₂ e₃ e₄ e₅ e₆ e₇; rfl

attribute [local congr] concatenate_congr₂ concatenate_congr₈

/-! ## Edge type 0 -/

/-- Edge type 0: the node rows at both endpoints of every edge (22 operations). -/
def opsA0 : List (HloOp τ sig (Elt F)) :=
  [ unary main_arg1 main_v0 ((extractStridedSlice S160000x1 ![0, 0] · slices_S160000x2_S160000x1_0_0) : (⟨S160000x2, .i32⟩ : BufTy).Contents (Elt F) → (⟨S160000x1, .i32⟩ : BufTy).Contents (Elt F)),
    reshape main_v0 main_v1 rfl shapeCasts_S160000x1_S160000,
    nullary main_c (constantI S_ 32 0#32),
    unary main_c main_v2 (broadcastInDim S160000 ![] bcast_S_S160000 : (⟨S_, .i32⟩ : BufTy).Contents (Elt F) → (⟨S160000, .i32⟩ : BufTy).Contents (Elt F)),
    binary main_v1 main_v2 main_v3 (cmpi .slt : (⟨S160000, .i32⟩ : BufTy).Contents (Elt F) → (⟨S160000, .i32⟩ : BufTy).Contents (Elt F) → (⟨S160000, .i1⟩ : BufTy).Contents (Elt F)),
    nullary main_c_0 (constantI S_ 32 50000#32),
    unary main_c_0 main_v4 (broadcastInDim S160000 ![] bcast_S_S160000 : (⟨S_, .i32⟩ : BufTy).Contents (Elt F) → (⟨S160000, .i32⟩ : BufTy).Contents (Elt F)),
    binary main_v1 main_v4 main_v5 (addi : (⟨S160000, .i32⟩ : BufTy).Contents (Elt F) → (⟨S160000, .i32⟩ : BufTy).Contents (Elt F) → (⟨S160000, .i32⟩ : BufTy).Contents (Elt F)),
    ternary main_v3 main_v5 main_v1 main_v6 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v6 main_v7 (broadcastInDim S160000x1 ![0] bcast_S160000_S160000x1_0 : (⟨S160000, .i32⟩ : BufTy).Contents (Elt F) → (⟨S160000x1, .i32⟩ : BufTy).Contents (Elt F)),
    binary main_arg0 main_v7 main_v8 ((fun x i => Host.gather gather_S50000x128_S160000x1_S160000x128_1_0_n_n_0_1_1128 x i) : (⟨S50000x128, .f32⟩ : BufTy).Contents (Elt F) → (⟨S160000x1, .i32⟩ : BufTy).Contents (Elt F) → (⟨S160000x128, .f32⟩ : BufTy).Contents (Elt F)),
    unary main_arg1 main_v9 ((extractStridedSlice S160000x1 ![0, 1] · slices_S160000x2_S160000x1_0_1) : (⟨S160000x2, .i32⟩ : BufTy).Contents (Elt F) → (⟨S160000x1, .i32⟩ : BufTy).Contents (Elt F)),
    reshape main_v9 main_v10 rfl shapeCasts_S160000x1_S160000,
    nullary main_c_1 (constantI S_ 32 0#32),
    unary main_c_1 main_v11 (broadcastInDim S160000 ![] bcast_S_S160000 : (⟨S_, .i32⟩ : BufTy).Contents (Elt F) → (⟨S160000, .i32⟩ : BufTy).Contents (Elt F)),
    binary main_v10 main_v11 main_v12 (cmpi .slt : (⟨S160000, .i32⟩ : BufTy).Contents (Elt F) → (⟨S160000, .i32⟩ : BufTy).Contents (Elt F) → (⟨S160000, .i1⟩ : BufTy).Contents (Elt F)),
    nullary main_c_2 (constantI S_ 32 50000#32),
    unary main_c_2 main_v13 (broadcastInDim S160000 ![] bcast_S_S160000 : (⟨S_, .i32⟩ : BufTy).Contents (Elt F) → (⟨S160000, .i32⟩ : BufTy).Contents (Elt F)),
    binary main_v10 main_v13 main_v14 (addi : (⟨S160000, .i32⟩ : BufTy).Contents (Elt F) → (⟨S160000, .i32⟩ : BufTy).Contents (Elt F) → (⟨S160000, .i32⟩ : BufTy).Contents (Elt F)),
    ternary main_v12 main_v14 main_v10 main_v15 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v15 main_v16 (broadcastInDim S160000x1 ![0] bcast_S160000_S160000x1_0 : (⟨S160000, .i32⟩ : BufTy).Contents (Elt F) → (⟨S160000x1, .i32⟩ : BufTy).Contents (Elt F)),
    binary main_arg0 main_v16 main_v17 ((fun x i => Host.gather gather_S50000x128_S160000x1_S160000x128_1_0_n_n_0_1_1128 x i) : (⟨S50000x128, .f32⟩ : BufTy).Contents (Elt F) → (⟨S160000x1, .i32⟩ : BufTy).Contents (Elt F) → (⟨S160000x128, .f32⟩ : BufTy).Contents (Elt F)) ]

theorem opsA0_sub : (opsA0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

theorem opsA0_fresh : ∀ op ∈ (opsA0 : List (HloOp τ sig (Elt F))), op.fresh = ∅ := by
  intro _ h; (repeat (cases h with | head => rfl | tail _ h => ?_)); exact nomatch h

/-- The buffers they write: each operation its own result's. -/
abbrev wlA0 : List (Ref sig .tc) :=
  [main_v0, main_v1, main_c, main_v2, main_v3, main_c_0, main_v4, main_v5, main_v6, main_v7, main_v8, main_v9, main_v10, main_c_1, main_v11, main_v12, main_c_2, main_v13, main_v14, main_v15, main_v16, main_v17]

theorem opsA0_writes : (opsA0 : List (HloOp τ sig (Elt F))).Forall fun op =>
    op.writes ⊆ (wlA0.map (Proc.devRef (τ := τ) .tc)).toFinset := by
  simp only [opsA0, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepA0 (W : Valuation τ sig (Elt F)) {r : Ref sig .tc} (hr : r ∉ wlA0) :
    after opsA0 W (no_index (Proc.devRef .tc r)) = W (Proc.devRef .tc r) :=
  after_of_writes_sub opsA0 W opsA0_writes hr

/-- After them, the first endpoint's rows … -/
theorem A0_g0 (W : Valuation τ sig (Elt F)) :
    after opsA0 W (no_index (Proc.devRef .tc main_v8))
      = endpointRows (W (Proc.devRef .tc main_arg0)) (endpointCol (W (Proc.devRef .tc main_arg1)) ![0, 0] slices_S160000x2_S160000x1_0_0) := by
  unfold opsA0; after_results <;> rfl
/-- … and the second endpoint's. -/
theorem A0_g1 (W : Valuation τ sig (Elt F)) :
    after opsA0 W (no_index (Proc.devRef .tc main_v17))
      = endpointRows (W (Proc.devRef .tc main_arg0)) (endpointCol (W (Proc.devRef .tc main_arg1)) ![0, 1] slices_S160000x2_S160000x1_0_1) := by
  unfold opsA0; after_results <;> rfl

/-- Edge type 0: the two rows side by side, the two perceptrons over them, and the two endpoint columns (23 operations). -/
def opsB0 : List (HloOp τ sig (Elt F)) :=
  [ binary main_v8 main_v17 main_v18 ((fun a b => concatenate S160000x256 1 [⟨S160000x128, a⟩, ⟨S160000x128, b⟩] concatenates_S160000x128_S160000x128_S160000x256_d1) : (⟨S160000x128, .f32⟩ : BufTy).Contents (Elt F) → (⟨S160000x128, .f32⟩ : BufTy).Contents (Elt F) → (⟨S160000x256, .f32⟩ : BufTy).Contents (Elt F)),
    unary main_arg5 main_v19 ((extractStridedSlice S1x1x256x128 ![0, 0, 0, 0] · slices_S4x2x256x128_S1x1x256x128_0_0_0_0) : (⟨S4x2x256x128, .f32⟩ : BufTy).Contents (Elt F) → (⟨S1x1x256x128, .f32⟩ : BufTy).Contents (Elt F)),
    reshape main_v19 main_v20 rfl shapeCasts_S1x1x256x128_S256x128,
    binary main_v18 main_v20 main_v21 ((fun l r => Host.dotGeneral dot_S160000x256_S256x128_S160000x128_1_0_0_1_n_n none l r) : (⟨S160000x256, .f32⟩ : BufTy).Contents (Elt F) → (⟨S256x128, .f32⟩ : BufTy).Contents (Elt F) → (⟨S160000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S160000x128, .f32⟩) main_call0_v0) (broadcastInDim S160000x128 ![] bcast_S_S160000x128),
    TRef.binary (TRef.of (T := ⟨S160000x128, .f32⟩) main_v21) (TRef.of (T := ⟨S160000x128, .f32⟩) main_call0_v0) (TRef.of (T := ⟨S160000x128, .f32⟩) main_v22) maximumf,
    unary main_arg6 main_v23 ((extractStridedSlice S1x1x128x128 ![0, 0, 0, 0] · slices_S4x2x128x128_S1x1x128x128_0_0_0_0) : (⟨S4x2x128x128, .f32⟩ : BufTy).Contents (Elt F) → (⟨S1x1x128x128, .f32⟩ : BufTy).Contents (Elt F)),
    reshape main_v23 main_v24 rfl shapeCasts_S1x1x128x128_S128x128,
    binary main_v22 main_v24 main_v25 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg1 main_v26 ((extractStridedSlice S160000x1 ![0, 0] · slices_S160000x2_S160000x1_0_0) : (⟨S160000x2, .i32⟩ : BufTy).Contents (Elt F) → (⟨S160000x1, .i32⟩ : BufTy).Contents (Elt F)),
    reshape main_v26 main_v27 rfl shapeCasts_S160000x1_S160000,
    unary main_arg5 main_v28 ((extractStridedSlice S1x1x256x128 ![0, 1, 0, 0] · slices_S4x2x256x128_S1x1x256x128_0_1_0_0) : (⟨S4x2x256x128, .f32⟩ : BufTy).Contents (Elt F) → (⟨S1x1x256x128, .f32⟩ : BufTy).Contents (Elt F)),
    reshape main_v28 main_v29 rfl shapeCasts_S1x1x256x128_S256x128,
    binary main_v18 main_v29 main_v30 ((fun l r => Host.dotGeneral dot_S160000x256_S256x128_S160000x128_1_0_0_1_n_n none l r) : (⟨S160000x256, .f32⟩ : BufTy).Contents (Elt F) → (⟨S256x128, .f32⟩ : BufTy).Contents (Elt F) → (⟨S160000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S160000x128, .f32⟩) main_call1_v0) (broadcastInDim S160000x128 ![] bcast_S_S160000x128),
    TRef.binary (TRef.of (T := ⟨S160000x128, .f32⟩) main_v30) (TRef.of (T := ⟨S160000x128, .f32⟩) main_call1_v0) (TRef.of (T := ⟨S160000x128, .f32⟩) main_v31) maximumf,
    unary main_arg6 main_v32 ((extractStridedSlice S1x1x128x128 ![0, 1, 0, 0] · slices_S4x2x128x128_S1x1x128x128_0_1_0_0) : (⟨S4x2x128x128, .f32⟩ : BufTy).Contents (Elt F) → (⟨S1x1x128x128, .f32⟩ : BufTy).Contents (Elt F)),
    reshape main_v32 main_v33 rfl shapeCasts_S1x1x128x128_S128x128,
    binary main_v31 main_v33 main_v34 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg1 main_v35 ((extractStridedSlice S160000x1 ![0, 1] · slices_S160000x2_S160000x1_0_1) : (⟨S160000x2, .i32⟩ : BufTy).Contents (Elt F) → (⟨S160000x1, .i32⟩ : BufTy).Contents (Elt F)),
    reshape main_v35 main_v36 rfl shapeCasts_S160000x1_S160000 ]

theorem opsB0_sub : (opsB0 : List (HloOp τ sig (Elt F))).Forall fun op => op.bufs ⊆ tcRefs τ sig :=
  ⟨binary_bufs_sub .., unary_bufs_sub .., reshape_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., binary_bufs_sub .., unary_bufs_sub .., reshape_bufs_sub ..⟩

theorem opsB0_fresh : ∀ op ∈ (opsB0 : List (HloOp τ sig (Elt F))), op.fresh = ∅ := by
  intro _ h; (repeat (cases h with | head => rfl | tail _ h => ?_)); exact nomatch h

/-- The buffers they write: each operation its own result's. -/
abbrev wlB0 : List (Ref sig .tc) :=
  [main_v18, main_v19, main_v20, main_v21, main_call0_cst, main_call0_v0, main_v22, main_v23, main_v24, main_v25, main_v26, main_v27, main_v28, main_v29, main_v30, main_call1_cst, main_call1_v0, main_v31, main_v32, main_v33, main_v34, main_v35, main_v36]

theorem opsB0_writes : (opsB0 : List (HloOp τ sig (Elt F))).Forall fun op =>
    op.writes ⊆ (wlB0.map (Proc.devRef (τ := τ) .tc)).toFinset := by
  simp only [opsB0, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepB0 (W : Valuation τ sig (Elt F)) {r : Ref sig .tc} (hr : r ∉ wlB0) :
    after opsB0 W (no_index (Proc.devRef .tc r)) = W (Proc.devRef .tc r) :=
  after_of_writes_sub opsB0 W opsB0_writes hr

/-- After them, the first endpoint's messages, from the rows found before … -/
theorem B0_y0 (W : Valuation τ sig (Elt F)) :
    after opsB0 W (no_index (Proc.devRef .tc main_v25))
      = edgeMlp (concatenate S160000x256 1 [⟨S160000x128, W (Proc.devRef .tc main_v8)⟩, ⟨S160000x128, W (Proc.devRef .tc main_v17)⟩] concatenates_S160000x128_S160000x128_S160000x256_d1)
        (W (Proc.devRef .tc main_arg5)) ![0, 0, 0, 0] slices_S4x2x256x128_S1x1x256x128_0_0_0_0
        (W (Proc.devRef .tc main_arg6)) ![0, 0, 0, 0] slices_S4x2x128x128_S1x1x128x128_0_0_0_0 := by
  unfold opsB0; after_results <;> rfl
/-- … the second endpoint's … -/
theorem B0_y1 (W : Valuation τ sig (Elt F)) :
    after opsB0 W (no_index (Proc.devRef .tc main_v34))
      = edgeMlp (concatenate S160000x256 1 [⟨S160000x128, W (Proc.devRef .tc main_v8)⟩, ⟨S160000x128, W (Proc.devRef .tc main_v17)⟩] concatenates_S160000x128_S160000x128_S160000x256_d1)
        (W (Proc.devRef .tc main_arg5)) ![0, 1, 0, 0] slices_S4x2x256x128_S1x1x256x128_0_1_0_0
        (W (Proc.devRef .tc main_arg6)) ![0, 1, 0, 0] slices_S4x2x128x128_S1x1x128x128_0_1_0_0 := by
  unfold opsB0; after_results <;> rfl
/-- … and the two endpoint columns. -/
theorem B0_i0 (W : Valuation τ sig (Elt F)) :
    after opsB0 W (no_index (Proc.devRef .tc main_v27)) = endpointCol (W (Proc.devRef .tc main_arg1)) ![0, 0] slices_S160000x2_S160000x1_0_0 := by
  unfold opsB0; after_results <;> rfl
theorem B0_i1 (W : Valuation τ sig (Elt F)) :
    after opsB0 W (no_index (Proc.devRef .tc main_v36)) = endpointCol (W (Proc.devRef .tc main_arg1)) ![0, 1] slices_S160000x2_S160000x1_0_1 := by
  unfold opsB0; after_results <;> rfl

/-! ## Edge type 1 -/

/-- Edge type 1: the node rows at both endpoints of every edge. -/
def opsA1 : List (HloOp τ sig (Elt F)) :=
  [ unary main_arg2 main_v37 ((extractStridedSlice S160000x1 ![0, 0] · slices_S160000x2_S160000x1_0_0) : (⟨S160000x2, .i32⟩ : BufTy).Contents (Elt F) → (⟨S160000x1, .i32⟩ : BufTy).Contents (Elt F)),
    reshape main_v37 main_v38 rfl shapeCasts_S160000x1_S160000,
    nullary main_c_3 (constantI S_ 32 0#32),
    unary main_c_3 main_v39 (broadcastInDim S160000 ![] bcast_S_S160000 : (⟨S_, .i32⟩ : BufTy).Contents (Elt F) → (⟨S160000, .i32⟩ : BufTy).Contents (Elt F)),
    binary main_v38 main_v39 main_v40 (cmpi .slt : (⟨S160000, .i32⟩ : BufTy).Contents (Elt F) → (⟨S160000, .i32⟩ : BufTy).Contents (Elt F) → (⟨S160000, .i1⟩ : BufTy).Contents (Elt F)),
    nullary main_c_4 (constantI S_ 32 50000#32),
    unary main_c_4 main_v41 (broadcastInDim S160000 ![] bcast_S_S160000 : (⟨S_, .i32⟩ : BufTy).Contents (Elt F) → (⟨S160000, .i32⟩ : BufTy).Contents (Elt F)),
    binary main_v38 main_v41 main_v42 (addi : (⟨S160000, .i32⟩ : BufTy).Contents (Elt F) → (⟨S160000, .i32⟩ : BufTy).Contents (Elt F) → (⟨S160000, .i32⟩ : BufTy).Contents (Elt F)),
    ternary main_v40 main_v42 main_v38 main_v43 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v43 main_v44 (broadcastInDim S160000x1 ![0] bcast_S160000_S160000x1_0 : (⟨S160000, .i32⟩ : BufTy).Contents (Elt F) → (⟨S160000x1, .i32⟩ : BufTy).Contents (Elt F)),
    binary main_arg0 main_v44 main_v45 ((fun x i => Host.gather gather_S50000x128_S160000x1_S160000x128_1_0_n_n_0_1_1128 x i) : (⟨S50000x128, .f32⟩ : BufTy).Contents (Elt F) → (⟨S160000x1, .i32⟩ : BufTy).Contents (Elt F) → (⟨S160000x128, .f32⟩ : BufTy).Contents (Elt F)),
    unary main_arg2 main_v46 ((extractStridedSlice S160000x1 ![0, 1] · slices_S160000x2_S160000x1_0_1) : (⟨S160000x2, .i32⟩ : BufTy).Contents (Elt F) → (⟨S160000x1, .i32⟩ : BufTy).Contents (Elt F)),
    reshape main_v46 main_v47 rfl shapeCasts_S160000x1_S160000,
    nullary main_c_5 (constantI S_ 32 0#32),
    unary main_c_5 main_v48 (broadcastInDim S160000 ![] bcast_S_S160000 : (⟨S_, .i32⟩ : BufTy).Contents (Elt F) → (⟨S160000, .i32⟩ : BufTy).Contents (Elt F)),
    binary main_v47 main_v48 main_v49 (cmpi .slt : (⟨S160000, .i32⟩ : BufTy).Contents (Elt F) → (⟨S160000, .i32⟩ : BufTy).Contents (Elt F) → (⟨S160000, .i1⟩ : BufTy).Contents (Elt F)),
    nullary main_c_6 (constantI S_ 32 50000#32),
    unary main_c_6 main_v50 (broadcastInDim S160000 ![] bcast_S_S160000 : (⟨S_, .i32⟩ : BufTy).Contents (Elt F) → (⟨S160000, .i32⟩ : BufTy).Contents (Elt F)),
    binary main_v47 main_v50 main_v51 (addi : (⟨S160000, .i32⟩ : BufTy).Contents (Elt F) → (⟨S160000, .i32⟩ : BufTy).Contents (Elt F) → (⟨S160000, .i32⟩ : BufTy).Contents (Elt F)),
    ternary main_v49 main_v51 main_v47 main_v52 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v52 main_v53 (broadcastInDim S160000x1 ![0] bcast_S160000_S160000x1_0 : (⟨S160000, .i32⟩ : BufTy).Contents (Elt F) → (⟨S160000x1, .i32⟩ : BufTy).Contents (Elt F)),
    binary main_arg0 main_v53 main_v54 ((fun x i => Host.gather gather_S50000x128_S160000x1_S160000x128_1_0_n_n_0_1_1128 x i) : (⟨S50000x128, .f32⟩ : BufTy).Contents (Elt F) → (⟨S160000x1, .i32⟩ : BufTy).Contents (Elt F) → (⟨S160000x128, .f32⟩ : BufTy).Contents (Elt F)) ]

theorem opsA1_sub : (opsA1 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

theorem opsA1_fresh : ∀ op ∈ (opsA1 : List (HloOp τ sig (Elt F))), op.fresh = ∅ := by
  intro _ h; (repeat (cases h with | head => rfl | tail _ h => ?_)); exact nomatch h

/-- The buffers they write: each operation its own result's. -/
abbrev wlA1 : List (Ref sig .tc) :=
  [main_v37, main_v38, main_c_3, main_v39, main_v40, main_c_4, main_v41, main_v42, main_v43, main_v44, main_v45, main_v46, main_v47, main_c_5, main_v48, main_v49, main_c_6, main_v50, main_v51, main_v52, main_v53, main_v54]

theorem opsA1_writes : (opsA1 : List (HloOp τ sig (Elt F))).Forall fun op =>
    op.writes ⊆ (wlA1.map (Proc.devRef (τ := τ) .tc)).toFinset := by
  simp only [opsA1, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepA1 (W : Valuation τ sig (Elt F)) {r : Ref sig .tc} (hr : r ∉ wlA1) :
    after opsA1 W (no_index (Proc.devRef .tc r)) = W (Proc.devRef .tc r) :=
  after_of_writes_sub opsA1 W opsA1_writes hr

/-- After them, the first endpoint's rows … -/
theorem A1_g0 (W : Valuation τ sig (Elt F)) :
    after opsA1 W (no_index (Proc.devRef .tc main_v45))
      = endpointRows (W (Proc.devRef .tc main_arg0)) (endpointCol (W (Proc.devRef .tc main_arg2)) ![0, 0] slices_S160000x2_S160000x1_0_0) := by
  unfold opsA1; after_results <;> rfl
/-- … and the second endpoint's. -/
theorem A1_g1 (W : Valuation τ sig (Elt F)) :
    after opsA1 W (no_index (Proc.devRef .tc main_v54))
      = endpointRows (W (Proc.devRef .tc main_arg0)) (endpointCol (W (Proc.devRef .tc main_arg2)) ![0, 1] slices_S160000x2_S160000x1_0_1) := by
  unfold opsA1; after_results <;> rfl

/-- Edge type 1: the rows side by side, the two perceptrons, the two endpoint columns. -/
def opsB1 : List (HloOp τ sig (Elt F)) :=
  [ binary main_v45 main_v54 main_v55 ((fun a b => concatenate S160000x256 1 [⟨S160000x128, a⟩, ⟨S160000x128, b⟩] concatenates_S160000x128_S160000x128_S160000x256_d1) : (⟨S160000x128, .f32⟩ : BufTy).Contents (Elt F) → (⟨S160000x128, .f32⟩ : BufTy).Contents (Elt F) → (⟨S160000x256, .f32⟩ : BufTy).Contents (Elt F)),
    unary main_arg5 main_v56 ((extractStridedSlice S1x1x256x128 ![1, 0, 0, 0] · slices_S4x2x256x128_S1x1x256x128_1_0_0_0) : (⟨S4x2x256x128, .f32⟩ : BufTy).Contents (Elt F) → (⟨S1x1x256x128, .f32⟩ : BufTy).Contents (Elt F)),
    reshape main_v56 main_v57 rfl shapeCasts_S1x1x256x128_S256x128,
    binary main_v55 main_v57 main_v58 ((fun l r => Host.dotGeneral dot_S160000x256_S256x128_S160000x128_1_0_0_1_n_n none l r) : (⟨S160000x256, .f32⟩ : BufTy).Contents (Elt F) → (⟨S256x128, .f32⟩ : BufTy).Contents (Elt F) → (⟨S160000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S160000x128, .f32⟩) main_call2_v0) (broadcastInDim S160000x128 ![] bcast_S_S160000x128),
    TRef.binary (TRef.of (T := ⟨S160000x128, .f32⟩) main_v58) (TRef.of (T := ⟨S160000x128, .f32⟩) main_call2_v0) (TRef.of (T := ⟨S160000x128, .f32⟩) main_v59) maximumf,
    unary main_arg6 main_v60 ((extractStridedSlice S1x1x128x128 ![1, 0, 0, 0] · slices_S4x2x128x128_S1x1x128x128_1_0_0_0) : (⟨S4x2x128x128, .f32⟩ : BufTy).Contents (Elt F) → (⟨S1x1x128x128, .f32⟩ : BufTy).Contents (Elt F)),
    reshape main_v60 main_v61 rfl shapeCasts_S1x1x128x128_S128x128,
    binary main_v59 main_v61 main_v62 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg2 main_v63 ((extractStridedSlice S160000x1 ![0, 0] · slices_S160000x2_S160000x1_0_0) : (⟨S160000x2, .i32⟩ : BufTy).Contents (Elt F) → (⟨S160000x1, .i32⟩ : BufTy).Contents (Elt F)),
    reshape main_v63 main_v64 rfl shapeCasts_S160000x1_S160000,
    unary main_arg5 main_v65 ((extractStridedSlice S1x1x256x128 ![1, 1, 0, 0] · slices_S4x2x256x128_S1x1x256x128_1_1_0_0) : (⟨S4x2x256x128, .f32⟩ : BufTy).Contents (Elt F) → (⟨S1x1x256x128, .f32⟩ : BufTy).Contents (Elt F)),
    reshape main_v65 main_v66 rfl shapeCasts_S1x1x256x128_S256x128,
    binary main_v55 main_v66 main_v67 ((fun l r => Host.dotGeneral dot_S160000x256_S256x128_S160000x128_1_0_0_1_n_n none l r) : (⟨S160000x256, .f32⟩ : BufTy).Contents (Elt F) → (⟨S256x128, .f32⟩ : BufTy).Contents (Elt F) → (⟨S160000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S160000x128, .f32⟩) main_call3_v0) (broadcastInDim S160000x128 ![] bcast_S_S160000x128),
    TRef.binary (TRef.of (T := ⟨S160000x128, .f32⟩) main_v67) (TRef.of (T := ⟨S160000x128, .f32⟩) main_call3_v0) (TRef.of (T := ⟨S160000x128, .f32⟩) main_v68) maximumf,
    unary main_arg6 main_v69 ((extractStridedSlice S1x1x128x128 ![1, 1, 0, 0] · slices_S4x2x128x128_S1x1x128x128_1_1_0_0) : (⟨S4x2x128x128, .f32⟩ : BufTy).Contents (Elt F) → (⟨S1x1x128x128, .f32⟩ : BufTy).Contents (Elt F)),
    reshape main_v69 main_v70 rfl shapeCasts_S1x1x128x128_S128x128,
    binary main_v68 main_v70 main_v71 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg2 main_v72 ((extractStridedSlice S160000x1 ![0, 1] · slices_S160000x2_S160000x1_0_1) : (⟨S160000x2, .i32⟩ : BufTy).Contents (Elt F) → (⟨S160000x1, .i32⟩ : BufTy).Contents (Elt F)),
    reshape main_v72 main_v73 rfl shapeCasts_S160000x1_S160000 ]

theorem opsB1_sub : (opsB1 : List (HloOp τ sig (Elt F))).Forall fun op => op.bufs ⊆ tcRefs τ sig :=
  ⟨binary_bufs_sub .., unary_bufs_sub .., reshape_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., binary_bufs_sub .., unary_bufs_sub .., reshape_bufs_sub ..⟩

theorem opsB1_fresh : ∀ op ∈ (opsB1 : List (HloOp τ sig (Elt F))), op.fresh = ∅ := by
  intro _ h; (repeat (cases h with | head => rfl | tail _ h => ?_)); exact nomatch h

/-- The buffers they write: each operation its own result's. -/
abbrev wlB1 : List (Ref sig .tc) :=
  [main_v55, main_v56, main_v57, main_v58, main_call2_cst, main_call2_v0, main_v59, main_v60, main_v61, main_v62, main_v63, main_v64, main_v65, main_v66, main_v67, main_call3_cst, main_call3_v0, main_v68, main_v69, main_v70, main_v71, main_v72, main_v73]

theorem opsB1_writes : (opsB1 : List (HloOp τ sig (Elt F))).Forall fun op =>
    op.writes ⊆ (wlB1.map (Proc.devRef (τ := τ) .tc)).toFinset := by
  simp only [opsB1, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepB1 (W : Valuation τ sig (Elt F)) {r : Ref sig .tc} (hr : r ∉ wlB1) :
    after opsB1 W (no_index (Proc.devRef .tc r)) = W (Proc.devRef .tc r) :=
  after_of_writes_sub opsB1 W opsB1_writes hr

/-- After them, the first endpoint's messages, from the rows found before … -/
theorem B1_y0 (W : Valuation τ sig (Elt F)) :
    after opsB1 W (no_index (Proc.devRef .tc main_v62))
      = edgeMlp (concatenate S160000x256 1 [⟨S160000x128, W (Proc.devRef .tc main_v45)⟩, ⟨S160000x128, W (Proc.devRef .tc main_v54)⟩] concatenates_S160000x128_S160000x128_S160000x256_d1)
        (W (Proc.devRef .tc main_arg5)) ![1, 0, 0, 0] slices_S4x2x256x128_S1x1x256x128_1_0_0_0
        (W (Proc.devRef .tc main_arg6)) ![1, 0, 0, 0] slices_S4x2x128x128_S1x1x128x128_1_0_0_0 := by
  unfold opsB1; after_results <;> rfl
/-- … the second endpoint's … -/
theorem B1_y1 (W : Valuation τ sig (Elt F)) :
    after opsB1 W (no_index (Proc.devRef .tc main_v71))
      = edgeMlp (concatenate S160000x256 1 [⟨S160000x128, W (Proc.devRef .tc main_v45)⟩, ⟨S160000x128, W (Proc.devRef .tc main_v54)⟩] concatenates_S160000x128_S160000x128_S160000x256_d1)
        (W (Proc.devRef .tc main_arg5)) ![1, 1, 0, 0] slices_S4x2x256x128_S1x1x256x128_1_1_0_0
        (W (Proc.devRef .tc main_arg6)) ![1, 1, 0, 0] slices_S4x2x128x128_S1x1x128x128_1_1_0_0 := by
  unfold opsB1; after_results <;> rfl
/-- … and the two endpoint columns. -/
theorem B1_i0 (W : Valuation τ sig (Elt F)) :
    after opsB1 W (no_index (Proc.devRef .tc main_v64)) = endpointCol (W (Proc.devRef .tc main_arg2)) ![0, 0] slices_S160000x2_S160000x1_0_0 := by
  unfold opsB1; after_results <;> rfl
theorem B1_i1 (W : Valuation τ sig (Elt F)) :
    after opsB1 W (no_index (Proc.devRef .tc main_v73)) = endpointCol (W (Proc.devRef .tc main_arg2)) ![0, 1] slices_S160000x2_S160000x1_0_1 := by
  unfold opsB1; after_results <;> rfl

/-! ## Edge type 2 -/

/-- Edge type 2: the node rows at both endpoints of every edge. -/
def opsA2 : List (HloOp τ sig (Elt F)) :=
  [ unary main_arg3 main_v74 ((extractStridedSlice S160000x1 ![0, 0] · slices_S160000x2_S160000x1_0_0) : (⟨S160000x2, .i32⟩ : BufTy).Contents (Elt F) → (⟨S160000x1, .i32⟩ : BufTy).Contents (Elt F)),
    reshape main_v74 main_v75 rfl shapeCasts_S160000x1_S160000,
    nullary main_c_7 (constantI S_ 32 0#32),
    unary main_c_7 main_v76 (broadcastInDim S160000 ![] bcast_S_S160000 : (⟨S_, .i32⟩ : BufTy).Contents (Elt F) → (⟨S160000, .i32⟩ : BufTy).Contents (Elt F)),
    binary main_v75 main_v76 main_v77 (cmpi .slt : (⟨S160000, .i32⟩ : BufTy).Contents (Elt F) → (⟨S160000, .i32⟩ : BufTy).Contents (Elt F) → (⟨S160000, .i1⟩ : BufTy).Contents (Elt F)),
    nullary main_c_8 (constantI S_ 32 50000#32),
    unary main_c_8 main_v78 (broadcastInDim S160000 ![] bcast_S_S160000 : (⟨S_, .i32⟩ : BufTy).Contents (Elt F) → (⟨S160000, .i32⟩ : BufTy).Contents (Elt F)),
    binary main_v75 main_v78 main_v79 (addi : (⟨S160000, .i32⟩ : BufTy).Contents (Elt F) → (⟨S160000, .i32⟩ : BufTy).Contents (Elt F) → (⟨S160000, .i32⟩ : BufTy).Contents (Elt F)),
    ternary main_v77 main_v79 main_v75 main_v80 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v80 main_v81 (broadcastInDim S160000x1 ![0] bcast_S160000_S160000x1_0 : (⟨S160000, .i32⟩ : BufTy).Contents (Elt F) → (⟨S160000x1, .i32⟩ : BufTy).Contents (Elt F)),
    binary main_arg0 main_v81 main_v82 ((fun x i => Host.gather gather_S50000x128_S160000x1_S160000x128_1_0_n_n_0_1_1128 x i) : (⟨S50000x128, .f32⟩ : BufTy).Contents (Elt F) → (⟨S160000x1, .i32⟩ : BufTy).Contents (Elt F) → (⟨S160000x128, .f32⟩ : BufTy).Contents (Elt F)),
    unary main_arg3 main_v83 ((extractStridedSlice S160000x1 ![0, 1] · slices_S160000x2_S160000x1_0_1) : (⟨S160000x2, .i32⟩ : BufTy).Contents (Elt F) → (⟨S160000x1, .i32⟩ : BufTy).Contents (Elt F)),
    reshape main_v83 main_v84 rfl shapeCasts_S160000x1_S160000,
    nullary main_c_9 (constantI S_ 32 0#32),
    unary main_c_9 main_v85 (broadcastInDim S160000 ![] bcast_S_S160000 : (⟨S_, .i32⟩ : BufTy).Contents (Elt F) → (⟨S160000, .i32⟩ : BufTy).Contents (Elt F)),
    binary main_v84 main_v85 main_v86 (cmpi .slt : (⟨S160000, .i32⟩ : BufTy).Contents (Elt F) → (⟨S160000, .i32⟩ : BufTy).Contents (Elt F) → (⟨S160000, .i1⟩ : BufTy).Contents (Elt F)),
    nullary main_c_10 (constantI S_ 32 50000#32),
    unary main_c_10 main_v87 (broadcastInDim S160000 ![] bcast_S_S160000 : (⟨S_, .i32⟩ : BufTy).Contents (Elt F) → (⟨S160000, .i32⟩ : BufTy).Contents (Elt F)),
    binary main_v84 main_v87 main_v88 (addi : (⟨S160000, .i32⟩ : BufTy).Contents (Elt F) → (⟨S160000, .i32⟩ : BufTy).Contents (Elt F) → (⟨S160000, .i32⟩ : BufTy).Contents (Elt F)),
    ternary main_v86 main_v88 main_v84 main_v89 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v89 main_v90 (broadcastInDim S160000x1 ![0] bcast_S160000_S160000x1_0 : (⟨S160000, .i32⟩ : BufTy).Contents (Elt F) → (⟨S160000x1, .i32⟩ : BufTy).Contents (Elt F)),
    binary main_arg0 main_v90 main_v91 ((fun x i => Host.gather gather_S50000x128_S160000x1_S160000x128_1_0_n_n_0_1_1128 x i) : (⟨S50000x128, .f32⟩ : BufTy).Contents (Elt F) → (⟨S160000x1, .i32⟩ : BufTy).Contents (Elt F) → (⟨S160000x128, .f32⟩ : BufTy).Contents (Elt F)) ]

theorem opsA2_sub : (opsA2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

theorem opsA2_fresh : ∀ op ∈ (opsA2 : List (HloOp τ sig (Elt F))), op.fresh = ∅ := by
  intro _ h; (repeat (cases h with | head => rfl | tail _ h => ?_)); exact nomatch h

/-- The buffers they write: each operation its own result's. -/
abbrev wlA2 : List (Ref sig .tc) :=
  [main_v74, main_v75, main_c_7, main_v76, main_v77, main_c_8, main_v78, main_v79, main_v80, main_v81, main_v82, main_v83, main_v84, main_c_9, main_v85, main_v86, main_c_10, main_v87, main_v88, main_v89, main_v90, main_v91]

theorem opsA2_writes : (opsA2 : List (HloOp τ sig (Elt F))).Forall fun op =>
    op.writes ⊆ (wlA2.map (Proc.devRef (τ := τ) .tc)).toFinset := by
  simp only [opsA2, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepA2 (W : Valuation τ sig (Elt F)) {r : Ref sig .tc} (hr : r ∉ wlA2) :
    after opsA2 W (no_index (Proc.devRef .tc r)) = W (Proc.devRef .tc r) :=
  after_of_writes_sub opsA2 W opsA2_writes hr

/-- After them, the first endpoint's rows … -/
theorem A2_g0 (W : Valuation τ sig (Elt F)) :
    after opsA2 W (no_index (Proc.devRef .tc main_v82))
      = endpointRows (W (Proc.devRef .tc main_arg0)) (endpointCol (W (Proc.devRef .tc main_arg3)) ![0, 0] slices_S160000x2_S160000x1_0_0) := by
  unfold opsA2; after_results <;> rfl
/-- … and the second endpoint's. -/
theorem A2_g1 (W : Valuation τ sig (Elt F)) :
    after opsA2 W (no_index (Proc.devRef .tc main_v91))
      = endpointRows (W (Proc.devRef .tc main_arg0)) (endpointCol (W (Proc.devRef .tc main_arg3)) ![0, 1] slices_S160000x2_S160000x1_0_1) := by
  unfold opsA2; after_results <;> rfl

/-- Edge type 2: the rows side by side, the two perceptrons, the two endpoint columns. -/
def opsB2 : List (HloOp τ sig (Elt F)) :=
  [ binary main_v82 main_v91 main_v92 ((fun a b => concatenate S160000x256 1 [⟨S160000x128, a⟩, ⟨S160000x128, b⟩] concatenates_S160000x128_S160000x128_S160000x256_d1) : (⟨S160000x128, .f32⟩ : BufTy).Contents (Elt F) → (⟨S160000x128, .f32⟩ : BufTy).Contents (Elt F) → (⟨S160000x256, .f32⟩ : BufTy).Contents (Elt F)),
    unary main_arg5 main_v93 ((extractStridedSlice S1x1x256x128 ![2, 0, 0, 0] · slices_S4x2x256x128_S1x1x256x128_2_0_0_0) : (⟨S4x2x256x128, .f32⟩ : BufTy).Contents (Elt F) → (⟨S1x1x256x128, .f32⟩ : BufTy).Contents (Elt F)),
    reshape main_v93 main_v94 rfl shapeCasts_S1x1x256x128_S256x128,
    binary main_v92 main_v94 main_v95 ((fun l r => Host.dotGeneral dot_S160000x256_S256x128_S160000x128_1_0_0_1_n_n none l r) : (⟨S160000x256, .f32⟩ : BufTy).Contents (Elt F) → (⟨S256x128, .f32⟩ : BufTy).Contents (Elt F) → (⟨S160000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S160000x128, .f32⟩) main_call4_v0) (broadcastInDim S160000x128 ![] bcast_S_S160000x128),
    TRef.binary (TRef.of (T := ⟨S160000x128, .f32⟩) main_v95) (TRef.of (T := ⟨S160000x128, .f32⟩) main_call4_v0) (TRef.of (T := ⟨S160000x128, .f32⟩) main_v96) maximumf,
    unary main_arg6 main_v97 ((extractStridedSlice S1x1x128x128 ![2, 0, 0, 0] · slices_S4x2x128x128_S1x1x128x128_2_0_0_0) : (⟨S4x2x128x128, .f32⟩ : BufTy).Contents (Elt F) → (⟨S1x1x128x128, .f32⟩ : BufTy).Contents (Elt F)),
    reshape main_v97 main_v98 rfl shapeCasts_S1x1x128x128_S128x128,
    binary main_v96 main_v98 main_v99 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg3 main_v100 ((extractStridedSlice S160000x1 ![0, 0] · slices_S160000x2_S160000x1_0_0) : (⟨S160000x2, .i32⟩ : BufTy).Contents (Elt F) → (⟨S160000x1, .i32⟩ : BufTy).Contents (Elt F)),
    reshape main_v100 main_v101 rfl shapeCasts_S160000x1_S160000,
    unary main_arg5 main_v102 ((extractStridedSlice S1x1x256x128 ![2, 1, 0, 0] · slices_S4x2x256x128_S1x1x256x128_2_1_0_0) : (⟨S4x2x256x128, .f32⟩ : BufTy).Contents (Elt F) → (⟨S1x1x256x128, .f32⟩ : BufTy).Contents (Elt F)),
    reshape main_v102 main_v103 rfl shapeCasts_S1x1x256x128_S256x128,
    binary main_v92 main_v103 main_v104 ((fun l r => Host.dotGeneral dot_S160000x256_S256x128_S160000x128_1_0_0_1_n_n none l r) : (⟨S160000x256, .f32⟩ : BufTy).Contents (Elt F) → (⟨S256x128, .f32⟩ : BufTy).Contents (Elt F) → (⟨S160000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S160000x128, .f32⟩) main_call5_v0) (broadcastInDim S160000x128 ![] bcast_S_S160000x128),
    TRef.binary (TRef.of (T := ⟨S160000x128, .f32⟩) main_v104) (TRef.of (T := ⟨S160000x128, .f32⟩) main_call5_v0) (TRef.of (T := ⟨S160000x128, .f32⟩) main_v105) maximumf,
    unary main_arg6 main_v106 ((extractStridedSlice S1x1x128x128 ![2, 1, 0, 0] · slices_S4x2x128x128_S1x1x128x128_2_1_0_0) : (⟨S4x2x128x128, .f32⟩ : BufTy).Contents (Elt F) → (⟨S1x1x128x128, .f32⟩ : BufTy).Contents (Elt F)),
    reshape main_v106 main_v107 rfl shapeCasts_S1x1x128x128_S128x128,
    binary main_v105 main_v107 main_v108 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg3 main_v109 ((extractStridedSlice S160000x1 ![0, 1] · slices_S160000x2_S160000x1_0_1) : (⟨S160000x2, .i32⟩ : BufTy).Contents (Elt F) → (⟨S160000x1, .i32⟩ : BufTy).Contents (Elt F)),
    reshape main_v109 main_v110 rfl shapeCasts_S160000x1_S160000 ]

theorem opsB2_sub : (opsB2 : List (HloOp τ sig (Elt F))).Forall fun op => op.bufs ⊆ tcRefs τ sig :=
  ⟨binary_bufs_sub .., unary_bufs_sub .., reshape_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., binary_bufs_sub .., unary_bufs_sub .., reshape_bufs_sub ..⟩

theorem opsB2_fresh : ∀ op ∈ (opsB2 : List (HloOp τ sig (Elt F))), op.fresh = ∅ := by
  intro _ h; (repeat (cases h with | head => rfl | tail _ h => ?_)); exact nomatch h

/-- The buffers they write: each operation its own result's. -/
abbrev wlB2 : List (Ref sig .tc) :=
  [main_v92, main_v93, main_v94, main_v95, main_call4_cst, main_call4_v0, main_v96, main_v97, main_v98, main_v99, main_v100, main_v101, main_v102, main_v103, main_v104, main_call5_cst, main_call5_v0, main_v105, main_v106, main_v107, main_v108, main_v109, main_v110]

theorem opsB2_writes : (opsB2 : List (HloOp τ sig (Elt F))).Forall fun op =>
    op.writes ⊆ (wlB2.map (Proc.devRef (τ := τ) .tc)).toFinset := by
  simp only [opsB2, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepB2 (W : Valuation τ sig (Elt F)) {r : Ref sig .tc} (hr : r ∉ wlB2) :
    after opsB2 W (no_index (Proc.devRef .tc r)) = W (Proc.devRef .tc r) :=
  after_of_writes_sub opsB2 W opsB2_writes hr

/-- After them, the first endpoint's messages, from the rows found before … -/
theorem B2_y0 (W : Valuation τ sig (Elt F)) :
    after opsB2 W (no_index (Proc.devRef .tc main_v99))
      = edgeMlp (concatenate S160000x256 1 [⟨S160000x128, W (Proc.devRef .tc main_v82)⟩, ⟨S160000x128, W (Proc.devRef .tc main_v91)⟩] concatenates_S160000x128_S160000x128_S160000x256_d1)
        (W (Proc.devRef .tc main_arg5)) ![2, 0, 0, 0] slices_S4x2x256x128_S1x1x256x128_2_0_0_0
        (W (Proc.devRef .tc main_arg6)) ![2, 0, 0, 0] slices_S4x2x128x128_S1x1x128x128_2_0_0_0 := by
  unfold opsB2; after_results <;> rfl
/-- … the second endpoint's … -/
theorem B2_y1 (W : Valuation τ sig (Elt F)) :
    after opsB2 W (no_index (Proc.devRef .tc main_v108))
      = edgeMlp (concatenate S160000x256 1 [⟨S160000x128, W (Proc.devRef .tc main_v82)⟩, ⟨S160000x128, W (Proc.devRef .tc main_v91)⟩] concatenates_S160000x128_S160000x128_S160000x256_d1)
        (W (Proc.devRef .tc main_arg5)) ![2, 1, 0, 0] slices_S4x2x256x128_S1x1x256x128_2_1_0_0
        (W (Proc.devRef .tc main_arg6)) ![2, 1, 0, 0] slices_S4x2x128x128_S1x1x128x128_2_1_0_0 := by
  unfold opsB2; after_results <;> rfl
/-- … and the two endpoint columns. -/
theorem B2_i0 (W : Valuation τ sig (Elt F)) :
    after opsB2 W (no_index (Proc.devRef .tc main_v101)) = endpointCol (W (Proc.devRef .tc main_arg3)) ![0, 0] slices_S160000x2_S160000x1_0_0 := by
  unfold opsB2; after_results <;> rfl
theorem B2_i1 (W : Valuation τ sig (Elt F)) :
    after opsB2 W (no_index (Proc.devRef .tc main_v110)) = endpointCol (W (Proc.devRef .tc main_arg3)) ![0, 1] slices_S160000x2_S160000x1_0_1 := by
  unfold opsB2; after_results <;> rfl

/-! ## Edge type 3 -/

/-- Edge type 3: the node rows at both endpoints of every edge. -/
def opsA3 : List (HloOp τ sig (Elt F)) :=
  [ unary main_arg4 main_v111 ((extractStridedSlice S160000x1 ![0, 0] · slices_S160000x2_S160000x1_0_0) : (⟨S160000x2, .i32⟩ : BufTy).Contents (Elt F) → (⟨S160000x1, .i32⟩ : BufTy).Contents (Elt F)),
    reshape main_v111 main_v112 rfl shapeCasts_S160000x1_S160000,
    nullary main_c_11 (constantI S_ 32 0#32),
    unary main_c_11 main_v113 (broadcastInDim S160000 ![] bcast_S_S160000 : (⟨S_, .i32⟩ : BufTy).Contents (Elt F) → (⟨S160000, .i32⟩ : BufTy).Contents (Elt F)),
    binary main_v112 main_v113 main_v114 (cmpi .slt : (⟨S160000, .i32⟩ : BufTy).Contents (Elt F) → (⟨S160000, .i32⟩ : BufTy).Contents (Elt F) → (⟨S160000, .i1⟩ : BufTy).Contents (Elt F)),
    nullary main_c_12 (constantI S_ 32 50000#32),
    unary main_c_12 main_v115 (broadcastInDim S160000 ![] bcast_S_S160000 : (⟨S_, .i32⟩ : BufTy).Contents (Elt F) → (⟨S160000, .i32⟩ : BufTy).Contents (Elt F)),
    binary main_v112 main_v115 main_v116 (addi : (⟨S160000, .i32⟩ : BufTy).Contents (Elt F) → (⟨S160000, .i32⟩ : BufTy).Contents (Elt F) → (⟨S160000, .i32⟩ : BufTy).Contents (Elt F)),
    ternary main_v114 main_v116 main_v112 main_v117 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v117 main_v118 (broadcastInDim S160000x1 ![0] bcast_S160000_S160000x1_0 : (⟨S160000, .i32⟩ : BufTy).Contents (Elt F) → (⟨S160000x1, .i32⟩ : BufTy).Contents (Elt F)),
    binary main_arg0 main_v118 main_v119 ((fun x i => Host.gather gather_S50000x128_S160000x1_S160000x128_1_0_n_n_0_1_1128 x i) : (⟨S50000x128, .f32⟩ : BufTy).Contents (Elt F) → (⟨S160000x1, .i32⟩ : BufTy).Contents (Elt F) → (⟨S160000x128, .f32⟩ : BufTy).Contents (Elt F)),
    unary main_arg4 main_v120 ((extractStridedSlice S160000x1 ![0, 1] · slices_S160000x2_S160000x1_0_1) : (⟨S160000x2, .i32⟩ : BufTy).Contents (Elt F) → (⟨S160000x1, .i32⟩ : BufTy).Contents (Elt F)),
    reshape main_v120 main_v121 rfl shapeCasts_S160000x1_S160000,
    nullary main_c_13 (constantI S_ 32 0#32),
    unary main_c_13 main_v122 (broadcastInDim S160000 ![] bcast_S_S160000 : (⟨S_, .i32⟩ : BufTy).Contents (Elt F) → (⟨S160000, .i32⟩ : BufTy).Contents (Elt F)),
    binary main_v121 main_v122 main_v123 (cmpi .slt : (⟨S160000, .i32⟩ : BufTy).Contents (Elt F) → (⟨S160000, .i32⟩ : BufTy).Contents (Elt F) → (⟨S160000, .i1⟩ : BufTy).Contents (Elt F)),
    nullary main_c_14 (constantI S_ 32 50000#32),
    unary main_c_14 main_v124 (broadcastInDim S160000 ![] bcast_S_S160000 : (⟨S_, .i32⟩ : BufTy).Contents (Elt F) → (⟨S160000, .i32⟩ : BufTy).Contents (Elt F)),
    binary main_v121 main_v124 main_v125 (addi : (⟨S160000, .i32⟩ : BufTy).Contents (Elt F) → (⟨S160000, .i32⟩ : BufTy).Contents (Elt F) → (⟨S160000, .i32⟩ : BufTy).Contents (Elt F)),
    ternary main_v123 main_v125 main_v121 main_v126 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v126 main_v127 (broadcastInDim S160000x1 ![0] bcast_S160000_S160000x1_0 : (⟨S160000, .i32⟩ : BufTy).Contents (Elt F) → (⟨S160000x1, .i32⟩ : BufTy).Contents (Elt F)),
    binary main_arg0 main_v127 main_v128 ((fun x i => Host.gather gather_S50000x128_S160000x1_S160000x128_1_0_n_n_0_1_1128 x i) : (⟨S50000x128, .f32⟩ : BufTy).Contents (Elt F) → (⟨S160000x1, .i32⟩ : BufTy).Contents (Elt F) → (⟨S160000x128, .f32⟩ : BufTy).Contents (Elt F)) ]

theorem opsA3_sub : (opsA3 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

theorem opsA3_fresh : ∀ op ∈ (opsA3 : List (HloOp τ sig (Elt F))), op.fresh = ∅ := by
  intro _ h; (repeat (cases h with | head => rfl | tail _ h => ?_)); exact nomatch h

/-- The buffers they write: each operation its own result's. -/
abbrev wlA3 : List (Ref sig .tc) :=
  [main_v111, main_v112, main_c_11, main_v113, main_v114, main_c_12, main_v115, main_v116, main_v117, main_v118, main_v119, main_v120, main_v121, main_c_13, main_v122, main_v123, main_c_14, main_v124, main_v125, main_v126, main_v127, main_v128]

theorem opsA3_writes : (opsA3 : List (HloOp τ sig (Elt F))).Forall fun op =>
    op.writes ⊆ (wlA3.map (Proc.devRef (τ := τ) .tc)).toFinset := by
  simp only [opsA3, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepA3 (W : Valuation τ sig (Elt F)) {r : Ref sig .tc} (hr : r ∉ wlA3) :
    after opsA3 W (no_index (Proc.devRef .tc r)) = W (Proc.devRef .tc r) :=
  after_of_writes_sub opsA3 W opsA3_writes hr

/-- After them, the first endpoint's rows … -/
theorem A3_g0 (W : Valuation τ sig (Elt F)) :
    after opsA3 W (no_index (Proc.devRef .tc main_v119))
      = endpointRows (W (Proc.devRef .tc main_arg0)) (endpointCol (W (Proc.devRef .tc main_arg4)) ![0, 0] slices_S160000x2_S160000x1_0_0) := by
  unfold opsA3; after_results <;> rfl
/-- … and the second endpoint's. -/
theorem A3_g1 (W : Valuation τ sig (Elt F)) :
    after opsA3 W (no_index (Proc.devRef .tc main_v128))
      = endpointRows (W (Proc.devRef .tc main_arg0)) (endpointCol (W (Proc.devRef .tc main_arg4)) ![0, 1] slices_S160000x2_S160000x1_0_1) := by
  unfold opsA3; after_results <;> rfl

/-- Edge type 3: the rows side by side, the two perceptrons, the two endpoint columns. -/
def opsB3 : List (HloOp τ sig (Elt F)) :=
  [ binary main_v119 main_v128 main_v129 ((fun a b => concatenate S160000x256 1 [⟨S160000x128, a⟩, ⟨S160000x128, b⟩] concatenates_S160000x128_S160000x128_S160000x256_d1) : (⟨S160000x128, .f32⟩ : BufTy).Contents (Elt F) → (⟨S160000x128, .f32⟩ : BufTy).Contents (Elt F) → (⟨S160000x256, .f32⟩ : BufTy).Contents (Elt F)),
    unary main_arg5 main_v130 ((extractStridedSlice S1x1x256x128 ![3, 0, 0, 0] · slices_S4x2x256x128_S1x1x256x128_3_0_0_0) : (⟨S4x2x256x128, .f32⟩ : BufTy).Contents (Elt F) → (⟨S1x1x256x128, .f32⟩ : BufTy).Contents (Elt F)),
    reshape main_v130 main_v131 rfl shapeCasts_S1x1x256x128_S256x128,
    binary main_v129 main_v131 main_v132 ((fun l r => Host.dotGeneral dot_S160000x256_S256x128_S160000x128_1_0_0_1_n_n none l r) : (⟨S160000x256, .f32⟩ : BufTy).Contents (Elt F) → (⟨S256x128, .f32⟩ : BufTy).Contents (Elt F) → (⟨S160000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S160000x128, .f32⟩) main_call6_v0) (broadcastInDim S160000x128 ![] bcast_S_S160000x128),
    TRef.binary (TRef.of (T := ⟨S160000x128, .f32⟩) main_v132) (TRef.of (T := ⟨S160000x128, .f32⟩) main_call6_v0) (TRef.of (T := ⟨S160000x128, .f32⟩) main_v133) maximumf,
    unary main_arg6 main_v134 ((extractStridedSlice S1x1x128x128 ![3, 0, 0, 0] · slices_S4x2x128x128_S1x1x128x128_3_0_0_0) : (⟨S4x2x128x128, .f32⟩ : BufTy).Contents (Elt F) → (⟨S1x1x128x128, .f32⟩ : BufTy).Contents (Elt F)),
    reshape main_v134 main_v135 rfl shapeCasts_S1x1x128x128_S128x128,
    binary main_v133 main_v135 main_v136 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg4 main_v137 ((extractStridedSlice S160000x1 ![0, 0] · slices_S160000x2_S160000x1_0_0) : (⟨S160000x2, .i32⟩ : BufTy).Contents (Elt F) → (⟨S160000x1, .i32⟩ : BufTy).Contents (Elt F)),
    reshape main_v137 main_v138 rfl shapeCasts_S160000x1_S160000,
    unary main_arg5 main_v139 ((extractStridedSlice S1x1x256x128 ![3, 1, 0, 0] · slices_S4x2x256x128_S1x1x256x128_3_1_0_0) : (⟨S4x2x256x128, .f32⟩ : BufTy).Contents (Elt F) → (⟨S1x1x256x128, .f32⟩ : BufTy).Contents (Elt F)),
    reshape main_v139 main_v140 rfl shapeCasts_S1x1x256x128_S256x128,
    binary main_v129 main_v140 main_v141 ((fun l r => Host.dotGeneral dot_S160000x256_S256x128_S160000x128_1_0_0_1_n_n none l r) : (⟨S160000x256, .f32⟩ : BufTy).Contents (Elt F) → (⟨S256x128, .f32⟩ : BufTy).Contents (Elt F) → (⟨S160000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S160000x128, .f32⟩) main_call7_v0) (broadcastInDim S160000x128 ![] bcast_S_S160000x128),
    TRef.binary (TRef.of (T := ⟨S160000x128, .f32⟩) main_v141) (TRef.of (T := ⟨S160000x128, .f32⟩) main_call7_v0) (TRef.of (T := ⟨S160000x128, .f32⟩) main_v142) maximumf,
    unary main_arg6 main_v143 ((extractStridedSlice S1x1x128x128 ![3, 1, 0, 0] · slices_S4x2x128x128_S1x1x128x128_3_1_0_0) : (⟨S4x2x128x128, .f32⟩ : BufTy).Contents (Elt F) → (⟨S1x1x128x128, .f32⟩ : BufTy).Contents (Elt F)),
    reshape main_v143 main_v144 rfl shapeCasts_S1x1x128x128_S128x128,
    binary main_v142 main_v144 main_v145 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg4 main_v146 ((extractStridedSlice S160000x1 ![0, 1] · slices_S160000x2_S160000x1_0_1) : (⟨S160000x2, .i32⟩ : BufTy).Contents (Elt F) → (⟨S160000x1, .i32⟩ : BufTy).Contents (Elt F)),
    reshape main_v146 main_v147 rfl shapeCasts_S160000x1_S160000 ]

theorem opsB3_sub : (opsB3 : List (HloOp τ sig (Elt F))).Forall fun op => op.bufs ⊆ tcRefs τ sig :=
  ⟨binary_bufs_sub .., unary_bufs_sub .., reshape_bufs_sub .., binary_bufs_sub .., nullary_bufs_sub .., unary_bufs_sub .., binary_bufs_sub .., unary_bufs_sub .., reshape_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., binary_bufs_sub .., unary_bufs_sub .., reshape_bufs_sub ..⟩

theorem opsB3_fresh : ∀ op ∈ (opsB3 : List (HloOp τ sig (Elt F))), op.fresh = ∅ := by
  intro _ h; (repeat (cases h with | head => rfl | tail _ h => ?_)); exact nomatch h

/-- The buffers they write: each operation its own result's. -/
abbrev wlB3 : List (Ref sig .tc) :=
  [main_v129, main_v130, main_v131, main_v132, main_call6_cst, main_call6_v0, main_v133, main_v134, main_v135, main_v136, main_v137, main_v138, main_v139, main_v140, main_v141, main_call7_cst, main_call7_v0, main_v142, main_v143, main_v144, main_v145, main_v146, main_v147]

theorem opsB3_writes : (opsB3 : List (HloOp τ sig (Elt F))).Forall fun op =>
    op.writes ⊆ (wlB3.map (Proc.devRef (τ := τ) .tc)).toFinset := by
  simp only [opsB3, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepB3 (W : Valuation τ sig (Elt F)) {r : Ref sig .tc} (hr : r ∉ wlB3) :
    after opsB3 W (no_index (Proc.devRef .tc r)) = W (Proc.devRef .tc r) :=
  after_of_writes_sub opsB3 W opsB3_writes hr

/-- After them, the first endpoint's messages, from the rows found before … -/
theorem B3_y0 (W : Valuation τ sig (Elt F)) :
    after opsB3 W (no_index (Proc.devRef .tc main_v136))
      = edgeMlp (concatenate S160000x256 1 [⟨S160000x128, W (Proc.devRef .tc main_v119)⟩, ⟨S160000x128, W (Proc.devRef .tc main_v128)⟩] concatenates_S160000x128_S160000x128_S160000x256_d1)
        (W (Proc.devRef .tc main_arg5)) ![3, 0, 0, 0] slices_S4x2x256x128_S1x1x256x128_3_0_0_0
        (W (Proc.devRef .tc main_arg6)) ![3, 0, 0, 0] slices_S4x2x128x128_S1x1x128x128_3_0_0_0 := by
  unfold opsB3; after_results <;> rfl
/-- … the second endpoint's … -/
theorem B3_y1 (W : Valuation τ sig (Elt F)) :
    after opsB3 W (no_index (Proc.devRef .tc main_v145))
      = edgeMlp (concatenate S160000x256 1 [⟨S160000x128, W (Proc.devRef .tc main_v119)⟩, ⟨S160000x128, W (Proc.devRef .tc main_v128)⟩] concatenates_S160000x128_S160000x128_S160000x256_d1)
        (W (Proc.devRef .tc main_arg5)) ![3, 1, 0, 0] slices_S4x2x256x128_S1x1x256x128_3_1_0_0
        (W (Proc.devRef .tc main_arg6)) ![3, 1, 0, 0] slices_S4x2x128x128_S1x1x128x128_3_1_0_0 := by
  unfold opsB3; after_results <;> rfl
/-- … and the two endpoint columns. -/
theorem B3_i0 (W : Valuation τ sig (Elt F)) :
    after opsB3 W (no_index (Proc.devRef .tc main_v138)) = endpointCol (W (Proc.devRef .tc main_arg4)) ![0, 0] slices_S160000x2_S160000x1_0_0 := by
  unfold opsB3; after_results <;> rfl
theorem B3_i1 (W : Valuation τ sig (Elt F)) :
    after opsB3 W (no_index (Proc.devRef .tc main_v147)) = endpointCol (W (Proc.devRef .tc main_arg4)) ![0, 1] slices_S160000x2_S160000x1_0_1 := by
  unfold opsB3; after_results <;> rfl

/-! ## The close -/

/-- The close: the eight message tables and the eight index columns laid end to end, the scatter-add into zeros, the clamp at zero (9 operations). -/
def opsC : List (HloOp τ sig (Elt F)) :=
  [ nary ![main_v25, main_v34, main_v62, main_v71, main_v99, main_v108, main_v136, main_v145] main_v148 (fun u => concatenate S1280000x128 0 [⟨S160000x128, u 0⟩, ⟨S160000x128, u 1⟩, ⟨S160000x128, u 2⟩, ⟨S160000x128, u 3⟩, ⟨S160000x128, u 4⟩, ⟨S160000x128, u 5⟩, ⟨S160000x128, u 6⟩, ⟨S160000x128, u 7⟩] concatenates_S160000x128_S160000x128_S160000x128_S160000x128_S160000x128_S160000x128_S160000x128_S160000x128_S1280000x128_d0),
    nary ![main_v27, main_v36, main_v64, main_v73, main_v101, main_v110, main_v138, main_v147] main_v149 (fun u => concatenate S1280000 0 [⟨S160000, u 0⟩, ⟨S160000, u 1⟩, ⟨S160000, u 2⟩, ⟨S160000, u 3⟩, ⟨S160000, u 4⟩, ⟨S160000, u 5⟩, ⟨S160000, u 6⟩, ⟨S160000, u 7⟩] concatenates_S160000_S160000_S160000_S160000_S160000_S160000_S160000_S160000_S1280000_d0),
    nullary main_cst (constant S_ .f32 0x00000000#32),
    unary main_cst main_v150 (broadcastInDim S50000x128 ![] bcast_S_S50000x128 : (⟨S_, .f32⟩ : BufTy).Contents (Elt F) → (⟨S50000x128, .f32⟩ : BufTy).Contents (Elt F)),
    unary main_v149 main_v151 (broadcastInDim S1280000x1 ![0] bcast_S1280000_S1280000x1_0 : (⟨S1280000, .i32⟩ : BufTy).Contents (Elt F) → (⟨S1280000x1, .i32⟩ : BufTy).Contents (Elt F)),
    ternary main_v150 main_v151 main_v148 main_v152 ((fun x i u => Host.scatterAdd scatter_S50000x128_S1280000x1_S1280000x128_1_0_0_1 x i u) : (⟨S50000x128, .f32⟩ : BufTy).Contents (Elt F) → (⟨S1280000x1, .i32⟩ : BufTy).Contents (Elt F) → (⟨S1280000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v152) (TRef.of (T := ⟨S50000x128, .f32⟩) main_call8_v0) (TRef.of (T := ⟨S50000x128, .f32⟩) main_v153) maximumf ]

theorem opsC_sub : (opsC : List (HloOp τ sig (Elt F))).Forall fun op => op.bufs ⊆ tcRefs τ sig :=
  ⟨nary_bufs_sub .., nary_bufs_sub .., nullary_bufs_sub .., unary_bufs_sub .., unary_bufs_sub .., ternary_bufs_sub .., nullary_bufs_sub .., unary_bufs_sub .., binary_bufs_sub ..⟩

theorem opsC_fresh : ∀ op ∈ (opsC : List (HloOp τ sig (Elt F))), op.fresh = ∅ := by
  intro _ h; (repeat (cases h with | head => rfl | tail _ h => ?_)); exact nomatch h

/-- The buffers they write: each operation its own result's. -/
abbrev wlC : List (Ref sig .tc) :=
  [main_v148, main_v149, main_cst, main_v150, main_v151, main_v152, main_call8_cst, main_call8_v0, main_v153]

theorem opsC_writes : (opsC : List (HloOp τ sig (Elt F))).Forall fun op =>
    op.writes ⊆ (wlC.map (Proc.devRef (τ := τ) .tc)).toFinset := by
  simp only [opsC, TRef.nullary, TRef.unary, TRef.binary, List.Forall, nullary_writes, unary_writes, binary_writes, ternary_writes, reshape_writes, nary_writes,
    Finset.singleton_subset_iff, List.mem_toFinset]
  repeat' apply And.intro
  all_goals exact List.mem_map.mpr ⟨_, by decide, rfl⟩

/-- A buffer none of them writes keeps its contents. -/
theorem keepC (W : Valuation τ sig (Elt F)) {r : Ref sig .tc} (hr : r ∉ wlC) :
    after opsC W (no_index (Proc.devRef .tc r)) = W (Proc.devRef .tc r) :=
  after_of_writes_sub opsC W opsC_writes hr

/-- After them the result: the eight message tables scatter-added, each row into the node its endpoint column names, onto
    zeros, then clamped below at zero. -/
theorem C_out (W : Valuation τ sig (Elt F)) :
    after opsC W (no_index (Proc.devRef .tc main_v153))
      = maximumf (Host.scatterAdd scatter_S50000x128_S1280000x1_S1280000x128_1_0_0_1 (broadcastInDim S50000x128 ![] bcast_S_S50000x128 (constant S_ .f32 0x00000000#32))
          (broadcastInDim S1280000x1 ![0] bcast_S1280000_S1280000x1_0
            (concatenate S1280000 0 [⟨S160000, W (Proc.devRef .tc main_v27)⟩, ⟨S160000, W (Proc.devRef .tc main_v36)⟩, ⟨S160000, W (Proc.devRef .tc main_v64)⟩, ⟨S160000, W (Proc.devRef .tc main_v73)⟩, ⟨S160000, W (Proc.devRef .tc main_v101)⟩, ⟨S160000, W (Proc.devRef .tc main_v110)⟩, ⟨S160000, W (Proc.devRef .tc main_v138)⟩, ⟨S160000, W (Proc.devRef .tc main_v147)⟩] concatenates_S160000_S160000_S160000_S160000_S160000_S160000_S160000_S160000_S1280000_d0))
          (concatenate S1280000x128 0 [⟨S160000x128, W (Proc.devRef .tc main_v25)⟩, ⟨S160000x128, W (Proc.devRef .tc main_v34)⟩, ⟨S160000x128, W (Proc.devRef .tc main_v62)⟩, ⟨S160000x128, W (Proc.devRef .tc main_v71)⟩, ⟨S160000x128, W (Proc.devRef .tc main_v99)⟩, ⟨S160000x128, W (Proc.devRef .tc main_v108)⟩, ⟨S160000x128, W (Proc.devRef .tc main_v136)⟩, ⟨S160000x128, W (Proc.devRef .tc main_v145)⟩] concatenates_S160000x128_S160000x128_S160000x128_S160000x128_S160000x128_S160000x128_S160000x128_S160000x128_S1280000x128_d0))
        (broadcastInDim S50000x128 ![] bcast_S_S50000x128 (constant S_ .f32 0x00000000#32)) := by
  unfold opsC; after_results <;> rfl

/-! ## The whole program -/

/-- @main's 189 operations, in order. -/
def ops : List (HloOp τ sig (Elt F)) :=
  opsA0 ++ opsB0 ++ opsA1 ++ opsB1 ++ opsA2 ++ opsB2 ++ opsA3 ++ opsB3 ++ opsC

set_option maxRecDepth 8192 in
set_option maxHeartbeats 4000000 in
/-- @main is those operations run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  unfold ops
  simp only [List.forall_append]
  exact ⟨⟨⟨⟨⟨⟨⟨⟨opsA0_sub, opsB0_sub⟩, opsA1_sub⟩, opsB1_sub⟩, opsA2_sub⟩, opsB2_sub⟩, opsA3_sub⟩, opsB3_sub⟩, opsC_sub⟩

theorem ops_fresh : ∀ op ∈ (ops : List (HloOp τ sig (Elt F))), op.fresh = ∅ := by
  intro op h
  unfold ops at h
  simp only [List.mem_append] at h
  rcases h with (((((((h | h) | h) | h) | h) | h) | h) | h) | h
  exacts [opsA0_fresh op h, opsB0_fresh op h, opsA1_fresh op h, opsB1_fresh op h, opsA2_fresh op h, opsB2_fresh op h,
    opsA3_fresh op h, opsB3_fresh op h, opsC_fresh op h]

set_option maxRecDepth 8192 in
/-- `main_v153`'s composed term of the arguments (named: it is long). -/
def res_main_v153 (m : (ℓ : Loc nD τ sig) → Buf (Elt F) ℓ) (c : Dev nD) : Buf (Elt F) ((c.tc : Thread nD τ).loc main_v153) :=
  maximumf (Host.scatterAdd scatter_S50000x128_S1280000x1_S1280000x128_1_0_0_1 (broadcastInDim S50000x128 ![] bcast_S_S50000x128 (constant S_ .f32 0x00000000#32)) (broadcastInDim S1280000x1 ![0] bcast_S1280000_S1280000x1_0 (concatenate S1280000 0 [⟨S160000, (shapeCast _ (extractStridedSlice S160000x1 ![0, 0] (m ((c.tc : Thread nD τ).loc main_arg1)) slices_S160000x2_S160000x1_0_0) shapeCasts_S160000x1_S160000)⟩, ⟨S160000, (shapeCast _ (extractStridedSlice S160000x1 ![0, 1] (m ((c.tc : Thread nD τ).loc main_arg1)) slices_S160000x2_S160000x1_0_1) shapeCasts_S160000x1_S160000)⟩, ⟨S160000, (shapeCast _ (extractStridedSlice S160000x1 ![0, 0] (m ((c.tc : Thread nD τ).loc main_arg2)) slices_S160000x2_S160000x1_0_0) shapeCasts_S160000x1_S160000)⟩, ⟨S160000, (shapeCast _ (extractStridedSlice S160000x1 ![0, 1] (m ((c.tc : Thread nD τ).loc main_arg2)) slices_S160000x2_S160000x1_0_1) shapeCasts_S160000x1_S160000)⟩, ⟨S160000, (shapeCast _ (extractStridedSlice S160000x1 ![0, 0] (m ((c.tc : Thread nD τ).loc main_arg3)) slices_S160000x2_S160000x1_0_0) shapeCasts_S160000x1_S160000)⟩, ⟨S160000, (shapeCast _ (extractStridedSlice S160000x1 ![0, 1] (m ((c.tc : Thread nD τ).loc main_arg3)) slices_S160000x2_S160000x1_0_1) shapeCasts_S160000x1_S160000)⟩, ⟨S160000, (shapeCast _ (extractStridedSlice S160000x1 ![0, 0] (m ((c.tc : Thread nD τ).loc main_arg4)) slices_S160000x2_S160000x1_0_0) shapeCasts_S160000x1_S160000)⟩, ⟨S160000, (shapeCast _ (extractStridedSlice S160000x1 ![0, 1] (m ((c.tc : Thread nD τ).loc main_arg4)) slices_S160000x2_S160000x1_0_1) shapeCasts_S160000x1_S160000)⟩] concatenates_S160000_S160000_S160000_S160000_S160000_S160000_S160000_S160000_S1280000_d0)) (concatenate S1280000x128 0 [⟨S160000x128, (Host.dotGeneral dot_S160000x128_S128x128_S160000x128_1_0_0_1_n_n none (maximumf (Host.dotGeneral dot_S160000x256_S256x128_S160000x128_1_0_0_1_n_n none (concatenate S160000x256 1 [⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 0] (m ((c.tc : Thread nD τ).loc main_arg1)) slices_S160000x2_S160000x1_0_0) shapeCasts_S160000x1_S160000) (broadcastInDim S160000 ![] bcast_S_S160000 (constantI S_ 32 0#32))) (addi (shapeCast _ (extractStridedSlice S160000x1 ![0, 0] (m ((c.tc : Thread nD τ).loc main_arg1)) slices_S160000x2_S160000x1_0_0) shapeCasts_S160000x1_S160000) (broadcastInDim S160000 ![] bcast_S_S160000 (constantI S_ 32 50000#32))) (shapeCast _ (extractStridedSlice S160000x1 ![0, 0] (m ((c.tc : Thread nD τ).loc main_arg1)) slices_S160000x2_S160000x1_0_0) shapeCasts_S160000x1_S160000))))⟩, ⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 1] (m ((c.tc : Thread nD τ).loc main_arg1)) slices_S160000x2_S160000x1_0_1) shapeCasts_S160000x1_S160000) (broadcastInDim S160000 ![] bcast_S_S160000 (constantI S_ 32 0#32))) (addi (shapeCast _ (extractStridedSlice S160000x1 ![0, 1] (m ((c.tc : Thread nD τ).loc main_arg1)) slices_S160000x2_S160000x1_0_1) shapeCasts_S160000x1_S160000) (broadcastInDim S160000 ![] bcast_S_S160000 (constantI S_ 32 50000#32))) (shapeCast _ (extractStridedSlice S160000x1 ![0, 1] (m ((c.tc : Thread nD τ).loc main_arg1)) slices_S160000x2_S160000x1_0_1) shapeCasts_S160000x1_S160000))))⟩] concatenates_S160000x128_S160000x128_S160000x256_d1) (shapeCast _ (extractStridedSlice S1x1x256x128 ![0, 0, 0, 0] (m ((c.tc : Thread nD τ).loc main_arg5)) slices_S4x2x256x128_S1x1x256x128_0_0_0_0) shapeCasts_S1x1x256x128_S256x128)) (broadcastInDim S160000x128 ![] bcast_S_S160000x128 (constant S_ .f32 0x00000000#32))) (shapeCast _ (extractStridedSlice S1x1x128x128 ![0, 0, 0, 0] (m ((c.tc : Thread nD τ).loc main_arg6)) slices_S4x2x128x128_S1x1x128x128_0_0_0_0) shapeCasts_S1x1x128x128_S128x128))⟩, ⟨S160000x128, (Host.dotGeneral dot_S160000x128_S128x128_S160000x128_1_0_0_1_n_n none (maximumf (Host.dotGeneral dot_S160000x256_S256x128_S160000x128_1_0_0_1_n_n none (concatenate S160000x256 1 [⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 0] (m ((c.tc : Thread nD τ).loc main_arg1)) slices_S160000x2_S160000x1_0_0) shapeCasts_S160000x1_S160000) (broadcastInDim S160000 ![] bcast_S_S160000 (constantI S_ 32 0#32))) (addi (shapeCast _ (extractStridedSlice S160000x1 ![0, 0] (m ((c.tc : Thread nD τ).loc main_arg1)) slices_S160000x2_S160000x1_0_0) shapeCasts_S160000x1_S160000) (broadcastInDim S160000 ![] bcast_S_S160000 (constantI S_ 32 50000#32))) (shapeCast _ (extractStridedSlice S160000x1 ![0, 0] (m ((c.tc : Thread nD τ).loc main_arg1)) slices_S160000x2_S160000x1_0_0) shapeCasts_S160000x1_S160000))))⟩, ⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 1] (m ((c.tc : Thread nD τ).loc main_arg1)) slices_S160000x2_S160000x1_0_1) shapeCasts_S160000x1_S160000) (broadcastInDim S160000 ![] bcast_S_S160000 (constantI S_ 32 0#32))) (addi (shapeCast _ (extractStridedSlice S160000x1 ![0, 1] (m ((c.tc : Thread nD τ).loc main_arg1)) slices_S160000x2_S160000x1_0_1) shapeCasts_S160000x1_S160000) (broadcastInDim S160000 ![] bcast_S_S160000 (constantI S_ 32 50000#32))) (shapeCast _ (extractStridedSlice S160000x1 ![0, 1] (m ((c.tc : Thread nD τ).loc main_arg1)) slices_S160000x2_S160000x1_0_1) shapeCasts_S160000x1_S160000))))⟩] concatenates_S160000x128_S160000x128_S160000x256_d1) (shapeCast _ (extractStridedSlice S1x1x256x128 ![0, 1, 0, 0] (m ((c.tc : Thread nD τ).loc main_arg5)) slices_S4x2x256x128_S1x1x256x128_0_1_0_0) shapeCasts_S1x1x256x128_S256x128)) (broadcastInDim S160000x128 ![] bcast_S_S160000x128 (constant S_ .f32 0x00000000#32))) (shapeCast _ (extractStridedSlice S1x1x128x128 ![0, 1, 0, 0] (m ((c.tc : Thread nD τ).loc main_arg6)) slices_S4x2x128x128_S1x1x128x128_0_1_0_0) shapeCasts_S1x1x128x128_S128x128))⟩, ⟨S160000x128, (Host.dotGeneral dot_S160000x128_S128x128_S160000x128_1_0_0_1_n_n none (maximumf (Host.dotGeneral dot_S160000x256_S256x128_S160000x128_1_0_0_1_n_n none (concatenate S160000x256 1 [⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 0] (m ((c.tc : Thread nD τ).loc main_arg2)) slices_S160000x2_S160000x1_0_0) shapeCasts_S160000x1_S160000) (broadcastInDim S160000 ![] bcast_S_S160000 (constantI S_ 32 0#32))) (addi (shapeCast _ (extractStridedSlice S160000x1 ![0, 0] (m ((c.tc : Thread nD τ).loc main_arg2)) slices_S160000x2_S160000x1_0_0) shapeCasts_S160000x1_S160000) (broadcastInDim S160000 ![] bcast_S_S160000 (constantI S_ 32 50000#32))) (shapeCast _ (extractStridedSlice S160000x1 ![0, 0] (m ((c.tc : Thread nD τ).loc main_arg2)) slices_S160000x2_S160000x1_0_0) shapeCasts_S160000x1_S160000))))⟩, ⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 1] (m ((c.tc : Thread nD τ).loc main_arg2)) slices_S160000x2_S160000x1_0_1) shapeCasts_S160000x1_S160000) (broadcastInDim S160000 ![] bcast_S_S160000 (constantI S_ 32 0#32))) (addi (shapeCast _ (extractStridedSlice S160000x1 ![0, 1] (m ((c.tc : Thread nD τ).loc main_arg2)) slices_S160000x2_S160000x1_0_1) shapeCasts_S160000x1_S160000) (broadcastInDim S160000 ![] bcast_S_S160000 (constantI S_ 32 50000#32))) (shapeCast _ (extractStridedSlice S160000x1 ![0, 1] (m ((c.tc : Thread nD τ).loc main_arg2)) slices_S160000x2_S160000x1_0_1) shapeCasts_S160000x1_S160000))))⟩] concatenates_S160000x128_S160000x128_S160000x256_d1) (shapeCast _ (extractStridedSlice S1x1x256x128 ![1, 0, 0, 0] (m ((c.tc : Thread nD τ).loc main_arg5)) slices_S4x2x256x128_S1x1x256x128_1_0_0_0) shapeCasts_S1x1x256x128_S256x128)) (broadcastInDim S160000x128 ![] bcast_S_S160000x128 (constant S_ .f32 0x00000000#32))) (shapeCast _ (extractStridedSlice S1x1x128x128 ![1, 0, 0, 0] (m ((c.tc : Thread nD τ).loc main_arg6)) slices_S4x2x128x128_S1x1x128x128_1_0_0_0) shapeCasts_S1x1x128x128_S128x128))⟩, ⟨S160000x128, (Host.dotGeneral dot_S160000x128_S128x128_S160000x128_1_0_0_1_n_n none (maximumf (Host.dotGeneral dot_S160000x256_S256x128_S160000x128_1_0_0_1_n_n none (concatenate S160000x256 1 [⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 0] (m ((c.tc : Thread nD τ).loc main_arg2)) slices_S160000x2_S160000x1_0_0) shapeCasts_S160000x1_S160000) (broadcastInDim S160000 ![] bcast_S_S160000 (constantI S_ 32 0#32))) (addi (shapeCast _ (extractStridedSlice S160000x1 ![0, 0] (m ((c.tc : Thread nD τ).loc main_arg2)) slices_S160000x2_S160000x1_0_0) shapeCasts_S160000x1_S160000) (broadcastInDim S160000 ![] bcast_S_S160000 (constantI S_ 32 50000#32))) (shapeCast _ (extractStridedSlice S160000x1 ![0, 0] (m ((c.tc : Thread nD τ).loc main_arg2)) slices_S160000x2_S160000x1_0_0) shapeCasts_S160000x1_S160000))))⟩, ⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 1] (m ((c.tc : Thread nD τ).loc main_arg2)) slices_S160000x2_S160000x1_0_1) shapeCasts_S160000x1_S160000) (broadcastInDim S160000 ![] bcast_S_S160000 (constantI S_ 32 0#32))) (addi (shapeCast _ (extractStridedSlice S160000x1 ![0, 1] (m ((c.tc : Thread nD τ).loc main_arg2)) slices_S160000x2_S160000x1_0_1) shapeCasts_S160000x1_S160000) (broadcastInDim S160000 ![] bcast_S_S160000 (constantI S_ 32 50000#32))) (shapeCast _ (extractStridedSlice S160000x1 ![0, 1] (m ((c.tc : Thread nD τ).loc main_arg2)) slices_S160000x2_S160000x1_0_1) shapeCasts_S160000x1_S160000))))⟩] concatenates_S160000x128_S160000x128_S160000x256_d1) (shapeCast _ (extractStridedSlice S1x1x256x128 ![1, 1, 0, 0] (m ((c.tc : Thread nD τ).loc main_arg5)) slices_S4x2x256x128_S1x1x256x128_1_1_0_0) shapeCasts_S1x1x256x128_S256x128)) (broadcastInDim S160000x128 ![] bcast_S_S160000x128 (constant S_ .f32 0x00000000#32))) (shapeCast _ (extractStridedSlice S1x1x128x128 ![1, 1, 0, 0] (m ((c.tc : Thread nD τ).loc main_arg6)) slices_S4x2x128x128_S1x1x128x128_1_1_0_0) shapeCasts_S1x1x128x128_S128x128))⟩, ⟨S160000x128, (Host.dotGeneral dot_S160000x128_S128x128_S160000x128_1_0_0_1_n_n none (maximumf (Host.dotGeneral dot_S160000x256_S256x128_S160000x128_1_0_0_1_n_n none (concatenate S160000x256 1 [⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 0] (m ((c.tc : Thread nD τ).loc main_arg3)) slices_S160000x2_S160000x1_0_0) shapeCasts_S160000x1_S160000) (broadcastInDim S160000 ![] bcast_S_S160000 (constantI S_ 32 0#32))) (addi (shapeCast _ (extractStridedSlice S160000x1 ![0, 0] (m ((c.tc : Thread nD τ).loc main_arg3)) slices_S160000x2_S160000x1_0_0) shapeCasts_S160000x1_S160000) (broadcastInDim S160000 ![] bcast_S_S160000 (constantI S_ 32 50000#32))) (shapeCast _ (extractStridedSlice S160000x1 ![0, 0] (m ((c.tc : Thread nD τ).loc main_arg3)) slices_S160000x2_S160000x1_0_0) shapeCasts_S160000x1_S160000))))⟩, ⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 1] (m ((c.tc : Thread nD τ).loc main_arg3)) slices_S160000x2_S160000x1_0_1) shapeCasts_S160000x1_S160000) (broadcastInDim S160000 ![] bcast_S_S160000 (constantI S_ 32 0#32))) (addi (shapeCast _ (extractStridedSlice S160000x1 ![0, 1] (m ((c.tc : Thread nD τ).loc main_arg3)) slices_S160000x2_S160000x1_0_1) shapeCasts_S160000x1_S160000) (broadcastInDim S160000 ![] bcast_S_S160000 (constantI S_ 32 50000#32))) (shapeCast _ (extractStridedSlice S160000x1 ![0, 1] (m ((c.tc : Thread nD τ).loc main_arg3)) slices_S160000x2_S160000x1_0_1) shapeCasts_S160000x1_S160000))))⟩] concatenates_S160000x128_S160000x128_S160000x256_d1) (shapeCast _ (extractStridedSlice S1x1x256x128 ![2, 0, 0, 0] (m ((c.tc : Thread nD τ).loc main_arg5)) slices_S4x2x256x128_S1x1x256x128_2_0_0_0) shapeCasts_S1x1x256x128_S256x128)) (broadcastInDim S160000x128 ![] bcast_S_S160000x128 (constant S_ .f32 0x00000000#32))) (shapeCast _ (extractStridedSlice S1x1x128x128 ![2, 0, 0, 0] (m ((c.tc : Thread nD τ).loc main_arg6)) slices_S4x2x128x128_S1x1x128x128_2_0_0_0) shapeCasts_S1x1x128x128_S128x128))⟩, ⟨S160000x128, (Host.dotGeneral dot_S160000x128_S128x128_S160000x128_1_0_0_1_n_n none (maximumf (Host.dotGeneral dot_S160000x256_S256x128_S160000x128_1_0_0_1_n_n none (concatenate S160000x256 1 [⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 0] (m ((c.tc : Thread nD τ).loc main_arg3)) slices_S160000x2_S160000x1_0_0) shapeCasts_S160000x1_S160000) (broadcastInDim S160000 ![] bcast_S_S160000 (constantI S_ 32 0#32))) (addi (shapeCast _ (extractStridedSlice S160000x1 ![0, 0] (m ((c.tc : Thread nD τ).loc main_arg3)) slices_S160000x2_S160000x1_0_0) shapeCasts_S160000x1_S160000) (broadcastInDim S160000 ![] bcast_S_S160000 (constantI S_ 32 50000#32))) (shapeCast _ (extractStridedSlice S160000x1 ![0, 0] (m ((c.tc : Thread nD τ).loc main_arg3)) slices_S160000x2_S160000x1_0_0) shapeCasts_S160000x1_S160000))))⟩, ⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 1] (m ((c.tc : Thread nD τ).loc main_arg3)) slices_S160000x2_S160000x1_0_1) shapeCasts_S160000x1_S160000) (broadcastInDim S160000 ![] bcast_S_S160000 (constantI S_ 32 0#32))) (addi (shapeCast _ (extractStridedSlice S160000x1 ![0, 1] (m ((c.tc : Thread nD τ).loc main_arg3)) slices_S160000x2_S160000x1_0_1) shapeCasts_S160000x1_S160000) (broadcastInDim S160000 ![] bcast_S_S160000 (constantI S_ 32 50000#32))) (shapeCast _ (extractStridedSlice S160000x1 ![0, 1] (m ((c.tc : Thread nD τ).loc main_arg3)) slices_S160000x2_S160000x1_0_1) shapeCasts_S160000x1_S160000))))⟩] concatenates_S160000x128_S160000x128_S160000x256_d1) (shapeCast _ (extractStridedSlice S1x1x256x128 ![2, 1, 0, 0] (m ((c.tc : Thread nD τ).loc main_arg5)) slices_S4x2x256x128_S1x1x256x128_2_1_0_0) shapeCasts_S1x1x256x128_S256x128)) (broadcastInDim S160000x128 ![] bcast_S_S160000x128 (constant S_ .f32 0x00000000#32))) (shapeCast _ (extractStridedSlice S1x1x128x128 ![2, 1, 0, 0] (m ((c.tc : Thread nD τ).loc main_arg6)) slices_S4x2x128x128_S1x1x128x128_2_1_0_0) shapeCasts_S1x1x128x128_S128x128))⟩, ⟨S160000x128, (Host.dotGeneral dot_S160000x128_S128x128_S160000x128_1_0_0_1_n_n none (maximumf (Host.dotGeneral dot_S160000x256_S256x128_S160000x128_1_0_0_1_n_n none (concatenate S160000x256 1 [⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 0] (m ((c.tc : Thread nD τ).loc main_arg4)) slices_S160000x2_S160000x1_0_0) shapeCasts_S160000x1_S160000) (broadcastInDim S160000 ![] bcast_S_S160000 (constantI S_ 32 0#32))) (addi (shapeCast _ (extractStridedSlice S160000x1 ![0, 0] (m ((c.tc : Thread nD τ).loc main_arg4)) slices_S160000x2_S160000x1_0_0) shapeCasts_S160000x1_S160000) (broadcastInDim S160000 ![] bcast_S_S160000 (constantI S_ 32 50000#32))) (shapeCast _ (extractStridedSlice S160000x1 ![0, 0] (m ((c.tc : Thread nD τ).loc main_arg4)) slices_S160000x2_S160000x1_0_0) shapeCasts_S160000x1_S160000))))⟩, ⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 1] (m ((c.tc : Thread nD τ).loc main_arg4)) slices_S160000x2_S160000x1_0_1) shapeCasts_S160000x1_S160000) (broadcastInDim S160000 ![] bcast_S_S160000 (constantI S_ 32 0#32))) (addi (shapeCast _ (extractStridedSlice S160000x1 ![0, 1] (m ((c.tc : Thread nD τ).loc main_arg4)) slices_S160000x2_S160000x1_0_1) shapeCasts_S160000x1_S160000) (broadcastInDim S160000 ![] bcast_S_S160000 (constantI S_ 32 50000#32))) (shapeCast _ (extractStridedSlice S160000x1 ![0, 1] (m ((c.tc : Thread nD τ).loc main_arg4)) slices_S160000x2_S160000x1_0_1) shapeCasts_S160000x1_S160000))))⟩] concatenates_S160000x128_S160000x128_S160000x256_d1) (shapeCast _ (extractStridedSlice S1x1x256x128 ![3, 0, 0, 0] (m ((c.tc : Thread nD τ).loc main_arg5)) slices_S4x2x256x128_S1x1x256x128_3_0_0_0) shapeCasts_S1x1x256x128_S256x128)) (broadcastInDim S160000x128 ![] bcast_S_S160000x128 (constant S_ .f32 0x00000000#32))) (shapeCast _ (extractStridedSlice S1x1x128x128 ![3, 0, 0, 0] (m ((c.tc : Thread nD τ).loc main_arg6)) slices_S4x2x128x128_S1x1x128x128_3_0_0_0) shapeCasts_S1x1x128x128_S128x128))⟩, ⟨S160000x128, (Host.dotGeneral dot_S160000x128_S128x128_S160000x128_1_0_0_1_n_n none (maximumf (Host.dotGeneral dot_S160000x256_S256x128_S160000x128_1_0_0_1_n_n none (concatenate S160000x256 1 [⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 0] (m ((c.tc : Thread nD τ).loc main_arg4)) slices_S160000x2_S160000x1_0_0) shapeCasts_S160000x1_S160000) (broadcastInDim S160000 ![] bcast_S_S160000 (constantI S_ 32 0#32))) (addi (shapeCast _ (extractStridedSlice S160000x1 ![0, 0] (m ((c.tc : Thread nD τ).loc main_arg4)) slices_S160000x2_S160000x1_0_0) shapeCasts_S160000x1_S160000) (broadcastInDim S160000 ![] bcast_S_S160000 (constantI S_ 32 50000#32))) (shapeCast _ (extractStridedSlice S160000x1 ![0, 0] (m ((c.tc : Thread nD τ).loc main_arg4)) slices_S160000x2_S160000x1_0_0) shapeCasts_S160000x1_S160000))))⟩, ⟨S160000x128, (Host.gather gather_S50000x128_S160000x1_S160000x128_1_0_n_n_0_1_1128 (m ((c.tc : Thread nD τ).loc main_arg0)) (broadcastInDim S160000x1 ![0] bcast_S160000_S160000x1_0 (select (cmpi .slt (shapeCast _ (extractStridedSlice S160000x1 ![0, 1] (m ((c.tc : Thread nD τ).loc main_arg4)) slices_S160000x2_S160000x1_0_1) shapeCasts_S160000x1_S160000) (broadcastInDim S160000 ![] bcast_S_S160000 (constantI S_ 32 0#32))) (addi (shapeCast _ (extractStridedSlice S160000x1 ![0, 1] (m ((c.tc : Thread nD τ).loc main_arg4)) slices_S160000x2_S160000x1_0_1) shapeCasts_S160000x1_S160000) (broadcastInDim S160000 ![] bcast_S_S160000 (constantI S_ 32 50000#32))) (shapeCast _ (extractStridedSlice S160000x1 ![0, 1] (m ((c.tc : Thread nD τ).loc main_arg4)) slices_S160000x2_S160000x1_0_1) shapeCasts_S160000x1_S160000))))⟩] concatenates_S160000x128_S160000x128_S160000x256_d1) (shapeCast _ (extractStridedSlice S1x1x256x128 ![3, 1, 0, 0] (m ((c.tc : Thread nD τ).loc main_arg5)) slices_S4x2x256x128_S1x1x256x128_3_1_0_0) shapeCasts_S1x1x256x128_S256x128)) (broadcastInDim S160000x128 ![] bcast_S_S160000x128 (constant S_ .f32 0x00000000#32))) (shapeCast _ (extractStridedSlice S1x1x128x128 ![3, 1, 0, 0] (m ((c.tc : Thread nD τ).loc main_arg6)) slices_S4x2x128x128_S1x1x128x128_3_1_0_0) shapeCasts_S1x1x128x128_S128x128))⟩] concatenates_S160000x128_S160000x128_S160000x128_S160000x128_S160000x128_S160000x128_S160000x128_S160000x128_S1280000x128_d0)) (broadcastInDim S50000x128 ![] bcast_S_S50000x128 (constant S_ .f32 0x00000000#32))

/-- `res_main_v153` by its position among the values @main returns. -/
abbrev res_out0 (m : (ℓ : Loc nD τ sig) → Buf (Elt F) ℓ) (c : Dev nD) : Buf (Elt F) ((c.tc : Thread nD τ).loc main_v153) := res_main_v153 m c

set_option maxRecDepth 8192 in
set_option maxHeartbeats 4000000 in
/-- The result buffer after all the operations is that term: read back run by run, last run first. -/
theorem out_eq (m : (ℓ : Loc nD τ sig) → Buf (Elt F) ℓ) (c : Dev nD) :
    after (ops (F := F)) (launchContents m c) (Proc.devRef .tc main_v153) = res_main_v153 m c := by
  unfold ops
  simp only [after_app]
  rw [C_out]
  simp (disch := decide) only [keepA0, keepB0, keepA1, keepB1, keepA2, keepB2, keepA3, keepB3, keepC,
    A0_g0, A0_g1, B0_y0, B0_y1, B0_i0, B0_i1, A1_g0, A1_g1, B1_y0, B1_y1, B1_i0, B1_i1, A2_g0, A2_g1, B2_y0, B2_y1, B2_i0, B2_i1, A3_g0, A3_g1, B3_y0, B3_y1, B3_i0, B3_i1]
  unfold res_main_v153 endpointCol endpointRows edgeMlp
  rfl

/-- A buffer no operation writes ends as launched. -/
theorem kept (m : (ℓ : Loc nD τ sig) → Buf (Elt F) ℓ) (c : Dev nD) {r : Ref sig .tc}
    (hA0 : r ∉ wlA0) (hB0 : r ∉ wlB0) (hA1 : r ∉ wlA1) (hB1 : r ∉ wlB1) (hA2 : r ∉ wlA2) (hB2 : r ∉ wlB2) (hA3 : r ∉ wlA3) (hB3 : r ∉ wlB3) (hC : r ∉ wlC) :
    after (ops (F := F)) (launchContents m c) (Proc.devRef .tc r) = m ((c.tc : Thread nD τ).loc r) := by
  unfold ops
  simp only [after_app]
  rw [keepC _ hC, keepB3 _ hB3, keepA3 _ hA3, keepB2 _ hB2, keepA2 _ hA2, keepB1 _ hB1, keepA1 _ hA1, keepB0 _ hB0, keepA0 _ hA0]

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v153) = res_main_v153 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v153).trans (out_eq m c),
      (h c main_arg0).trans (kept m c (by decide) (by decide) (by decide) (by decide) (by decide) (by decide) (by decide) (by decide) (by decide)),
      (h c main_arg1).trans (kept m c (by decide) (by decide) (by decide) (by decide) (by decide) (by decide) (by decide) (by decide) (by decide)),
      (h c main_arg2).trans (kept m c (by decide) (by decide) (by decide) (by decide) (by decide) (by decide) (by decide) (by decide) (by decide)),
      (h c main_arg3).trans (kept m c (by decide) (by decide) (by decide) (by decide) (by decide) (by decide) (by decide) (by decide) (by decide)),
      (h c main_arg4).trans (kept m c (by decide) (by decide) (by decide) (by decide) (by decide) (by decide) (by decide) (by decide) (by decide)),
      (h c main_arg5).trans (kept m c (by decide) (by decide) (by decide) (by decide) (by decide) (by decide) (by decide) (by decide) (by decide)),
      (h c main_arg6).trans (kept m c (by decide) (by decide) (by decide) (by decide) (by decide) (by decide) (by decide) (by decide) (by decide))⟩)
    (run_seq scopedRefs_eq scopedSems_eq defs main (fun _ => ops) main_eq (fun _ => ops_sub) m ρ (hfresh := fun _ => ops_fresh))

end Cert.ReferenceIdeal.ValueH

end
-- ==== Proof.RefValue.lean ====
/-
  The idealized reference program's result, read at an index.

  The reference computes, for every edge type l and endpoint ep, the 160000 × 128 table of messages
  `∑ k, max (∑ d, raw e d · W1[l, ep, d, k]) 0 · W2[l, ep, k, j]` (two host matrix products around a clamp at zero),
  stacks the eight tables edge type first (row `(2 l + ep) · 160000 + e`), stacks the eight index columns the same
  way, scatter-adds the rows into a zero array and clamps the result below at zero.
-/
import proofs.«431189_j85143431676502_1_alg».proof.Proof.Gen.ReferenceIdeal
import proofs.«431189_j85143431676502_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.ReferenceIdeal.RV

open Cert.ReferenceIdeal Cert.ReferenceIdeal.Gen
open Idealize.ShloMosaic Idealize.ShloMosaic.TcCoe Idealize.ShloMosaic.ValueIdx Idealize.SL.Sem
open scoped BigOperators

variable {F : FTy → Type} [FloatOps F]

/-! ## The gathered endpoint features of one edge type -/

/-- The node index column `ep` of an adjacency list names, as the gather reads it: a negative index counts from the end. -/
def nodeIdx0 (adj : IVec S160000x2 32) : IVec S160000x1 32 :=
  let a : IVec S160000 32 := shapeCast S160000 (extractStridedSlice S160000x1 ![0, 0] adj slices_S160000x2_S160000x1_0_0) shapeCasts_S160000x1_S160000
  broadcastInDim S160000x1 ![0] bcast_S160000_S160000x1_0
    (select (cmpi .slt a (broadcastInDim S160000 ![] bcast_S_S160000 (constantI S_ 32 0#32)))
      (addi a (broadcastInDim S160000 ![] bcast_S_S160000 (constantI S_ 32 50000#32))) a)
def nodeIdx1 (adj : IVec S160000x2 32) : IVec S160000x1 32 :=
  let a : IVec S160000 32 := shapeCast S160000 (extractStridedSlice S160000x1 ![0, 1] adj slices_S160000x2_S160000x1_0_1) shapeCasts_S160000x1_S160000
  broadcastInDim S160000x1 ![0] bcast_S160000_S160000x1_0
    (select (cmpi .slt a (broadcastInDim S160000 ![] bcast_S_S160000 (constantI S_ 32 0#32)))
      (addi a (broadcastInDim S160000 ![] bcast_S_S160000 (constantI S_ 32 50000#32))) a)

/-- Edge `e`'s 256 gathered features: the source node's 128 then the destination node's 128. -/
def rawOf (x : FVec F S50000x128 .f32) (adj : IVec S160000x2 32) : FVec F S160000x256 .f32 :=
  concatenate S160000x256 1
    [⟨S160000x128, Host.gather gather_S50000x128_S160000x1_S160000x128_1_0_n_n_0_1_1128 x (nodeIdx0 adj)⟩,
     ⟨S160000x128, Host.gather gather_S50000x128_S160000x1_S160000x128_1_0_n_n_0_1_1128 x (nodeIdx1 adj)⟩]
    concatenates_S160000x128_S160000x128_S160000x256_d1

variable (m : (ℓ : Loc nD τ sig) → Buf (Elt Ideal) ℓ)

/-- The four adjacency lists by edge type. -/
def adjOf (c : Dev nD) (l : Fin 4) : IVec S160000x2 32 :=
  match l with
  | ⟨0, _⟩ => m ((c : Thread nD τ).loc main_arg1)
  | ⟨1, _⟩ => m ((c : Thread nD τ).loc main_arg2)
  | ⟨2, _⟩ => m ((c : Thread nD τ).loc main_arg3)
  | ⟨3, _⟩ => m ((c : Thread nD τ).loc main_arg4)

/-! ## The pieces of the scatter's two operands -/

/-- Column 0 of an adjacency list as a vector: the source node numbers as given. -/
def col0 (adj : IVec S160000x2 32) : IVec S160000 32 :=
  shapeCast S160000 (extractStridedSlice S160000x1 ![0, 0] adj slices_S160000x2_S160000x1_0_0) shapeCasts_S160000x1_S160000
/-- Column 1 of an adjacency list as a vector: the destination node numbers as given. -/
def col1 (adj : IVec S160000x2 32) : IVec S160000 32 :=
  shapeCast S160000 (extractStridedSlice S160000x1 ![0, 1] adj slices_S160000x2_S160000x1_0_1) shapeCasts_S160000x1_S160000

/-- The first-layer matrix at leading offsets `o`: the 1 × 1 × 256 × 128 slice of the weights read as 256 × 128. -/
def w1At (o : Fin 4 → Nat) (W : FVec F S4x2x256x128 .f32) (h : S4x2x256x128.Slices o S1x1x256x128) : FVec F S256x128 .f32 :=
  shapeCast S256x128 (extractStridedSlice S1x1x256x128 o W h) shapeCasts_S1x1x256x128_S256x128
/-- The second-layer matrix at leading offsets `o`: the 1 × 1 × 128 × 128 slice of the weights read as 128 × 128. -/
def w2At (o : Fin 4 → Nat) (W : FVec F S4x2x128x128 .f32) (h : S4x2x128x128.Slices o S1x1x128x128) : FVec F S128x128 .f32 :=
  shapeCast S128x128 (extractStridedSlice S1x1x128x128 o W h) shapeCasts_S1x1x128x128_S128x128

/-- One table of messages: the features times the first layer, clamped below at zero, times the second layer. -/
def msgTab (raw : FVec F S160000x256 .f32) (w1 : FVec F S256x128 .f32) (w2 : FVec F S128x128 .f32) : FVec F S160000x128 .f32 :=
  Host.dotGeneral dot_S160000x128_S128x128_S160000x128_1_0_0_1_n_n none
    (maximumf (Host.dotGeneral dot_S160000x256_S256x128_S160000x128_1_0_0_1_n_n none raw w1)
      (broadcastInDim S160000x128 ![] bcast_S_S160000x128 (constant S_ .f32 0x00000000#32))) w2

/-! ## The scatter's two operands -/

/-- The scatter indices of the reference: the eight index columns stacked edge type first. -/
def idxR (c : Dev nD) : IVec S1280000x1 32 :=
  broadcastInDim S1280000x1 ![0] bcast_S1280000_S1280000x1_0
    (concatenate S1280000 0
    [⟨S160000, col0 (m ((c : Thread nD τ).loc main_arg1))⟩,
     ⟨S160000, col1 (m ((c : Thread nD τ).loc main_arg1))⟩,
     ⟨S160000, col0 (m ((c : Thread nD τ).loc main_arg2))⟩,
     ⟨S160000, col1 (m ((c : Thread nD τ).loc main_arg2))⟩,
     ⟨S160000, col0 (m ((c : Thread nD τ).loc main_arg3))⟩,
     ⟨S160000, col1 (m ((c : Thread nD τ).loc main_arg3))⟩,
     ⟨S160000, col0 (m ((c : Thread nD τ).loc main_arg4))⟩,
     ⟨S160000, col1 (m ((c : Thread nD τ).loc main_arg4))⟩]
    concatenates_S160000_S160000_S160000_S160000_S160000_S160000_S160000_S160000_S1280000_d0)

/-- The message table of the reference: the eight 160000 × 128 tables stacked edge type first. -/
def updR (c : Dev nD) : FVec Ideal S1280000x128 .f32 :=
  concatenate S1280000x128 0
    [⟨S160000x128, msgTab (rawOf (m ((c : Thread nD τ).loc main_arg0)) (m ((c : Thread nD τ).loc main_arg1)))
        (w1At ![0, 0, 0, 0] (m ((c : Thread nD τ).loc main_arg5)) slices_S4x2x256x128_S1x1x256x128_0_0_0_0)
        (w2At ![0, 0, 0, 0] (m ((c : Thread nD τ).loc main_arg6)) slices_S4x2x128x128_S1x1x128x128_0_0_0_0)⟩,
     ⟨S160000x128, msgTab (rawOf (m ((c : Thread nD τ).loc main_arg0)) (m ((c : Thread nD τ).loc main_arg1)))
        (w1At ![0, 1, 0, 0] (m ((c : Thread nD τ).loc main_arg5)) slices_S4x2x256x128_S1x1x256x128_0_1_0_0)
        (w2At ![0, 1, 0, 0] (m ((c : Thread nD τ).loc main_arg6)) slices_S4x2x128x128_S1x1x128x128_0_1_0_0)⟩,
     ⟨S160000x128, msgTab (rawOf (m ((c : Thread nD τ).loc main_arg0)) (m ((c : Thread nD τ).loc main_arg2)))
        (w1At ![1, 0, 0, 0] (m ((c : Thread nD τ).loc main_arg5)) slices_S4x2x256x128_S1x1x256x128_1_0_0_0)
        (w2At ![1, 0, 0, 0] (m ((c : Thread nD τ).loc main_arg6)) slices_S4x2x128x128_S1x1x128x128_1_0_0_0)⟩,
     ⟨S160000x128, msgTab (rawOf (m ((c : Thread nD τ).loc main_arg0)) (m ((c : Thread nD τ).loc main_arg2)))
        (w1At ![1, 1, 0, 0] (m ((c : Thread nD τ).loc main_arg5)) slices_S4x2x256x128_S1x1x256x128_1_1_0_0)
        (w2At ![1, 1, 0, 0] (m ((c : Thread nD τ).loc main_arg6)) slices_S4x2x128x128_S1x1x128x128_1_1_0_0)⟩,
     ⟨S160000x128, msgTab (rawOf (m ((c : Thread nD τ).loc main_arg0)) (m ((c : Thread nD τ).loc main_arg3)))
        (w1At ![2, 0, 0, 0] (m ((c : Thread nD τ).loc main_arg5)) slices_S4x2x256x128_S1x1x256x128_2_0_0_0)
        (w2At ![2, 0, 0, 0] (m ((c : Thread nD τ).loc main_arg6)) slices_S4x2x128x128_S1x1x128x128_2_0_0_0)⟩,
     ⟨S160000x128, msgTab (rawOf (m ((c : Thread nD τ).loc main_arg0)) (m ((c : Thread nD τ).loc main_arg3)))
        (w1At ![2, 1, 0, 0] (m ((c : Thread nD τ).loc main_arg5)) slices_S4x2x256x128_S1x1x256x128_2_1_0_0)
        (w2At ![2, 1, 0, 0] (m ((c : Thread nD τ).loc main_arg6)) slices_S4x2x128x128_S1x1x128x128_2_1_0_0)⟩,
     ⟨S160000x128, msgTab (rawOf (m ((c : Thread nD τ).loc main_arg0)) (m ((c : Thread nD τ).loc main_arg4)))
        (w1At ![3, 0, 0, 0] (m ((c : Thread nD τ).loc main_arg5)) slices_S4x2x256x128_S1x1x256x128_3_0_0_0)
        (w2At ![3, 0, 0, 0] (m ((c : Thread nD τ).loc main_arg6)) slices_S4x2x128x128_S1x1x128x128_3_0_0_0)⟩,
     ⟨S160000x128, msgTab (rawOf (m ((c : Thread nD τ).loc main_arg0)) (m ((c : Thread nD τ).loc main_arg4)))
        (w1At ![3, 1, 0, 0] (m ((c : Thread nD τ).loc main_arg5)) slices_S4x2x256x128_S1x1x256x128_3_1_0_0)
        (w2At ![3, 1, 0, 0] (m ((c : Thread nD τ).loc main_arg6)) slices_S4x2x128x128_S1x1x128x128_3_1_0_0)⟩]
    concatenates_S160000x128_S160000x128_S160000x128_S160000x128_S160000x128_S160000x128_S160000x128_S160000x128_S1280000x128_d0

/-! ## The pieces read at an index -/

/-- Column 0 at edge `e` is the adjacency list's entry `(e, 0)`. -/
theorem col0_apply (adj : IVec S160000x2 32) (e : Fin 160000) : col0 adj (ix1 e) = adj (ix2 e (0 : Fin 2)) := by
  unfold col0
  refine (shapeCast_apply _ shapeCasts_S160000x1_S160000 (ix1 e) (ix2 e (0 : Fin 1)) ?_).trans ?_
  · rw [Shape.rowMajor_val_two, Shape.rowMajor_val_one]
    show e.val * 1 + 0 = e.val
    omega
  · exact extractStridedSlice_apply ![0, 0] adj slices_S160000x2_S160000x1_0_0 (ix2 e (0 : Fin 1)) (ix2 e (0 : Fin 2))
      (fun a => match a with
        | ⟨0, _⟩ => by show e.val = 0 + e.val; omega
        | ⟨1, _⟩ => by show (0 : Nat) = 0 + 0; rfl)

/-- Column 1 at edge `e` is the adjacency list's entry `(e, 1)`. -/
theorem col1_apply (adj : IVec S160000x2 32) (e : Fin 160000) : col1 adj (ix1 e) = adj (ix2 e (1 : Fin 2)) := by
  unfold col1
  refine (shapeCast_apply _ shapeCasts_S160000x1_S160000 (ix1 e) (ix2 e (0 : Fin 1)) ?_).trans ?_
  · rw [Shape.rowMajor_val_two, Shape.rowMajor_val_one]
    show e.val * 1 + 0 = e.val
    omega
  · exact extractStridedSlice_apply ![0, 1] adj slices_S160000x2_S160000x1_0_1 (ix2 e (0 : Fin 1)) (ix2 e (1 : Fin 2))
      (fun a => match a with
        | ⟨0, _⟩ => by show e.val = 0 + e.val; omega
        | ⟨1, _⟩ => by show (1 : Nat) = 1 + 0; rfl)

/-- The first-layer matrix cut at offsets `(l, ep, 0, 0)` has entry `(d, k)` the weights' entry `(l, ep, d, k)`. -/
theorem w1At_apply (o : Fin 4 → Nat) (W : FVec F S4x2x256x128 .f32) (h : S4x2x256x128.Slices o S1x1x256x128)
    (l : Fin 4) (ep : Fin 2) (h0 : o 0 = l.val) (h1 : o 1 = ep.val) (h2 : o 2 = 0) (h3 : o 3 = 0) (d : Fin 256) (k : Fin 128) :
    w1At o W h (ix2 d k) = W (ix4 l ep d k) := by
  unfold w1At
  refine (shapeCast_apply _ shapeCasts_S1x1x256x128_S256x128 (ix2 d k) (ix4 (0 : Fin 1) (0 : Fin 1) d k) ?_).trans ?_
  · rw [Shape.rowMajor_val_four, Shape.rowMajor_val_two]
    show ((0 * 1 + 0) * 256 + d.val) * 128 + k.val = d.val * 128 + k.val
    omega
  · exact extractStridedSlice_apply o W h (ix4 (0 : Fin 1) (0 : Fin 1) d k) (ix4 l ep d k)
      (fun a => match a with
        | ⟨0, _⟩ => by show l.val = o 0 + 0; omega
        | ⟨1, _⟩ => by show ep.val = o 1 + 0; omega
        | ⟨2, _⟩ => by show d.val = o 2 + d.val; omega
        | ⟨3, _⟩ => by show k.val = o 3 + k.val; omega)

/-- The second-layer matrix cut at offsets `(l, ep, 0, 0)` has entry `(k, j)` the weights' entry `(l, ep, k, j)`. -/
theorem w2At_apply (o : Fin 4 → Nat) (W : FVec F S4x2x128x128 .f32) (h : S4x2x128x128.Slices o S1x1x128x128)
    (l : Fin 4) (ep : Fin 2) (h0 : o 0 = l.val) (h1 : o 1 = ep.val) (h2 : o 2 = 0) (h3 : o 3 = 0) (k : Fin 128) (j : Fin 128) :
    w2At o W h (ix2 k j) = W (ix4 l ep k j) := by
  unfold w2At
  refine (shapeCast_apply _ shapeCasts_S1x1x128x128_S128x128 (ix2 k j) (ix4 (0 : Fin 1) (0 : Fin 1) k j) ?_).trans ?_
  · rw [Shape.rowMajor_val_four, Shape.rowMajor_val_two]
    show ((0 * 1 + 0) * 128 + k.val) * 128 + j.val = k.val * 128 + j.val
    omega
  · exact extractStridedSlice_apply o W h (ix4 (0 : Fin 1) (0 : Fin 1) k j) (ix4 l ep k j)
      (fun a => match a with
        | ⟨0, _⟩ => by show l.val = o 0 + 0; omega
        | ⟨1, _⟩ => by show ep.val = o 1 + 0; omega
        | ⟨2, _⟩ => by show k.val = o 2 + k.val; omega
        | ⟨3, _⟩ => by show j.val = o 3 + j.val; omega)

/-- The two dimension-number records of the program are the plain matrix product's. -/
theorem dot1_eq_plain : dot_S160000x256_S256x128_S160000x128_1_0_0_1_n_n = DotDims.plain 160000 256 128 := rfl
theorem dot2_eq_plain : dot_S160000x128_S128x128_S160000x128_1_0_0_1_n_n = DotDims.plain 160000 128 128 := rfl

/-- The zero table read at an index is zero. -/
theorem zeroTab_apply (i : S160000x128.Idx) :
    (broadcastInDim S160000x128 ![] bcast_S_S160000x128 (constant (F := Ideal) S_ .f32 0x00000000#32) : S160000x128.Idx → EReal) i = 0 := by
  refine (broadcastInDim_apply _ bcast_S_S160000x128 _ i ix0 (fun a => a.elim0)).trans ?_
  exact Ideal.ofBits_zero_f32

/-- A table of messages at `(e, j)`: over the hidden units `k`, the positive part of the features' inner product with
    column `k` of the first layer, times the second layer's entry `(k, j)`. -/
theorem msgTab_apply (raw : FVec Ideal S160000x256 .f32) (w1 : FVec Ideal S256x128 .f32) (w2 : FVec Ideal S128x128 .f32)
    (e : Fin 160000) (j : Fin 128) :
    (msgTab raw w1 w2 : S160000x128.Idx → EReal) (ix2 e j)
      = ∑ k : Fin 128, max (∑ d : Fin 256, (raw : S160000x256.Idx → EReal) (ix2 e d) * (w1 : S256x128.Idx → EReal) (ix2 d k)) 0
          * (w2 : S128x128.Idx → EReal) (ix2 k j) := by
  unfold msgTab
  rw [dot2_eq_plain, dot1_eq_plain]
  refine (StackMember.dotGeneral_plain_apply none _ w2 e j).trans ?_
  refine Finset.sum_congr rfl fun k _ => ?_
  rw [maximumf_apply, zeroTab_apply, StackMember.dotGeneral_plain_apply]

/-- A table of messages cut out of the program's arguments is the message of the specification: the two weight
    matrices are the weights' entries at `(l, ep, ·, ·)`. -/
theorem msgTab_eq_msg (raw : FVec Ideal S160000x256 .f32) (W1 : FVec Ideal S4x2x256x128 .f32) (W2 : FVec Ideal S4x2x128x128 .f32)
    (o : Fin 4 → Nat) (hs1 : S4x2x256x128.Slices o S1x1x256x128) (hs2 : S4x2x128x128.Slices o S1x1x128x128)
    (l : Fin 4) (ep : Fin 2) (h0 : o 0 = l.val) (h1 : o 1 = ep.val) (h2 : o 2 = 0) (h3 : o 3 = 0) (e : Fin 160000) (j : Fin 128) :
    (msgTab raw (w1At o W1 hs1) (w2At o W2 hs2) : S160000x128.Idx → EReal) (ix2 e j)
      = Gnn.msg (fun e d => (raw : S160000x256.Idx → EReal) (ix2 e d))
          (fun d k => (W1 : S4x2x256x128.Idx → EReal) (ix4 l ep d k))
          (fun k j => (W2 : S4x2x128x128.Idx → EReal) (ix4 l ep k j)) e j := by
  rw [msgTab_apply]
  unfold Gnn.msg
  refine Finset.sum_congr rfl fun k _ => ?_
  rw [w2At_apply o W2 hs2 l ep h0 h1 h2 h3 k j]
  refine congrArg (fun t => max t 0 * (W2 : S4x2x128x128.Idx → EReal) (ix4 l ep k j)) (Finset.sum_congr rfl fun d _ => ?_)
  rw [w1At_apply o W1 hs1 l ep h0 h1 h2 h3 d k]

/-! ## Stacks of eight pieces read at an index -/

/-- Eight vectors of 160000 laid end to end, read at position `k · 160000 + e`: piece `k` at `e`. -/
theorem stackV_apply {α : Type} (f : Fin 8 → (S160000.Idx → α))
    (h : Shape.Concatenates ((List.ofFn fun n : Fin 8 => (⟨S160000, f n⟩ : (s : Shape) × (s.Idx → α))).map (·.1)) S1280000 0)
    (k : Fin 8) (e : Fin 160000) (r : Fin 1280000) (hr : r.val = k.val * 160000 + e.val) :
    concatenate S1280000 0 (List.ofFn fun n : Fin 8 => (⟨S160000, f n⟩ : (s : Shape) × (s.Idx → α))) h (ix1 r) = f k (ix1 e) :=
  concatenate_ofFn_apply 0 f h rfl 160000 rfl (ix1 r) k (by show r.val / 160000 = k.val; omega) (ix1 e)
    (by show e.val = r.val % 160000; omega)
    (fun b => match b with | ⟨0, _⟩ => fun hb => absurd rfl hb)

/-- Eight tables of 160000 rows laid end to end, read at row `k · 160000 + e`: piece `k` at row `e`, the same column. -/
theorem stackM_apply {α : Type} (f : Fin 8 → (S160000x128.Idx → α))
    (h : Shape.Concatenates ((List.ofFn fun n : Fin 8 => (⟨S160000x128, f n⟩ : (s : Shape) × (s.Idx → α))).map (·.1)) S1280000x128 0)
    (k : Fin 8) (e : Fin 160000) (j : Fin 128) (r : Fin 1280000) (hr : r.val = k.val * 160000 + e.val) :
    concatenate S1280000x128 0 (List.ofFn fun n : Fin 8 => (⟨S160000x128, f n⟩ : (s : Shape) × (s.Idx → α))) h (ix2 r j) = f k (ix2 e j) :=
  concatenate_ofFn_apply 0 f h rfl 160000 rfl (ix2 r j) k (by show r.val / 160000 = k.val; omega) (ix2 e j)
    (by show e.val = r.val % 160000; omega)
    (fun b => match b with
      | ⟨0, _⟩ => fun hb => absurd rfl hb
      | ⟨1, _⟩ => fun _ => rfl)

/-! ## The two operands at a row -/

/-- The eight index columns in stacking order: piece `2 l + ep` is column `ep` of edge type `l`'s adjacency list. -/
def idxPiece (c : Dev nD) : Fin 8 → IVec S160000 32 :=
  ![col0 (m ((c : Thread nD τ).loc main_arg1)),
    col1 (m ((c : Thread nD τ).loc main_arg1)),
    col0 (m ((c : Thread nD τ).loc main_arg2)),
    col1 (m ((c : Thread nD τ).loc main_arg2)),
    col0 (m ((c : Thread nD τ).loc main_arg3)),
    col1 (m ((c : Thread nD τ).loc main_arg3)),
    col0 (m ((c : Thread nD τ).loc main_arg4)),
    col1 (m ((c : Thread nD τ).loc main_arg4))]

/-- The eight message tables in stacking order: piece `2 l + ep` is edge type `l`'s, endpoint `ep`'s. -/
def updPiece (c : Dev nD) : Fin 8 → FVec Ideal S160000x128 .f32 :=
  ![msgTab (rawOf (m ((c : Thread nD τ).loc main_arg0)) (m ((c : Thread nD τ).loc main_arg1)))
        (w1At ![0, 0, 0, 0] (m ((c : Thread nD τ).loc main_arg5)) slices_S4x2x256x128_S1x1x256x128_0_0_0_0)
        (w2At ![0, 0, 0, 0] (m ((c : Thread nD τ).loc main_arg6)) slices_S4x2x128x128_S1x1x128x128_0_0_0_0),
    msgTab (rawOf (m ((c : Thread nD τ).loc main_arg0)) (m ((c : Thread nD τ).loc main_arg1)))
        (w1At ![0, 1, 0, 0] (m ((c : Thread nD τ).loc main_arg5)) slices_S4x2x256x128_S1x1x256x128_0_1_0_0)
        (w2At ![0, 1, 0, 0] (m ((c : Thread nD τ).loc main_arg6)) slices_S4x2x128x128_S1x1x128x128_0_1_0_0),
    msgTab (rawOf (m ((c : Thread nD τ).loc main_arg0)) (m ((c : Thread nD τ).loc main_arg2)))
        (w1At ![1, 0, 0, 0] (m ((c : Thread nD τ).loc main_arg5)) slices_S4x2x256x128_S1x1x256x128_1_0_0_0)
        (w2At ![1, 0, 0, 0] (m ((c : Thread nD τ).loc main_arg6)) slices_S4x2x128x128_S1x1x128x128_1_0_0_0),
    msgTab (rawOf (m ((c : Thread nD τ).loc main_arg0)) (m ((c : Thread nD τ).loc main_arg2)))
        (w1At ![1, 1, 0, 0] (m ((c : Thread nD τ).loc main_arg5)) slices_S4x2x256x128_S1x1x256x128_1_1_0_0)
        (w2At ![1, 1, 0, 0] (m ((c : Thread nD τ).loc main_arg6)) slices_S4x2x128x128_S1x1x128x128_1_1_0_0),
    msgTab (rawOf (m ((c : Thread nD τ).loc main_arg0)) (m ((c : Thread nD τ).loc main_arg3)))
        (w1At ![2, 0, 0, 0] (m ((c : Thread nD τ).loc main_arg5)) slices_S4x2x256x128_S1x1x256x128_2_0_0_0)
        (w2At ![2, 0, 0, 0] (m ((c : Thread nD τ).loc main_arg6)) slices_S4x2x128x128_S1x1x128x128_2_0_0_0),
    msgTab (rawOf (m ((c : Thread nD τ).loc main_arg0)) (m ((c : Thread nD τ).loc main_arg3)))
        (w1At ![2, 1, 0, 0] (m ((c : Thread nD τ).loc main_arg5)) slices_S4x2x256x128_S1x1x256x128_2_1_0_0)
        (w2At ![2, 1, 0, 0] (m ((c : Thread nD τ).loc main_arg6)) slices_S4x2x128x128_S1x1x128x128_2_1_0_0),
    msgTab (rawOf (m ((c : Thread nD τ).loc main_arg0)) (m ((c : Thread nD τ).loc main_arg4)))
        (w1At ![3, 0, 0, 0] (m ((c : Thread nD τ).loc main_arg5)) slices_S4x2x256x128_S1x1x256x128_3_0_0_0)
        (w2At ![3, 0, 0, 0] (m ((c : Thread nD τ).loc main_arg6)) slices_S4x2x128x128_S1x1x128x128_3_0_0_0),
    msgTab (rawOf (m ((c : Thread nD τ).loc main_arg0)) (m ((c : Thread nD τ).loc main_arg4)))
        (w1At ![3, 1, 0, 0] (m ((c : Thread nD τ).loc main_arg5)) slices_S4x2x256x128_S1x1x256x128_3_1_0_0)
        (w2At ![3, 1, 0, 0] (m ((c : Thread nD τ).loc main_arg6)) slices_S4x2x128x128_S1x1x128x128_3_1_0_0)]

/-- The place of (edge type, endpoint) in the stacking order. -/
def pieceNo (l : Fin 4) (ep : Fin 2) : Fin 8 := ⟨2 * l.val + ep.val, by omega⟩

/-- Piece `2 l + ep` of the index stack at edge `e` is entry `(e, ep)` of edge type `l`'s adjacency list. -/
theorem idxPiece_at (c : Dev nD) (l : Fin 4) (ep : Fin 2) (e : Fin 160000) :
    idxPiece m c (pieceNo l ep) (ix1 e) = adjOf m c l (ix2 e ep) := by
  match l, ep with
  | ⟨0, _⟩, ⟨0, _⟩ => exact col0_apply _ e
  | ⟨0, _⟩, ⟨1, _⟩ => exact col1_apply _ e
  | ⟨1, _⟩, ⟨0, _⟩ => exact col0_apply _ e
  | ⟨1, _⟩, ⟨1, _⟩ => exact col1_apply _ e
  | ⟨2, _⟩, ⟨0, _⟩ => exact col0_apply _ e
  | ⟨2, _⟩, ⟨1, _⟩ => exact col1_apply _ e
  | ⟨3, _⟩, ⟨0, _⟩ => exact col0_apply _ e
  | ⟨3, _⟩, ⟨1, _⟩ => exact col1_apply _ e

/-- Piece `2 l + ep` of the message stack is the table made from edge type `l`'s gathered features and the two weight
    matrices cut at offsets `(l, ep, 0, 0)`. -/
theorem updPiece_at (c : Dev nD) (l : Fin 4) (ep : Fin 2) :
    ∃ (o : Fin 4 → Nat) (hs1 : S4x2x256x128.Slices o S1x1x256x128) (hs2 : S4x2x128x128.Slices o S1x1x128x128),
      o 0 = l.val ∧ o 1 = ep.val ∧ o 2 = 0 ∧ o 3 = 0 ∧
      updPiece m c (pieceNo l ep)
        = msgTab (rawOf (m ((c : Thread nD τ).loc main_arg0)) (adjOf m c l)) (w1At o (m ((c : Thread nD τ).loc main_arg5)) hs1) (w2At o (m ((c : Thread nD τ).loc main_arg6)) hs2) := by
  match l, ep with
  | ⟨0, _⟩, ⟨0, _⟩ =>
    exact ⟨![0, 0, 0, 0], slices_S4x2x256x128_S1x1x256x128_0_0_0_0, slices_S4x2x128x128_S1x1x128x128_0_0_0_0, rfl, rfl, rfl, rfl, rfl⟩
  | ⟨0, _⟩, ⟨1, _⟩ =>
    exact ⟨![0, 1, 0, 0], slices_S4x2x256x128_S1x1x256x128_0_1_0_0, slices_S4x2x128x128_S1x1x128x128_0_1_0_0, rfl, rfl, rfl, rfl, rfl⟩
  | ⟨1, _⟩, ⟨0, _⟩ =>
    exact ⟨![1, 0, 0, 0], slices_S4x2x256x128_S1x1x256x128_1_0_0_0, slices_S4x2x128x128_S1x1x128x128_1_0_0_0, rfl, rfl, rfl, rfl, rfl⟩
  | ⟨1, _⟩, ⟨1, _⟩ =>
    exact ⟨![1, 1, 0, 0], slices_S4x2x256x128_S1x1x256x128_1_1_0_0, slices_S4x2x128x128_S1x1x128x128_1_1_0_0, rfl, rfl, rfl, rfl, rfl⟩
  | ⟨2, _⟩, ⟨0, _⟩ =>
    exact ⟨![2, 0, 0, 0], slices_S4x2x256x128_S1x1x256x128_2_0_0_0, slices_S4x2x128x128_S1x1x128x128_2_0_0_0, rfl, rfl, rfl, rfl, rfl⟩
  | ⟨2, _⟩, ⟨1, _⟩ =>
    exact ⟨![2, 1, 0, 0], slices_S4x2x256x128_S1x1x256x128_2_1_0_0, slices_S4x2x128x128_S1x1x128x128_2_1_0_0, rfl, rfl, rfl, rfl, rfl⟩
  | ⟨3, _⟩, ⟨0, _⟩ =>
    exact ⟨![3, 0, 0, 0], slices_S4x2x256x128_S1x1x256x128_3_0_0_0, slices_S4x2x128x128_S1x1x128x128_3_0_0_0, rfl, rfl, rfl, rfl, rfl⟩
  | ⟨3, _⟩, ⟨1, _⟩ =>
    exact ⟨![3, 1, 0, 0], slices_S4x2x256x128_S1x1x256x128_3_1_0_0, slices_S4x2x128x128_S1x1x128x128_3_1_0_0, rfl, rfl, rfl, rfl, rfl⟩

theorem idxR_at (c : Dev nD) (l : Fin 4) (ep : Fin 2) (e : Fin 160000) :
    idxR m c (ix2 (Gnn.rowR l ep e) (0 : Fin 1)) = adjOf m c l (ix2 e ep) := by
  unfold idxR
  refine (broadcastInDim_apply _ bcast_S1280000_S1280000x1_0 _ (ix2 (Gnn.rowR l ep e) (0 : Fin 1)) (ix1 (Gnn.rowR l ep e))
    (fun a => match a with | ⟨0, _⟩ => rfl)).trans ?_
  exact (stackV_apply (idxPiece m c) _ (pieceNo l ep) e _ rfl).trans (idxPiece_at m c l ep e)

theorem updR_at (c : Dev nD) (l : Fin 4) (ep : Fin 2) (e : Fin 160000) (j : Fin 128) :
    (updR m c : S1280000x128.Idx → EReal) (ix2 (Gnn.rowR l ep e) j)
      = Gnn.msg
          (fun e d => (rawOf (F := Ideal) (m ((c : Thread nD τ).loc main_arg0)) (adjOf m c l) : S160000x256.Idx → EReal) (ix2 e d))
          (fun d k => (m ((c : Thread nD τ).loc main_arg5) : S4x2x256x128.Idx → EReal) (ix4 l ep d k))
          (fun k j => (m ((c : Thread nD τ).loc main_arg6) : S4x2x128x128.Idx → EReal) (ix4 l ep k j)) e j := by
  unfold updR
  refine (stackM_apply (updPiece m c) _ (pieceNo l ep) e j _ rfl).trans ?_
  obtain ⟨o, hs1, hs2, h0, h1, h2, h3, hp⟩ := updPiece_at m c l ep
  rw [hp]
  exact msgTab_eq_msg _ (m ((c : Thread nD τ).loc main_arg5)) (m ((c : Thread nD τ).loc main_arg6)) o hs1 hs2 l ep h0 h1 h2 h3 e j

end Cert.ReferenceIdeal.RV

end
-- ==== Proof.RefRes.lean ====
/-
  The reference run's result term is the clamp at zero of the scatter-add of its message table at its index column:
  the two operands named in the value module are literally the scatter's operands in that term.
-/
import proofs.«431189_j85143431676502_1_alg».proof.Proof.RefRunHand
import proofs.«431189_j85143431676502_1_alg».proof.Proof.RefValue

set_option maxRecDepth 65536

noncomputable section

namespace Cert.ReferenceIdeal.RV

open Cert.ReferenceIdeal Cert.ReferenceIdeal.Gen
open Idealize.ShloMosaic Idealize.ShloMosaic.TcCoe Idealize.SL.Sem

variable (m : (ℓ : Loc nD τ sig) → Buf (Elt Ideal) ℓ)

set_option maxHeartbeats 4000000 in
theorem res_eq (c : Dev nD) :
    (Cert.ReferenceIdeal.ValueH.res_main_v153 (F := Ideal) m c : S50000x128.Idx → EReal)
      = maximumf
          (Host.scatterAdd scatter_S50000x128_S1280000x1_S1280000x128_1_0_0_1
            (broadcastInDim S50000x128 ![] bcast_S_S50000x128 (constant S_ .f32 0x00000000#32)) (idxR m c) (updR m c))
          (broadcastInDim S50000x128 ![] bcast_S_S50000x128 (constant S_ .f32 0x00000000#32)) := by
  unfold Cert.ReferenceIdeal.ValueH.res_main_v153
  rfl

end Cert.ReferenceIdeal.RV

end
-- ==== Proof.KOutIdeal.lean ====
/-
  What the region leaves in its output array, index by index.

  Grid point t = l · 40 + cb handles edge type l and the 4000 edges e = cb · 4000 + r. Its body multiplies the
  4000 × 256 block of gathered features by the edge type's 256 × 256 first-layer matrix, clamps at zero, multiplies by
  the 256 × 256 second-layer matrix and stores the 4000 × 256 result. The 160 blocks tile the 4 × 160000 × 256 output
  array, so entry (l, e, j') of the array after the region is
  `∑ k', max (∑ d, A (l, e, d) · B (l, d, k')) 0 · C (l, k', j')` over the three arrays the region read.
  A change of float format is the identity on the extended reals, and a matrix product into a zero accumulator is the
  plain sum of products.
-/
import proofs.«431189_j85143431676502_1_alg».proof.Proof.FrameKernelIdeal
import proofs.«431189_j85143431676502_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- The three arrays the region reads and the array it writes, each named at its literal type (extended reals at every
    float format). -/
abbrev arrRaw (c : Dev nD) : S4x160000x256.Idx → EReal := V m c main_v84
abbrev arrW1 (c : Dev nD) : S4x256x256.Idx → EReal := V m c main_v90
abbrev arrW2 (c : Dev nD) : S4x256x256.Idx → EReal := V m c main_v101
abbrev arrOut (c : Dev nD) : S4x160000x256.Idx → EReal := (dats m 0 c).arrAt 3 cfg0.N

/-! ## The body's arithmetic at an index -/

/-- The left operand of the body's matrix products is read on its row … -/
private theorem lhs_mm_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
/-- … at the contracted column; -/
private theorem lhs_mm_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
/-- the right operand at the contracted row … -/
private theorem rhs_mm_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
/-- … on the output's column. -/
private theorem rhs_mm_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A 4000 × 256 by 256 × 256 matrix product into a zero accumulator, at (row, column): the sum over the 256 contracted
    positions of the products. -/
private theorem matmul_at {φ₁ φ₂ : FTy} (lhs : FVec Ideal S4000x256 φ₁) (rhs : FVec Ideal S256x256 φ₂) (r : Fin 4000) (j' : Fin 256) :
    matmul dot_S4000x256_S256x256_S4000x256_1_0_0_1_n_n none lhs rhs (constant (F := Ideal) S4000x256 .f32 0x00000000#32) (ix2 r j')
      = ∑ k : Fin 256, lhs (ix2 r k) * rhs (ix2 k j') := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 r j') ((contrEquiv1 dot_S4000x256_S256x256_S4000x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S4000x256_S256x256_S4000x256_1_0_0_1_n_n.rhsIdx (ix2 r j') ((contrEquiv1 dot_S4000x256_S256x256_S4000x256_1_0_0_1_n_n 256 rfl rfl).symm k) = ix2 k j' := funext fun a => Fin.ext (by
    match a with
    | ⟨0, _⟩ => exact (rhs_mm_0 _ _).trans hk
    | ⟨1, _⟩ => exact rhs_mm_1 _ _)
  rw [el, er]

/-- A block with a leading unit axis viewed without it, at (row, column): the block at (0, row, column). -/
private theorem dropUnit_at {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  refine (shapeCast_dropUnit_apply ![a, b] v h (ix2 p q)).trans (congrArg v ?_)
  funext x
  match x with
  | ⟨0, _⟩ => rfl
  | ⟨1, _⟩ => rfl
  | ⟨2, _⟩ => rfl

/-- The body's stored value at (0, row, column): the row of the first block times the second block, clamped at zero,
    times the third block. -/
private theorem pay_at (x0 : Vec Ideal S1x4000x256 .bf16) (x1 x2 : Vec Ideal S1x256x256 .bf16) (z : Fin 1) (r : Fin 4000) (j' : Fin 256) :
    k0_pay1 (F := Ideal) x0 x1 x2 (ix3 z r j')
      = ∑ k' : Fin 256, max (∑ d : Fin 256, x0 (ix3 (0 : Fin 1) r d) * x1 (ix3 (0 : Fin 1) d k')) 0 * x2 (ix3 (0 : Fin 1) k' j') := by
  unfold k0_pay1
  refine (shapeCast_addUnit_apply ![4000, 256] _ shapeCasts_S4000x256_S1x4000x256 (ix3 z r j')).trans ?_
  have hidx : (fun a : Fin 2 => ix3 z r j' a.succ) = ix2 r j' :=
    funext fun a => by match a with | ⟨0, _⟩ => rfl | ⟨1, _⟩ => rfl
  rw [hidx]
  refine (matmul_at _ _ r j').trans (Finset.sum_congr rfl fun k' _ => ?_)
  refine congrArg₂ (· * ·) ?_ (dropUnit_at x2 shapeCasts_S1x256x256_S256x256 k' j')
  refine Eq.trans (b := max (∑ d : Fin 256, shapeCast S4000x256 x0 shapeCasts_S1x4000x256_S4000x256 (ix2 r d)
      * shapeCast S256x256 x1 shapeCasts_S1x256x256_S256x256 (ix2 d k')) (Ideal.ofBits .f32 0x00000000#32)) ?_ ?_
  · exact congrArg (max · (Ideal.ofBits .f32 0x00000000#32)) (matmul_at _ _ r k')
  · rw [Ideal.ofBits_zero_f32]
    refine congrArg (max · 0) (Finset.sum_congr rfl fun d _ => ?_)
    exact congrArg₂ (· * ·) (dropUnit_at x0 shapeCasts_S1x4000x256_S4000x256 r d) (dropUnit_at x1 shapeCasts_S1x256x256_S256x256 d k')

/-! ## From the blocks to the arrays -/

/-- The two-layer product of the three arrays, index by index: entry (l, e, j') is
    `∑ k', max (∑ d, A (l, e, d) · B (l, d, k')) 0 · C (l, k', j')`. -/
def mlpOut (A : S4x160000x256.Idx → EReal) (B C : S4x256x256.Idx → EReal) : S4x160000x256.Idx → EReal := fun i =>
  ∑ k' : Fin 256, max (∑ d : Fin 256, A (ix3 (i 0 : Fin 4) (i 1 : Fin 160000) d) * B (ix3 (i 0 : Fin 4) d k')) 0
    * C (ix3 (i 0 : Fin 4) k' (i 2 : Fin 256))

theorem mlpOut_apply (A : S4x160000x256.Idx → EReal) (B C : S4x256x256.Idx → EReal) (l : Fin 4) (e : Fin 160000) (j' : Fin 256) :
    mlpOut A B C (ix3 l e j') = ∑ k' : Fin 256, max (∑ d : Fin 256, A (ix3 l e d) * B (ix3 l d k')) 0 * C (ix3 l k' j') := rfl

private theorem hz3 : (![0, 0, 0] : Fin 3 → Nat) = fun _ => 0 := funext fun a => by fin_cases a <;> rfl

/-- The block indices of the four windows at grid point `t`: edge type `t / 40` on axis 0; on axis 1 the features' and
    the output's block `t % 40` of 4000 edges, the weights' one block; one block on axis 2. -/
private theorem idx_facts : ∀ t : Fin cfg0.N,
    win0_0.index t (0 : Fin 3) = t.val / 40 ∧ win0_0.index t (1 : Fin 3) = t.val % 40 ∧ win0_0.index t (2 : Fin 3) = 0
    ∧ win0_1.index t (0 : Fin 3) = t.val / 40 ∧ win0_1.index t (1 : Fin 3) = 0 ∧ win0_1.index t (2 : Fin 3) = 0
    ∧ win0_2.index t (0 : Fin 3) = t.val / 40 ∧ win0_2.index t (1 : Fin 3) = 0 ∧ win0_2.index t (2 : Fin 3) = 0
    ∧ win0_3.index t (0 : Fin 3) = t.val / 40 ∧ win0_3.index t (1 : Fin 3) = t.val % 40 ∧ win0_3.index t (2 : Fin 3) = 0 :=
  (by decide +kernel : ∀ t : Fin grid0.N, _)

/-- The features' block at point `t`, at (0, r, d): the features at (t / 40, (t % 40) · 4000 + r, d). -/
private theorem iblk0_at (c : Dev nD) (t : Fin cfg0.N) (z : Fin 1) (r : Fin 4000) (d : Fin 256) (l : Fin 4) (e : Fin 160000)
    (hl : l.val = t.val / 40) (he : e.val = t.val % 40 * 4000 + r.val) :
    (iblk m c 0 t : Vec Ideal S1x4000x256 .bf16) (ix3 z r d) = arrRaw m c (ix3 l e d) := by
  obtain ⟨e0, e1, e2, -⟩ := idx_facts t
  unfold iblk
  rw [View.read_apply]
  show V m c main_v84 _ = V m c main_v84 _
  refine congrArg (V m c main_v84) (funext fun a => Fin.ext ?_)
  match a with
  | ⟨0, _⟩ => show win0_0.index t (0 : Fin 3) * 1 + 1 * z.val = l.val; have := z.isLt; omega
  | ⟨1, _⟩ => show win0_0.index t (1 : Fin 3) * 4000 + 1 * r.val = e.val; omega
  | ⟨2, _⟩ => show win0_0.index t (2 : Fin 3) * 256 + 1 * d.val = d.val; omega

/-- The first layer's block at point `t`, at (0, d, k'): the first-layer weights at (t / 40, d, k'). -/
private theorem iblk1_at (c : Dev nD) (t : Fin cfg0.N) (z : Fin 1) (d k' : Fin 256) (l : Fin 4) (hl : l.val = t.val / 40) :
    (iblk m c 1 t : Vec Ideal S1x256x256 .bf16) (ix3 z d k') = arrW1 m c (ix3 l d k') := by
  obtain ⟨-, -, -, e0, e1, e2, -⟩ := idx_facts t
  unfold iblk
  rw [View.read_apply]
  show V m c main_v90 _ = V m c main_v90 _
  refine congrArg (V m c main_v90) (funext fun a => Fin.ext ?_)
  match a with
  | ⟨0, _⟩ => show win0_1.index t (0 : Fin 3) * 1 + 1 * z.val = l.val; have := z.isLt; omega
  | ⟨1, _⟩ => show win0_1.index t (1 : Fin 3) * 256 + 1 * d.val = d.val; omega
  | ⟨2, _⟩ => show win0_1.index t (2 : Fin 3) * 256 + 1 * k'.val = k'.val; omega

/-- The second layer's block at point `t`, at (0, k', j'): the second-layer weights at (t / 40, k', j'). -/
private theorem iblk2_at (c : Dev nD) (t : Fin cfg0.N) (z : Fin 1) (k' j' : Fin 256) (l : Fin 4) (hl : l.val = t.val / 40) :
    (iblk m c 2 t : Vec Ideal S1x256x256 .bf16) (ix3 z k' j') = arrW2 m c (ix3 l k' j') := by
  obtain ⟨-, -, -, -, -, -, e0, e1, e2, -⟩ := idx_facts t
  unfold iblk
  rw [View.read_apply]
  show V m c main_v101 _ = V m c main_v101 _
  refine congrArg (V m c main_v101) (funext fun a => Fin.ext ?_)
  match a with
  | ⟨0, _⟩ => show win0_2.index t (0 : Fin 3) * 1 + 1 * z.val = l.val; have := z.isLt; omega
  | ⟨1, _⟩ => show win0_2.index t (1 : Fin 3) * 256 + 1 * k'.val = k'.val; omega
  | ⟨2, _⟩ => show win0_2.index t (2 : Fin 3) * 256 + 1 * j'.val = j'.val; omega

/-- What point `t` writes back is its block of the two-layer product of the three arrays. -/
private theorem flushed_eq (c : Dev nD) (t : Fin cfg0.N) :
    (dats m 0 c).flushed 3 t
      = ((cfg0.win 3).blk t).view.read (Elt Ideal) (mlpOut (arrRaw m c) (arrW1 m c) (arrW2 m c)) := by
  have hN : t.val < 160 := lt_of_lt_of_eq t.isLt N_0
  obtain ⟨-, -, -, -, -, -, -, -, -, e9, e10, e11⟩ := idx_facts t
  show (cfg0.win 3).cut (grid0.coords t) ((dats m 0 c).after 3 t) = _
  rw [after0_3]
  unfold out0_3
  rw [View.canon_unit_zero hz3]
  simp only [View.ld_unit_zero (S := S1x4000x256) hz3, View.ld_unit_zero (S := S1x256x256) hz3]
  funext y
  obtain ⟨z, r, j', rfl⟩ : ∃ (z : Fin 1) (r : Fin 4000) (j' : Fin 256), y = ix3 z r j' := ⟨y 0, y 1, y 2, eq_ix3 y⟩
  have hz : z.val = 0 := by have := z.isLt; omega
  -- the block's index is itself inside the whole block, and lies at (t / 40, (t % 40) · 4000 + r, j') of the array
  have hx : (win0 3).xinj (grid0.coords t) (ix3 z r j') = ix3 z r j' := funext fun a => Fin.ext (by
    match a with
    | ⟨0, _⟩ => rfl
    | ⟨1, _⟩ => rfl
    | ⟨2, _⟩ => rfl)
  have hemb : ((cfg0.win 3).blk t).view.emb (ix3 z r j')
      = ix3 (⟨t.val / 40, by omega⟩ : Fin 4) (⟨t.val % 40 * 4000 + r.val, by have := r.isLt; omega⟩ : Fin 160000) j' :=
    funext fun a => Fin.ext (by
      match a with
      | ⟨0, _⟩ => show win0_3.index t (0 : Fin 3) * 1 + 1 * z.val = t.val / 40; omega
      | ⟨1, _⟩ => show win0_3.index t (1 : Fin 3) * 4000 + 1 * r.val = t.val % 40 * 4000 + r.val; omega
      | ⟨2, _⟩ => show win0_3.index t (2 : Fin 3) * 256 + 1 * j'.val = j'.val; omega)
  show k0_pay1 (iblk m c 0 t) (iblk m c 1 t) (iblk m c 2 t) ((win0 3).xinj (grid0.coords t) (ix3 z r j'))
    = mlpOut (arrRaw m c) (arrW1 m c) (arrW2 m c) (((cfg0.win 3).blk t).view.emb (ix3 z r j'))
  rw [hx, hemb, mlpOut_apply]
  refine (pay_at (iblk m c 0 t) (iblk m c 1 t) (iblk m c 2 t) z r j').trans ?_
  refine Finset.sum_congr rfl fun k' _ => ?_
  refine congrArg₂ (· * ·) (congrArg (max · 0) (Finset.sum_congr rfl fun d _ => ?_)) (iblk2_at m c t 0 k' j' _ rfl)
  exact congrArg₂ (· * ·) (iblk0_at m c t 0 r d _ _ rfl rfl) (iblk1_at m c t 0 d k' _ rfl)

/-- An index of the output array is in point `t`'s block iff each coordinate is in the block's range on its axis. -/
private theorem mem_blk (t : Fin cfg0.N) (i : S4x160000x256.Idx) :
    i ∈ ((cfg0.win 3).blk t).view.set ↔ ∀ a : Fin 3, win0_3.index t a * S1x4000x256.size a ≤ (i a).val
      ∧ (i a).val < win0_3.index t a * S1x4000x256.size a + S1x4000x256.size a := by
  show i ∈ ((View.whole main_v102).slice (win0_3.rect t)).set ↔ _
  rw [View.set_slice_whole, Rect.mem_set_unit]
  exact Iff.rfl

/-- The 160 blocks tile the output array: entry (l, e, j') is in the block of point `l · 40 + e / 4000`. -/
private theorem cover (i : S4x160000x256.Idx) :
    ∃ t : Fin cfg0.N, (cfg0.win 3).flush t = true ∧ i ∈ ((cfg0.win 3).blk t).view.set := by
  have h0 : (i 0).val < 4 := (i 0).isLt
  have h1 : (i 1).val < 160000 := (i 1).isLt
  have h2 : (i 2).val < 256 := (i 2).isLt
  have hlt : (i 0).val * 40 + (i 1).val / 4000 < cfg0.N := lt_of_lt_of_eq (by omega) N_0.symm
  obtain ⟨-, -, -, -, -, -, -, -, -, e9, e10, e11⟩ := idx_facts ⟨(i 0).val * 40 + (i 1).val / 4000, hlt⟩
  refine ⟨⟨(i 0).val * 40 + (i 1).val / 4000, hlt⟩, flush0_3 _, ?_⟩
  rw [mem_blk]
  intro a
  match a with
  | ⟨0, _⟩ =>
    show win0_3.index ⟨(i 0).val * 40 + (i 1).val / 4000, hlt⟩ (0 : Fin 3) * 1 ≤ (i 0).val
      ∧ (i 0).val < win0_3.index ⟨(i 0).val * 40 + (i 1).val / 4000, hlt⟩ (0 : Fin 3) * 1 + 1
    rw [e9]; show ((i 0).val * 40 + (i 1).val / 4000) / 40 * 1 ≤ _ ∧ _ < ((i 0).val * 40 + (i 1).val / 4000) / 40 * 1 + 1; omega
  | ⟨1, _⟩ =>
    show win0_3.index ⟨(i 0).val * 40 + (i 1).val / 4000, hlt⟩ (1 : Fin 3) * 4000 ≤ (i 1).val
      ∧ (i 1).val < win0_3.index ⟨(i 0).val * 40 + (i 1).val / 4000, hlt⟩ (1 : Fin 3) * 4000 + 4000
    rw [e10]; show ((i 0).val * 40 + (i 1).val / 4000) % 40 * 4000 ≤ _ ∧ _ < ((i 0).val * 40 + (i 1).val / 4000) % 40 * 4000 + 4000; omega
  | ⟨2, _⟩ =>
    show win0_3.index ⟨(i 0).val * 40 + (i 1).val / 4000, hlt⟩ (2 : Fin 3) * 256 ≤ (i 2).val
      ∧ (i 2).val < win0_3.index ⟨(i 0).val * 40 + (i 1).val / 4000, hlt⟩ (2 : Fin 3) * 256 + 256
    rw [e11]; omega

/-- The output array after the region is the two-layer product of the three arrays the region read. -/
theorem out_eq (c : Dev nD) : arrOut m c = mlpOut (arrRaw m c) (arrW1 m c) (arrW2 m c) :=
  (dats m 0 c).arrAt_eq_of_cover 3 (mlpOut (arrRaw m c) (arrW1 m c) (arrW2 m c)) (fun t _ => flushed_eq m c t) cover

/-- The output array after the region, at (edge type, edge, column). -/
theorem out_at (c : Dev nD) (l : Fin 4) (e : Fin 160000) (j' : Fin 256) :
    arrOut m c (ix3 l e j')
      = ∑ k' : Fin 256,
          max (∑ d : Fin 256, arrRaw m c (ix3 l e d) * arrW1 m c (ix3 l d k')) 0 * arrW2 m c (ix3 l k' j') :=
  (congrFun (out_eq m c) (ix3 l e j')).trans (mlpOut_apply _ _ _ l e j')

end Cert.KernelIdeal.Hand

end
-- ==== Proof.LibScatterRows.lean ====
/-
  A row scatter-add over the extended reals does not depend on the order of its update rows.

  `Ideal.hostScatterAdd d x idx upd` adds to each element of `x` the update elements whose landing index is that
  element. When the scatter indexes rows (one index per update row, the row's columns carried along), permuting
  the update rows together with their indices permutes the terms of each of those finite sums and changes nothing,
  because addition on the extended reals is commutative and associative.
-/
import Idealize.ShloMosaic.PureOps.Ideal
import Idealize.ShloMosaic.Lib.ValueIdx

noncomputable section

namespace Cert.Gnn

open Idealize.ShloMosaic Idealize.ShloMosaic.ValueIdx
open scoped BigOperators

/-- With the window on axis 1 and the index vector on axis 1 of the indices, the index array is read at the update's row. -/
private theorem siIdx_eq {V C N : Nat}
    (d : ScatterDims (⟨2, ![V, C]⟩ : Shape) (⟨2, ![N, 1]⟩ : Shape) (⟨2, ![N, C]⟩ : Shape))
    (huw : d.updateWindowDims = [1]) (hiv : d.indexVectorDim = 1)
    (j : (⟨2, ![N, C]⟩ : Shape).Idx) (c : Fin d.scatterDimsToOperandDims.length) :
    d.siIdx j c = ix2 (j 0) (0 : Fin 1) := by
  obtain ⟨uw, iw, sd, iv, wf⟩ := d
  subst huw hiv
  funext b
  match b with
  | ⟨0, _⟩ =>
    refine Fin.ext ?_
    simp only [ScatterDims.siIdx, ScatterDims.siCoord]
    rw [dif_neg (by decide)]
    exact congrArg (fun a => (j a).val) (by rfl : _ = (0 : Fin 2))
  | ⟨1, _⟩ =>
    exact Subsingleton.elim (α := Fin 1) _ _

/-- The window starts at the row the index array names on axis 0, and at column 0 on axis 1. -/
private theorem start_eq {V C N w : Nat}
    (d : ScatterDims (⟨2, ![V, C]⟩ : Shape) (⟨2, ![N, 1]⟩ : Shape) (⟨2, ![N, C]⟩ : Shape))
    (huw : d.updateWindowDims = [1]) (hsd : d.scatterDimsToOperandDims = [0]) (hiv : d.indexVectorDim = 1)
    (j : (⟨2, ![N, C]⟩ : Shape).Idx) (idx : IVec (⟨2, ![N, 1]⟩ : Shape) w) (a : Fin 2) :
    d.start j idx a = if a = 0 then (idx (ix2 (j 0) (0 : Fin 1))).toInt else 0 := by
  unfold ScatterDims.start
  simp only [siIdx_eq d huw hiv, hsd, List.mem_singleton, dite_eq_ite]
  split_ifs <;> rfl

/-- The window coordinate is 0 on axis 0 and the update's column on axis 1. -/
private theorem window_eq {V C N : Nat}
    (d : ScatterDims (⟨2, ![V, C]⟩ : Shape) (⟨2, ![N, 1]⟩ : Shape) (⟨2, ![N, C]⟩ : Shape))
    (huw : d.updateWindowDims = [1]) (hiw : d.insertedWindowDims = [0])
    (j : (⟨2, ![N, C]⟩ : Shape).Idx) (a : Fin 2) :
    d.window j a = if a = 0 then 0 else (j 1).val := by
  obtain ⟨uw, iw, sd, iv, wf⟩ := d
  subst huw hiw
  have hk : (⟨2, ![V, C]⟩ : Shape).kept [0] = [1] := by rfl
  unfold ScatterDims.window
  match a with
  | ⟨0, _⟩ =>
    rw [dif_neg (by show ¬ _ ∈ (⟨2, ![V, C]⟩ : Shape).kept [0]; rw [hk]; simp)]
    rfl
  | ⟨1, _⟩ =>
    rw [dif_pos (by show _ ∈ (⟨2, ![V, C]⟩ : Shape).kept [0]; rw [hk]; simp)]
    rw [if_neg (by simp)]
    exact congrArg (fun a => (j a).val) (by rfl : _ = (1 : Fin 2))

/-- The row of an update index, as a number below `N`. -/
private def rowOf {N C : Nat} (j : (⟨2, ![N, C]⟩ : Shape).Idx) : Fin N := j 0
/-- The column of an update index, as a number below `C`. -/
private def colOf {N C : Nat} (j : (⟨2, ![N, C]⟩ : Shape).Idx) : Fin C := j 1
/-- An update index is its row and its column. -/
private theorem eq_row_col {N C : Nat} (j : (⟨2, ![N, C]⟩ : Shape).Idx) : j = ix2 (rowOf j) (colOf j) := eq_ix2 j

/-- Row scatter-add of `N` update rows of `C` columns into `V` rows: if `σ` permutes the rows, `idx'` and `upd'` at row
    `σ r` being `idx` and `upd` at row `r`, both scatters give the same array. -/
theorem hostScatterAdd_row_perm {V C N w : Nat}
    (d : ScatterDims (⟨2, ![V, C]⟩ : Shape) (⟨2, ![N, 1]⟩ : Shape) (⟨2, ![N, C]⟩ : Shape))
    (huw : d.updateWindowDims = [1]) (hiw : d.insertedWindowDims = [0])
    (hsd : d.scatterDimsToOperandDims = [0]) (hiv : d.indexVectorDim = 1)
    (x : (⟨2, ![V, C]⟩ : Shape).Idx → EReal) (idx idx' : IVec (⟨2, ![N, 1]⟩ : Shape) w)
    (upd upd' : (⟨2, ![N, C]⟩ : Shape).Idx → EReal) (σ : Fin N ≃ Fin N)
    (hidx : ∀ r : Fin N, idx' (ix2 (σ r) (0 : Fin 1)) = idx (ix2 r (0 : Fin 1)))
    (hupd : ∀ (r : Fin N) (j : Fin C), upd' (ix2 (σ r) j) = upd (ix2 r j)) :
    Ideal.hostScatterAdd d x idx' upd' = Ideal.hostScatterAdd d x idx upd := by
  -- the permutation of the update rows, as a bijection of the update indices: row `r`, column `j` goes to row `σ r`, column `j`
  let τ : (⟨2, ![N, C]⟩ : Shape).Idx ≃ (⟨2, ![N, C]⟩ : Shape).Idx :=
    { toFun := fun j => ix2 (σ (rowOf j)) (colOf j)
      invFun := fun j => ix2 (σ.symm (rowOf j)) (colOf j)
      left_inv := fun j => by
        show ix2 (σ.symm (σ (rowOf j))) (colOf j) = j
        rw [Equiv.symm_apply_apply]
        exact (eq_row_col j).symm
      right_inv := fun j => by
        show ix2 (σ (σ.symm (rowOf j))) (colOf j) = j
        rw [Equiv.apply_symm_apply]
        exact (eq_row_col j).symm }
  -- the moved update lands where the original one did
  have hres : ∀ j, d.resultIdx? (τ j) idx' = d.resultIdx? j idx := by
    intro j
    have hs : ∀ a, d.start (τ j) idx' a = d.start j idx a := by
      intro a
      rw [start_eq d huw hsd hiv, start_eq d huw hsd hiv]
      show (if a = 0 then (idx' (ix2 (σ (rowOf j)) 0)).toInt else 0) = if a = 0 then (idx (ix2 (rowOf j) 0)).toInt else 0
      rw [hidx]
    have hw : ∀ a, d.window (τ j) a = d.window j a := by
      intro a
      rw [window_eq d huw hiw, window_eq d huw hiw]
      rfl
    unfold ScatterDims.resultIdx?
    simp only [hs, hw]
  funext i
  unfold Ideal.hostScatterAdd
  congr 1
  symm
  refine Finset.sum_equiv τ ?_ ?_
  · intro j
    simp only [Finset.mem_filter, Finset.mem_univ, true_and]
    rw [hres]
  · intro j _
    exact (congrArg upd (eq_row_col j)).trans (hupd (rowOf j) (colOf j)).symm

end Cert.Gnn

end
-- ==== Proof.Algebra.lean ====
/-
  Two perceptrons fused into one 256-wide pair of matrix products are the two perceptrons.

  The first layers of the two endpoints are laid side by side (columns `ep · 128 + k`), the second layers on the
  diagonal of a 256 × 256 matrix whose off-diagonal blocks are zero. Output column `ep · 128 + j` of the fused product
  is then endpoint `ep`'s message: the 256 hidden units split into the two endpoints' 128, and the other endpoint's
  half is multiplied by zero. On the extended reals `x · 0 = 0` for every `x`, infinite or not, so nothing needs to be
  finite.

  Also here: the two row orders of the message table are bijections from (edge type, endpoint, edge).
-/
import proofs.«431189_j85143431676502_1_alg».proof.Proof.Spec

noncomputable section

namespace Cert.Gnn

open Idealize.ShloMosaic Idealize.ShloMosaic.ValueIdx
open scoped BigOperators

/-- The columns of a 256-wide axis are the pairs (endpoint, column of the endpoint's 128). -/
private def col2Equiv : Fin 2 × Fin 128 ≃ Fin 256 where
  toFun p := col2 p.1 p.2
  invFun r := (⟨r.val / 128, by have := r.isLt; omega⟩, ⟨r.val % 128, by omega⟩)
  left_inv := by
    rintro ⟨ep, k⟩
    have h1 := ep.isLt
    have h2 := k.isLt
    refine Prod.ext (Fin.ext ?_) (Fin.ext ?_)
    · show (ep.val * 128 + k.val) / 128 = ep.val
      omega
    · show (ep.val * 128 + k.val) % 128 = k.val
      omega
  right_inv := by
    intro r
    refine Fin.ext ?_
    show r.val / 128 * 128 + r.val % 128 = r.val
    omega

/-- The fused product at output column `col2 ep j` is endpoint `ep`'s message. `B` is the two first layers side by side,
    `C` the block-diagonal of the two second layers. -/
theorem fused_eq_msg (raw : Fin 160000 → Fin 256 → EReal) (W1 : Fin 2 → Fin 256 → Fin 128 → EReal)
    (W2 : Fin 2 → Fin 128 → Fin 128 → EReal) (B C : Fin 256 → Fin 256 → EReal)
    (hB : ∀ (d : Fin 256) (ep : Fin 2) (k : Fin 128), B d (col2 ep k) = W1 ep d k)
    (hC : ∀ (ep' ep : Fin 2) (k j : Fin 128), C (col2 ep' k) (col2 ep j) = if ep' = ep then W2 ep k j else 0)
    (e : Fin 160000) (ep : Fin 2) (j : Fin 128) :
    ∑ k' : Fin 256, max (∑ d : Fin 256, raw e d * B d k') 0 * C k' (col2 ep j) = msg raw (W1 ep) (W2 ep) e j := by
  -- hidden unit `col2 ep' k` contributes endpoint `ep'`'s hidden unit `k` times its second layer when `ep' = ep`, and zero otherwise
  have hterm : ∀ (ep' : Fin 2) (k : Fin 128),
      max (∑ d : Fin 256, raw e d * B d (col2 ep' k)) 0 * C (col2 ep' k) (col2 ep j) =
        if ep' = ep then max (∑ d : Fin 256, raw e d * W1 ep d k) 0 * W2 ep k j else 0 := by
    intro ep' k
    rw [hC]
    simp only [hB]
    split_ifs with h
    · subst h; rfl
    · rw [mul_zero]
  unfold msg
  -- split the 256 hidden units into endpoint and unit of the endpoint
  rw [← Equiv.sum_comp col2Equiv, Fintype.sum_prod_type, Finset.sum_comm]
  show ∑ k : Fin 128, ∑ ep' : Fin 2,
      max (∑ d : Fin 256, raw e d * B d (col2 ep' k)) 0 * C (col2 ep' k) (col2 ep j) = _
  simp only [hterm, Finset.sum_ite_eq', Finset.mem_univ, if_true]

/-- Endpoint-major rows: a bijection from (edge type, endpoint, edge). -/
def rowKEquiv : Fin 4 × Fin 2 × Fin 160000 ≃ Fin 1280000 where
  toFun p := rowK p.1 p.2.1 p.2.2
  invFun r := (⟨r.val % 640000 / 160000, by omega⟩, ⟨r.val / 640000, by have := r.isLt; omega⟩, ⟨r.val % 160000, by omega⟩)
  left_inv := by
    rintro ⟨l, ep, e⟩
    have h1 := l.isLt
    have h2 := ep.isLt
    have h3 := e.isLt
    refine Prod.ext (Fin.ext ?_) (Prod.ext (Fin.ext ?_) (Fin.ext ?_))
    · show (ep.val * 640000 + l.val * 160000 + e.val) % 640000 / 160000 = l.val
      omega
    · show (ep.val * 640000 + l.val * 160000 + e.val) / 640000 = ep.val
      omega
    · show (ep.val * 640000 + l.val * 160000 + e.val) % 160000 = e.val
      omega
  right_inv := by
    intro r
    have h := r.isLt
    refine Fin.ext ?_
    show r.val / 640000 * 640000 + r.val % 640000 / 160000 * 160000 + r.val % 160000 = r.val
    omega

theorem rowKEquiv_apply (l : Fin 4) (ep : Fin 2) (e : Fin 160000) : rowKEquiv (l, ep, e) = rowK l ep e := rfl

/-- Edge-type-major rows: a bijection from (edge type, endpoint, edge). -/
def rowREquiv : Fin 4 × Fin 2 × Fin 160000 ≃ Fin 1280000 where
  toFun p := rowR p.1 p.2.1 p.2.2
  invFun r := (⟨r.val / 320000, by have := r.isLt; omega⟩, ⟨r.val / 160000 % 2, by omega⟩, ⟨r.val % 160000, by omega⟩)
  left_inv := by
    rintro ⟨l, ep, e⟩
    have h1 := l.isLt
    have h2 := ep.isLt
    have h3 := e.isLt
    refine Prod.ext (Fin.ext ?_) (Prod.ext (Fin.ext ?_) (Fin.ext ?_))
    · show ((2 * l.val + ep.val) * 160000 + e.val) / 320000 = l.val
      omega
    · show ((2 * l.val + ep.val) * 160000 + e.val) / 160000 % 2 = ep.val
      omega
    · show ((2 * l.val + ep.val) * 160000 + e.val) % 160000 = e.val
      omega
  right_inv := by
    intro r
    have h := r.isLt
    refine Fin.ext ?_
    show (2 * (r.val / 320000) + r.val / 160000 % 2) * 160000 + r.val % 160000 = r.val
    omega

theorem rowREquiv_apply (l : Fin 4) (ep : Fin 2) (e : Fin 160000) : rowREquiv (l, ep, e) = rowR l ep e := rfl

end Cert.Gnn

end
-- ==== Proof.Bridge.lean ====
/-
  The two programs return the same array.

  Both end in the same three steps: a scatter-add of a 1280000 × 128 table of messages into a zero 50000 × 128
  array at the rows a 1280000-long index column names, then a clamp at zero. The kernel's table has endpoint as its
  slowest row coordinate, the reference's has edge type; the row of (edge type l, endpoint ep, edge e) holds the same
  message in both — the fused 256-wide products of the kernel are the two endpoints' perceptrons — and the same
  node index, column ep of edge type l's adjacency list at e. A scatter-add over the extended reals does not
  depend on the order of its rows, so the two results agree at every node and feature.
-/
import proofs.«431189_j85143431676502_1_alg».proof.Proof.KHostIdeal
import proofs.«431189_j85143431676502_1_alg».proof.Proof.KOutIdeal
import proofs.«431189_j85143431676502_1_alg».proof.Proof.RefValue
import proofs.«431189_j85143431676502_1_alg».proof.Proof.LibScatterRows
import proofs.«431189_j85143431676502_1_alg».proof.Proof.Algebra

set_option maxRecDepth 16384

noncomputable section

namespace Cert.Bridge

open Idealize.ShloMosaic Idealize.ShloMosaic.TcCoe Idealize.ShloMosaic.ValueIdx Idealize.SL.Sem
open scoped BigOperators

/-- The gathered features are the same function of the node table and an adjacency list in both programs. -/
theorem rawOf_eq {F : FTy → Type} [FloatOps F] (x : FVec F Cert.KernelIdeal.S50000x128 .f32) (adj : IVec Cert.KernelIdeal.S160000x2 32) :
    Cert.KernelIdeal.Hand.rawOf x adj = Cert.ReferenceIdeal.RV.rawOf x adj := rfl

/-- The permutation taking the reference's row of (l, ep, e) to the kernel's. -/
def σ : Fin 1280000 ≃ Fin 1280000 := Cert.Gnn.rowREquiv.symm.trans Cert.Gnn.rowKEquiv

theorem σ_rowR (l : Fin 4) (ep : Fin 2) (e : Fin 160000) : σ (Cert.Gnn.rowR l ep e) = Cert.Gnn.rowK l ep e := by
  unfold σ
  rw [← Cert.Gnn.rowREquiv_apply, Equiv.trans_apply, Equiv.symm_apply_apply, Cert.Gnn.rowKEquiv_apply]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the seven arguments. -/
def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable {m m'}

theorem adjOf_eq (h : Agree m m') (c : Dev Cert.KernelIdeal.nD) (l : Fin 4) :
    Cert.ReferenceIdeal.RV.adjOf m' c l = Cert.KernelIdeal.Hand.adjOf m c l := by
  match l with
  | ⟨0, _⟩ => exact (h c).2.1
  | ⟨1, _⟩ => exact (h c).2.2.1
  | ⟨2, _⟩ => exact (h c).2.2.2.1
  | ⟨3, _⟩ => exact (h c).2.2.2.2.1

/-- Row by row, the kernel's scatter index is the reference's. -/
theorem idx_row (h : Agree m m') (c : Dev Cert.KernelIdeal.nD) (r : Fin 1280000) :
    Cert.KernelIdeal.Hand.idxOf (Cert.KernelIdeal.Hand.adjOf m c) (ix2 (σ r) (0 : Fin 1))
      = Cert.ReferenceIdeal.RV.idxR m' c (ix2 r (0 : Fin 1)) := by
  obtain ⟨⟨l, ep, e⟩, rfl⟩ := Cert.Gnn.rowREquiv.surjective r
  rw [Cert.Gnn.rowREquiv_apply, σ_rowR, Cert.KernelIdeal.Hand.idxOf_at, Cert.ReferenceIdeal.RV.idxR_at, adjOf_eq h]

/-- Row by row, the kernel's message is the reference's: the fused products are the two perceptrons. -/
theorem upd_row (h : Agree m m') (c : Dev Cert.KernelIdeal.nD) (r : Fin 1280000) (j : Fin 128) :
    (Cert.KernelIdeal.Hand.updOf (F := Ideal) ((Cert.KernelIdeal.Hand.dats m 0 c).arrAt 3 Cert.KernelIdeal.cfg0.N) : Cert.KernelIdeal.S1280000x128.Idx → EReal) (ix2 (σ r) j)
      = (Cert.ReferenceIdeal.RV.updR m' c : Cert.ReferenceIdeal.S1280000x128.Idx → EReal) (ix2 r j) := by
  obtain ⟨⟨l, ep, e⟩, rfl⟩ := Cert.Gnn.rowREquiv.surjective r
  rw [Cert.Gnn.rowREquiv_apply, σ_rowR, Cert.KernelIdeal.Hand.updOf_at, Cert.ReferenceIdeal.RV.updR_at]
  refine (Cert.KernelIdeal.Hand.out_at m c l e (Cert.Gnn.col2 ep j)).trans ?_
  refine (Cert.Gnn.fused_eq_msg
    (fun e d => Cert.KernelIdeal.Hand.arrRaw m c (ix3 l e d))
    (fun ep d k => (m ((c : Thread Cert.KernelIdeal.nD Cert.KernelIdeal.τ).loc Cert.KernelIdeal.main_arg5) : Cert.KernelIdeal.S4x2x256x128.Idx → EReal) (ix4 l ep d k))
    (fun ep k j => (m ((c : Thread Cert.KernelIdeal.nD Cert.KernelIdeal.τ).loc Cert.KernelIdeal.main_arg6) : Cert.KernelIdeal.S4x2x128x128.Idx → EReal) (ix4 l ep k j))
    (fun d k' => Cert.KernelIdeal.Hand.arrW1 m c (ix3 l d k'))
    (fun k' j' => Cert.KernelIdeal.Hand.arrW2 m c (ix3 l k' j'))
    (fun d ep k => Cert.KernelIdeal.Hand.V_w1_at m c l d ep k)
    (fun ep' ep k j => Cert.KernelIdeal.Hand.V_w2_at m c l ep' ep k j) e ep j).trans ?_
  rw [adjOf_eq h, (h c).1, (h c).2.2.2.2.2.1, (h c).2.2.2.2.2.2]
  congr 1
  funext e d
  exact (Cert.KernelIdeal.Hand.V_raw_at m c l e d).trans (congrFun (rawOf_eq _ _) _)

/-- THE BRIDGE: what the kernel program returns is what the reference returns, from memories agreeing on the arguments. -/
theorem result_eq (h : Agree m m') (c : Dev Cert.KernelIdeal.nD) :
    (Cert.KernelIdeal.Hand.tailOf (F := Ideal) ((Cert.KernelIdeal.Hand.dats m 0 c).arrAt 3 Cert.KernelIdeal.cfg0.N) (Cert.KernelIdeal.Hand.adjOf m c) : Cert.KernelIdeal.S50000x128.Idx → EReal)
      = maximumf
          (Host.scatterAdd Cert.ReferenceIdeal.scatter_S50000x128_S1280000x1_S1280000x128_1_0_0_1
            (broadcastInDim Cert.ReferenceIdeal.S50000x128 ![] Cert.ReferenceIdeal.Gen.bcast_S_S50000x128 (constant Cert.ReferenceIdeal.S_ .f32 0x00000000#32))
            (Cert.ReferenceIdeal.RV.idxR m' c) (Cert.ReferenceIdeal.RV.updR m' c))
          (broadcastInDim Cert.ReferenceIdeal.S50000x128 ![] Cert.ReferenceIdeal.Gen.bcast_S_S50000x128 (constant Cert.ReferenceIdeal.S_ .f32 0x00000000#32)) := by
  unfold Cert.KernelIdeal.Hand.tailOf
  have key := Cert.Gnn.hostScatterAdd_row_perm (w := 32)
    Cert.ReferenceIdeal.scatter_S50000x128_S1280000x1_S1280000x128_1_0_0_1 rfl rfl rfl rfl
    (broadcastInDim Cert.ReferenceIdeal.S50000x128 ![] Cert.ReferenceIdeal.Gen.bcast_S_S50000x128 (constant (F := Ideal) Cert.ReferenceIdeal.S_ .f32 0x00000000#32))
    (Cert.ReferenceIdeal.RV.idxR m' c) (Cert.KernelIdeal.Hand.idxOf (Cert.KernelIdeal.Hand.adjOf m c))
    (Cert.ReferenceIdeal.RV.updR m' c)
    (Cert.KernelIdeal.Hand.updOf (F := Ideal) ((Cert.KernelIdeal.Hand.dats m 0 c).arrAt 3 Cert.KernelIdeal.cfg0.N))
    σ (idx_row h c) (upd_row h c)
  exact congrArg (fun z => maximumf z (broadcastInDim Cert.ReferenceIdeal.S50000x128 ![] Cert.ReferenceIdeal.Gen.bcast_S_S50000x128 (constant (F := Ideal) Cert.ReferenceIdeal.S_ .f32 0x00000000#32))) key

end Cert.Bridge

end
-- ==== Proof.lean ====
/-
  The certificate of a graph message-passing kernel against its plain reference, over the extended reals.

  Both programs gather, for each of four edge types, the features of every edge's two endpoint nodes; apply to the 256
  gathered features one two-layer perceptron per endpoint (first layer, clamp at zero, second layer); add every
  message into the row of the node its endpoint names; and clamp the sums at zero. The kernel does the perceptrons in
  one pipelined region over a 4 × 40 grid, the two endpoints fused into 256-wide matrix products whose second factor
  is block diagonal, and lists the messages endpoint first; the reference does eight separate pairs of products and
  lists them edge type first. A change of float format is the identity on the extended reals, a product with an
  exact zero is zero, and a scatter-add does not depend on the order of its rows: the results are equal, with no
  use of the inputs' finiteness.

  The three frames: the two kernel programs run through the pipeline library's frame theorem with one body triple
  (three whole-block loads, the arithmetic, one whole-block store); the reference is host operations only.
  The kernel's idealization rewrote nothing, so `preserves` is trivial.
-/
import proofs.«431189_j85143431676502_1_alg».proof.Defs
import proofs.«431189_j85143431676502_1_alg».proof.Proof.Gen.Kernel
import proofs.«431189_j85143431676502_1_alg».proof.Proof.Gen.KernelIdeal
import proofs.«431189_j85143431676502_1_alg».proof.Proof.Gen.ReferenceIdeal
import proofs.«431189_j85143431676502_1_alg».proof.Proof.Gen.Pre_finite_inputs
import proofs.«431189_j85143431676502_1_alg».proof.Proof.FrameKernel
import proofs.«431189_j85143431676502_1_alg».proof.Proof.KValueIdeal
import proofs.«431189_j85143431676502_1_alg».proof.Proof.RefRes
import proofs.«431189_j85143431676502_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueH.run (F := Ideal) m ρ)

/-- Both runs end, the kernel's result at the tail's function of the region's output, the reference's at its composed
    term; the two are one array (`Cert.Bridge.result_eq`). -/
theorem algebraic : Cert.algebraic_KernelIdeal_ReferenceIdeal := by
  intro m ρ m' ρ' _ hagree
  refine ⟨fun c => Cert.KernelIdeal.Hand.tailOf (F := Ideal) ((Cert.KernelIdeal.Hand.dats m 0 c).arrAt 3 Cert.KernelIdeal.cfg0.N) (Cert.KernelIdeal.Hand.adjOf m c),
    Cert.KernelIdeal.Hand.value_run m ρ, ?_⟩
  refine (θ_run Cert.ReferenceIdeal.defs _ _).mono (fun _ h c => ⟨(h c).1.trans ?_, (h c).2⟩)
    (Cert.ReferenceIdeal.ValueH.run (F := Ideal) m' ρ')
  exact (Cert.ReferenceIdeal.RV.res_eq m' c).trans (Cert.Bridge.result_eq (m := m) (m' := m') hagree c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
